-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_v45) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S40192x768 : Shape := ⟨2, ![40192, 768]⟩
abbrev S32000x768 : Shape := ⟨2, ![32000, 768]⟩
abbrev S768x768 : Shape := ⟨2, ![768, 768]⟩
abbrev S768 : Shape := ⟨1, ![768]⟩
abbrev S768x8192 : Shape := ⟨2, ![768, 8192]⟩
abbrev S8192 : Shape := ⟨1, ![8192]⟩
abbrev S784x32000 : Shape := ⟨2, ![784, 32000]⟩
abbrev S32000x4 : Shape := ⟨2, ![32000, 4]⟩
abbrev S_ : Shape := ⟨0, ![]⟩

class Facts : Prop where
  bcast_S_S40192x768 : S_.BroadcastsInDim S40192x768 (![] : Fin 0 → Fin S40192x768.rank)
  reducesTo_S40192x768_S_d0_1 : S40192x768.ReducesTo [0, 1] S_
  h_S_ : 0 < S_.numel
  bcast_S_S32000x768 : S_.BroadcastsInDim S32000x768 (![] : Fin 0 → Fin S32000x768.rank)
  reducesTo_S32000x768_S_d0_1 : S32000x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S768x8192 : S_.BroadcastsInDim S768x8192 (![] : Fin 0 → Fin S768x8192.rank)
  reducesTo_S768x8192_S_d0_1 : S768x8192.ReducesTo [0, 1] S_
  bcast_S_S8192 : S_.BroadcastsInDim S8192 (![] : Fin 0 → Fin S8192.rank)
  reducesTo_S8192_S_d0 : S8192.ReducesTo [0] S_
  bcast_S_S784x32000 : S_.BroadcastsInDim S784x32000 (![] : Fin 0 → Fin S784x32000.rank)
  reducesTo_S784x32000_S_d0_1 : S784x32000.ReducesTo [0, 1] S_
  bcast_S_S32000x4 : S_.BroadcastsInDim S32000x4 (![] : Fin 0 → Fin S32000x4.rank)
  reducesTo_S32000x4_S_d0_1 : S32000x4.ReducesTo [0, 1] S_

variable [Facts]

def fn_part2 {F : FTy → Type} [FloatOps F] (main_arg8 : IVec S32000x4 32) (main_arg9 : FVec F S32000x4 .f32) (main_v33 : IVec S_ 1) : IVec S_ 1 :=
  let main_v34 : FVec F S32000x4 .f32 := Host.absf main_arg9
  let main_cst_12 : FVec F S_ .f32 := constant S_ .f32 0x7F800000#32
  let main_v35 : FVec F S32000x4 .f32 := broadcastInDim S32000x4 ![] bcast_S_S32000x4 main_cst_12
  let main_v36 : IVec S32000x4 1 := cmpf .olt main_v34 main_v35
  let main_c_13 : IVec S_ 1 := constantI S_ 1 1#1
  let main_v37 : IVec S_ 1 := (fun x v => Host.reduce IntOp.andi x v reducesTo_S32000x4_S_d0_1 h_S_) main_v36 main_c_13
  let main_v38 : IVec S_ 1 := andi main_v33 main_v37
  let main_c_14 : IVec S_ 32 := constantI S_ 32 0#32
  let main_v39 : IVec S32000x4 32 := broadcastInDim S32000x4 ![] bcast_S_S32000x4 main_c_14
  let main_v40 : IVec S32000x4 1 := cmpi .sge main_arg8 main_v39
  let main_c_15 : IVec S_ 32 := constantI S_ 32 8192#32
  let main_v41 : IVec S32000x4 32 := broadcastInDim S32000x4 ![] bcast_S_S32000x4 main_c_15
  let main_v42 : IVec S32000x4 1 := cmpi .slt main_arg8 main_v41
  let main_v43 : IVec S32000x4 1 := andi main_v40 main_v42
  let main_c_16 : IVec S_ 1 := constantI S_ 1 1#1
  let main_v44 : IVec S_ 1 := (fun x v => Host.reduce IntOp.andi x v reducesTo_S32000x4_S_d0_1 h_S_) main_v43 main_c_16
  let main_v45 : IVec S_ 1 := andi main_v38 main_v44
  main_v45

def fn_part1 {F : FTy → Type} [FloatOps F] (main_arg5 : FVec F S768x8192 .f32) (main_arg6 : FVec F S8192 .f32) (main_arg7 : FVec F S784x32000 .f32) (main_arg8 : IVec S32000x4 32) (main_arg9 : FVec F S32000x4 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x8192 .f32 := Host.absf main_arg5
  let main_cst_6 : FVec F S_ .f32 := constant S_ .f32 0x7F800000#32
  let main_v20 : FVec F S768x8192 .f32 := broadcastInDim S768x8192 ![] bcast_S_S768x8192 main_cst_6
  let main_v21 : IVec S768x8192 1 := cmpf .olt main_v19 main_v20
  let main_c_7 : IVec S_ 1 := constantI S_ 1 1#1
  let main_v22 : IVec S_ 1 := (fun x v => Host.reduce IntOp.andi x v reducesTo_S768x8192_S_d0_1 h_S_) main_v21 main_c_7
  let main_v23 : IVec S_ 1 := andi main_v18 main_v22
  let main_v24 : FVec F S8192 .f32 := Host.absf main_arg6
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S784x32000 .f32 := Host.absf main_arg7
  let main_cst_10 : FVec F S_ .f32 := constant S_ .f32 0x7F800000#32
  let main_v30 : FVec F S784x32000 .f32 := broadcastInDim S784x32000 ![] bcast_S_S784x32000 main_cst_10
  let main_v31 : IVec S784x32000 1 := cmpf .olt main_v29 main_v30
  let main_c_11 : IVec S_ 1 := constantI S_ 1 1#1
  let main_v32 : IVec S_ 1 := (fun x v => Host.reduce IntOp.andi x v reducesTo_S784x32000_S_d0_1 h_S_) main_v31 main_c_11
  let main_v33 : IVec S_ 1 := andi main_v28 main_v32
  fn_part2 (F := F) main_arg8 main_arg9 main_v33

def fn {F : FTy → Type} [FloatOps F] (main_arg0 : IVec S2x2048 32) (main_arg1 : FVec F S40192x768 .f32) (main_arg2 : FVec F S32000x768 .f32) (main_arg3 : FVec F S768x768 .f32) (main_arg4 : FVec F S768 .f32) (main_arg5 : FVec F S768x8192 .f32) (main_arg6 : FVec F S8192 .f32) (main_arg7 : FVec F S784x32000 .f32) (main_arg8 : IVec S32000x4 32) (main_arg9 : FVec F S32000x4 .f32) : IVec S_ 1 :=
  let main_v0 : FVec F S40192x768 .f32 := Host.absf main_arg1
  let main_cst : FVec F S_ .f32 := constant S_ .f32 0x7F800000#32
  let main_v1 : FVec F S40192x768 .f32 := broadcastInDim S40192x768 ![] bcast_S_S40192x768 main_cst
  let main_v2 : IVec S40192x768 1 := cmpf .olt main_v0 main_v1
  let main_c : IVec S_ 1 := constantI S_ 1 1#1
  let main_v3 : IVec S_ 1 := (fun x v => Host.reduce IntOp.andi x v reducesTo_S40192x768_S_d0_1 h_S_) main_v2 main_c
  let main_v4 : FVec F S32000x768 .f32 := Host.absf main_arg2
  let main_cst_0 : FVec F S_ .f32 := constant S_ .f32 0x7F800000#32
  let main_v5 : FVec F S32000x768 .f32 := broadcastInDim S32000x768 ![] bcast_S_S32000x768 main_cst_0
  let main_v6 : IVec S32000x768 1 := cmpf .olt main_v4 main_v5
  let main_c_1 : IVec S_ 1 := constantI S_ 1 1#1
  let main_v7 : IVec S_ 1 := (fun x v => Host.reduce IntOp.andi x v reducesTo_S32000x768_S_d0_1 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_arg6 main_arg7 main_arg8 main_arg9 main_v13 main_v16
-- ==== Kernel.lean ====
abbrev S2x2048 : Shape := ⟨2, ![2, 2048]⟩
abbrev S40192x768 : Shape := ⟨2, ![40192, 768]⟩
abbrev S32000x768 : Shape := ⟨2, ![32000, 768]⟩
abbrev S768x768 : Shape := ⟨2, ![768, 768]⟩
abbrev S768 : Shape := ⟨1, ![768]⟩
abbrev S768x8192 : Shape := ⟨2, ![768, 8192]⟩
abbrev S8192 : Shape := ⟨1, ![8192]⟩
abbrev S784x32000 : Shape := ⟨2, ![784, 32000]⟩
abbrev S32000x4 : Shape := ⟨2, ![32000, 4]⟩
abbrev S4096 : Shape := ⟨1, ![4096]⟩
abbrev S_ : Shape := ⟨0, ![]⟩
abbrev S4096x1 : Shape := ⟨2, ![4096, 1]⟩
abbrev S4096x768 : Shape := ⟨2, ![4096, 768]⟩
abbrev S4096x4 : Shape := ⟨2, ![4096, 4]⟩
abbrev S1x768 : Shape := ⟨2, ![1, 768]⟩
abbrev S1x8192 : Shape := ⟨2, ![1, 8192]⟩
abbrev S4096x1584 : Shape := ⟨2, ![4096, 1584]⟩
abbrev S4096x8192 : Shape := ⟨2, ![4096, 8192]⟩
abbrev S64x768 : Shape := ⟨2, ![64, 768]⟩
abbrev S64x4 : Shape := ⟨2, ![64, 4]⟩
abbrev S64x1584 : Shape := ⟨2, ![64, 1584]⟩
abbrev S64x8192 : Shape := ⟨2, ![64, 8192]⟩
abbrev S64x16 : Shape := ⟨2, ![64, 16]⟩
abbrev S64x784 : Shape := ⟨2, ![64, 784]⟩
abbrev S64x32 : Shape := ⟨2, ![64, 32]⟩
abbrev S64x1 : Shape := ⟨2, ![64, 1]⟩
abbrev S768x32000 : Shape := ⟨2, ![768, 32000]⟩
abbrev S16x32000 : Shape := ⟨2, ![16, 32000]⟩
abbrev S32000 : Shape := ⟨1, ![32000]⟩
abbrev S1x32000 : Shape := ⟨2, ![1, 32000]⟩
abbrev S4096x32000 : Shape := ⟨2, ![4096, 32000]⟩
abbrev S512x768 : Shape := ⟨2, ![512, 768]⟩
abbrev S768x3200 : Shape := ⟨2, ![768, 3200]⟩
abbrev S1x3200 : Shape := ⟨2, ![1, 3200]⟩
abbrev S512x3200 : Shape := ⟨2, ![512, 3200]⟩
abbrev S2x2048x1584 : Shape := ⟨3, ![2, 2048, 1584]⟩
abbrev S2x2048x32000 : Shape := ⟨3, ![2, 2048, 32000]⟩
abbrev S2x2048x8192 : Shape := ⟨3, ![2, 2048, 8192]⟩

abbrev nBuf : Space → Nat
  | .hbm => 69
  | .vmem => 28
  | .smem => 0
  | _ => 0

abbrev bufTy : (tb : Table) → Fin (tcTables nBuf tb) → BufTy
  | .hbm, ⟨0, _⟩ => ⟨S2x2048, .i32⟩
  | .hbm, ⟨1, _⟩ => ⟨S40192x768, .f32⟩
  | .hbm, ⟨2, _⟩ => ⟨S32000x768, .f32⟩
  | .hbm, ⟨3, _⟩ => ⟨S768x768, .f32⟩
  | .hbm, ⟨4, _⟩ => ⟨S768, .f32⟩
  | .hbm, ⟨5, _⟩ => ⟨S768x8192, .f32⟩
  | .hbm, ⟨6, _⟩ => ⟨S8192, .f32⟩
  | .hbm, ⟨7, _⟩ => ⟨S784x32000, .f32⟩
  | .hbm, ⟨8, _⟩ => ⟨S32000x4, .i32⟩
  | .hbm, ⟨9, _⟩ => ⟨S32000x4, .f32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x768, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x768, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x4, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x4, .f32⟩
  | .hbm, ⟨47, _⟩ => ⟨S768x768, .bf16⟩
  | .hbm, ⟨48, _⟩ => ⟨S768x8192, .bf16⟩
  | .hbm, ⟨49, _⟩ => ⟨S1x768, .f32⟩
  | .hbm, ⟨50, _⟩ => ⟨S1x8192, .f32⟩
  | .hbm, ⟨51, _⟩ => ⟨S4096x1584, .f32⟩
  | .hbm, ⟨52, _⟩ => ⟨S4096x8192, .f32⟩
  | .hbm, ⟨53, _⟩ => ⟨S4096x768, .bf16⟩
  | .hbm, ⟨54, _⟩ => ⟨S4096x8192, .f32⟩
  | .hbm, ⟨55, _⟩ => ⟨S768x32000, .f32⟩
  | .hbm, ⟨56, _⟩ => ⟨S768x32000, .bf16⟩
  | .hbm, ⟨57, _⟩ => ⟨S16x32000, .f32⟩
  | .hbm, ⟨58, _⟩ => ⟨S_, .f32⟩
  | .hbm, ⟨59, _⟩ => ⟨S32000, .f32⟩
  | .hbm, ⟨60, _⟩ => ⟨S_, .f32⟩
  | .hbm, ⟨61, _⟩ => ⟨S32000, .f32⟩
  | .hbm, ⟨62, _⟩ => ⟨S32000, .f32⟩
  | .hbm, ⟨63, _⟩ => ⟨S1x32000, .f32⟩
  | .hbm, ⟨64, _⟩ => ⟨S4096x32000, .f32⟩
  | .hbm, ⟨65, _⟩ => ⟨S2x2048x1584, .f32⟩
  | .hbm, ⟨66, _⟩ => ⟨S2x2048x32000, .f32⟩
  | .hbm, ⟨67, _⟩ => ⟨S2x2048x8192, .f32⟩
  | .hbm, ⟨68, _⟩ => ⟨S2x2048x8192, .f32⟩
  | .local _ .vmem, ⟨0, _⟩ => ⟨S64x768, .f32⟩
  | .local _ .vmem, ⟨1, _⟩ => ⟨S64x768, .f32⟩
  | .local _ .vmem, ⟨2, _⟩ => ⟨S64x768, .f32⟩
  | .local _ .vmem, ⟨3, _⟩ => ⟨S64x768, .f32⟩
  | .local _ .vmem, ⟨4, _⟩ => ⟨S64x4, .i32⟩
  | .local _ .vmem, ⟨5, _⟩ => ⟨S64x4, .i32⟩
  | .local _ .vmem, ⟨6, _⟩ => ⟨S64x4, .f32⟩
  | .local _ .vmem, ⟨7, _⟩ => ⟨S64x4, .f32⟩
  | .local _ .vmem, ⟨8, _⟩ => ⟨S768x768, .bf16⟩
  | .local _ .vmem, ⟨9, _⟩ => ⟨S1x768, .f32⟩
  | .local _ .vmem, ⟨10, _⟩ => ⟨S768x8192, .bf16⟩
  | .local _ .vmem, ⟨11, _⟩ => ⟨S1x8192, .f32⟩
  | .local _ .vmem, ⟨12, _⟩ => ⟨S64x1584, .f32⟩
  | .local _ .vmem, ⟨13, _⟩ => ⟨S64x1584, .f32⟩
  | .local _ .vmem, ⟨14, _⟩ => ⟨S64x8192, .f32⟩
  | .local _ .vmem, ⟨15, _⟩ => ⟨S64x8192, .f32⟩
  | .local _ .vmem, ⟨16, _⟩ => ⟨S64x768, .bf16⟩
  | .local _ .vmem, ⟨17, _⟩ => ⟨S64x768, .bf16⟩
  | .local _ .vmem, ⟨18, _⟩ => ⟨S64x8192, .f32⟩
  | .local _ .vmem, ⟨19, _⟩ => ⟨S64x8192, .f32⟩
  | .local _ .vmem, ⟨20, _⟩ => ⟨S512x768, .bf16⟩
  | .local _ .vmem, ⟨21, _⟩ => ⟨S512x768, .bf16⟩
  | .local _ .vmem, ⟨22, _⟩ => ⟨S768x3200, .bf16⟩
  | .local _ .vmem, ⟨23, _⟩ => ⟨S768x3200, .bf16⟩
  | .local _ .vmem, ⟨24, _⟩ => ⟨S1x3200, .f32⟩
  | .local _ .vmem, ⟨25, _⟩ => ⟨S1x3200, .f32⟩
  | .local _ .vmem, ⟨26, _⟩ => ⟨S512x3200, .f32⟩
  | .local _ .vmem, ⟨27, _⟩ => ⟨S512x3200, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev main_v33_2 : Ref sig .tc := ⟨.hbm, 53, rfl⟩
abbrev main_v33_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x1584 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S768x3200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S2x2048_S4096 : S2x2048.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  shapeCasts_S768_S1x768 : S768.ShapeCasts S1x768
  shapeCasts_S8192_S1x8192 : S8192.ShapeCasts S1x8192
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S64x768 : S1x768.Broadcasts S64x768
  inb_S768x8192_S768x8192_0_0 : ∀ a, (![0, 0] : Fin 2 → Nat) a + S768x8192.size a ≤ S768x8192.size a
  h_S768x8192 : 0 < S768x8192.numel
  shapeCasts_S768x8192_S768x8192 : S768x8192.ShapeCasts S768x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S64x8192 : S1x8192.Broadcasts S64x8192
  inb_S64x8192_S64x8192_0_0 : ∀ a, (![0, 0] : Fin 2 → Nat) a + S64x8192.size a ≤ S64x8192.size a
  h_S64x8192 : 0 < S64x8192.numel
  concatenates_S64x768_S64x16_S64x784_d1 : Shape.Concatenates [S64x768, S64x16] S64x784 1
  concatenates_S64x784_S64x32_S64x768_S64x1584_d1 : Shape.Concatenates [S64x784, S64x32, S64x768] S64x1584 1
  inb_S64x1584_S64x1584_0_0 : ∀ a, (![0, 0] : Fin 2 → Nat) a + S64x1584.size a ≤ S64x1584.size a
  h_S64x1584 : 0 < S64x1584.numel
  packedbf16_S64x768_S64x768_0_0 : (Rect.unit (s := S64x768) ![0, 0] S64x768.size inb_S64x768_S64x768_0_0).PackedRows (EltTy.packing .bf16)
  inb_S64x4_S64x4_0_0 : ∀ a, (![0, 0] : Fin 2 → Nat) a + S64x4.size a ≤ S64x4.size a
  h_S64x4 : 0 < S64x4.numel
  shapeCasts_S64x4_S64x4 : S64x4.ShapeCasts S64x4
  iota_S64x8192_d1_w32 : S64x8192.Iotas .tc 32 [1]
  slices_S64x4_o0_0_S64x1 : S64x4.Slices ![0, 0] S64x1
  broadcasts_S64x1_S64x8192 : S64x1.Broadcasts S64x8192
  natLt_1_32 : 1 < 32
  slices_S64x4_o0_1_S64x1 : S64x4.Slices ![0, 1] S64x1
  slices_S64x4_o0_2_S64x1 : S64x4.Slices ![0, 2] S64x1
  slices_S64x4_o0_3_S64x1 : S64x4.Slices ![0, 3] S64x1
  slices_S784x32000_S768x32000_0_0 : S784x32000.Slices ![0, 0] S768x32000
  slices_S784x32000_S16x32000_768_0 : S784x32000.Slices ![768, 0] S16x32000
  reducesTo_S16x32000_S32000_d0 : S16x32000.ReducesTo [0] S32000
  h_S_ : 0 < S_.numel
  bcast_S_S32000 : S_.BroadcastsInDim S32000 (![] : Fin 0 → Fin S32000.rank)
  shapeCasts_S32000_S1x32000 : S32000.ShapeCasts S1x32000
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x3200_S768x3200_0_0 : ∀ a, (![0, 0] : Fin 2 → Nat) a + S768x3200.size a ≤ S768x3200.size a
  h_S768x3200 : 0 < S768x3200.numel
  shapeCasts_S768x3200_S768x3200 : S768x3200.ShapeCasts S768x3200
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  inb_S512x3200_S512x3200_0_0 : ∀ a, (![0, 0] : Fin 2 → Nat) a + S512x3200.size a ≤ S512x3200.size a
  h_S512x3200 : 0 < S512x3200.numel
  shapeCasts_S4096x1584_S2x2048x1584 : S4096x1584.ShapeCasts S2x2048x1584
  shapeCasts_S4096x32000_S2x2048x32000 : S4096x32000.ShapeCasts S2x2048x32000
  shapeCasts_S4096x8192_S2x2048x8192 : S4096x8192.ShapeCasts S2x2048x8192
  gather_S40192x768_S4096x1_S4096x768_1_0_n_n_0_1_1768_wf : GatherDims.WF S40192x768 S4096x1 S4096x768 [1] [0] [] [0] [] 1 ![1, 768]
  gather_S32000x768_S4096x1_S4096x768_1_0_n_n_0_1_1768_wf : GatherDims.WF S32000x768 S4096x1 S4096x768 [1] [0] [] [0] [] 1 ![1, 768]
  gather_S32000x4_S4096x1_S4096x4_1_0_n_n_0_1_14_wf : GatherDims.WF S32000x4 S4096x1 S4096x4 [1] [0] [] [0] [] 1 ![1, 4]
  dot_S64x768_S768x768_S64x768_1_0_0_1_n_n_wf : DotDims.WF S64x768 S768x768 S64x768 [1] [0] [0] [1] [] []
  dot_S64x768_S768x8192_S64x8192_1_0_0_1_n_n_wf : DotDims.WF S64x768 S768x8192 S64x8192 [1] [0] [0] [1] [] []
  dot_S512x768_S768x3200_S512x3200_1_0_0_1_n_n_wf : DotDims.WF S512x768 S768x3200 S512x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x768.size a ≤ S4096x768.size a
  hwx0_0 : ∀ i : grid0.Coords, EltTy.bits .f32 = 32 ∨ (Rect.block (s := S4096x768) S64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S4096x768.size a
  hwx0_1 : ∀ i : grid0.Coords, EltTy.bits .f32 = 32 ∨ (Rect.block (s := S4096x768) S64x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4.size a ≤ S4096x4.size a
  hwx0_2 : ∀ i : grid0.Coords, EltTy.bits .i32 = 32 ∨ (Rect.block (s := S4096x4) S64x4.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S4096x4.size a
  hwx0_3 : ∀ i : grid0.Coords, EltTy.bits .f32 = 32 ∨ (Rect.block (s := S4096x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x8192.size a ≤ S768x8192.size a
  hwx0_6 : ∀ i : grid0.Coords, EltTy.bits .bf16 = 32 ∨ (Rect.block (s := S768x8192) S768x8192.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8192.size a ≤ S1x8192.size a
  hwx0_7 : ∀ i : grid0.Coords, EltTy.bits .f32 = 32 ∨ (Rect.block (s := S1x8192) S1x8192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1584.size a ≤ S4096x1584.size a
  hwx0_8 : ∀ i : grid0.Coords, EltTy.bits .f32 = 32 ∨ (Rect.block (s := S4096x1584) S64x1584.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x8192.size a ≤ S4096x8192.size a
  hwx0_9 : ∀ i : grid0.Coords, EltTy.bits .f32 = 32 ∨ (Rect.block (s := S4096x8192) S64x8192.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x768.size a ≤ S4096x768.size a
  hwx0_10 : ∀ i : grid0.Coords, EltTy.bits .bf16 = 32 ∨ (Rect.block (s := S4096x768) S64x768.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x8192.size a ≤ S4096x8192.size a
  hwx0_11 : ∀ i : grid0.Coords, EltTy.bits .f32 = 32 ∨ (Rect.block (s := S4096x8192) S64x8192.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S4096x768.size a
  hwx1_0 : ∀ i : grid1.Coords, EltTy.bits .bf16 = 32 ∨ (Rect.block (s := S4096x768) S512x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S768x3200.size a ≤ S768x32000.size a
  hwx1_1 : ∀ i : grid1.Coords, EltTy.bits .bf16 = 32 ∨ (Rect.block (s := S768x32000) S768x3200.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x3200.size a ≤ S4096x32000.size a
  hwx1_3 : ∀ i : grid1.Coords, EltTy.bits .f32 = 32 ∨ (Rect.block (s := S4096x32000) S512x3200.size (cc1_transform_3 i) (hinb1_3 i)).WholeWords (EltTy.packing .f32)

variable [Facts₀]

def gather_S40192x768_S4096x1_S4096x768_1_0_n_n_0_1_1768 : GatherDims S40192x768 S4096x1 S4096x768 where
  offsetDims := [1]
  collapsedSliceDims := [0]
  operandBatchingDims := []
  startIndicesBatchingDims := []
  startIndexMap := [0]
  indexVectorDim := 1
  sliceSizes := ![1, 768]
  wf := gather_S40192x768_S4096x1_S4096x768_1_0_n_n_0_1_1768_wf
def gather_S32000x768_S4096x1_S4096x768_1_0_n_n_0_1_1768 : GatherDims S32000x768 S4096x1 S4096x768 where
  offsetDims := [1]
  collapsedSliceDims := [0]
  operandBatchingDims := []
  startIndicesBatchingDims := []
  startIndexMap := [0]
  indexVectorDim := 1
  sliceSizes := ![1, 768]
  wf := gather_S32000x768_S4096x1_S4096x768_1_0_n_n_0_1_1768_wf
def gather_S32000x4_S4096x1_S4096x4_1_0_n_n_0_1_14 : GatherDims S32000x4 S4096x1 S4096x4 where
  offsetDims := [1]
  collapsedSliceDims := [0]
  operandBatchingDims := []
  startIndicesBatchingDims := []
  startIndexMap := [0]
  indexVectorDim := 1
  sliceSizes := ![1, 4]
  wf := gather_S32000x4_S4096x1_S4096x4_1_0_n_n_0_1_14_wf
def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S64x768_S768x8192_S64x8192_1_0_0_1_n_n : DotDims S64x768 S768x8192 S64x8192 where
  lhsContracting := [1]
  rhsContracting := [0]
  lhsNonContracting := [0]
  rhsNonContracting := [1]
  lhsBatch := []
  rhsBatch := []
  wf := dot_S64x768_S768x8192_S64x8192_1_0_0_1_n_n_wf
def dot_S512x768_S768x3200_S512x3200_1_0_0_1_n_n : DotDims S512x768 S768x3200 S512x3200 where
  lhsContracting := [1]
  rhsContracting := [0]
  lhsNonContracting := [0]
  rhsNonContracting := [1]
  lhsBatch := []
  rhsBatch := []
  wf := dot_S512x768_S768x3200_S512x3200_1_0_0_1_n_n_wf

abbrev win0_0 : Pipeline.Window sig grid0 :=
  Pipeline.Window.ofSpec (Memref.whole main_v7) S64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S64x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S768x8192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x8192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33_0) S64x1584.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v33_1) S64x8192.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v33_2) S64x768.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v33_3) S64x8192.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v33_2) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S768x3200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S512x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048 : Shape := ⟨2, ![2, 2048]⟩
abbrev S40192x768 : Shape := ⟨2, ![40192, 768]⟩
abbrev S32000x768 : Shape := ⟨2, ![32000, 768]⟩
abbrev S768x768 : Shape := ⟨2, ![768, 768]⟩
abbrev S768 : Shape := ⟨1, ![768]⟩
abbrev S768x8192 : Shape := ⟨2, ![768, 8192]⟩
abbrev S8192 : Shape := ⟨1, ![8192]⟩
abbrev S784x32000 : Shape := ⟨2, ![784, 32000]⟩
abbrev S32000x4 : Shape := ⟨2, ![32000, 4]⟩
abbrev S_ : Shape := ⟨0, ![]⟩
abbrev S2x2048x1 : Shape := ⟨3, ![2, 2048, 1]⟩
abbrev S2x2048x768 : Shape := ⟨3, ![2, 2048, 768]⟩
abbrev S1x1x768 : Shape := ⟨3, ![1, 1, 768]⟩
abbrev S2x2048x16 : Shape := ⟨3, ![2, 2048, 16]⟩
abbrev S2x2048x784 : Shape := ⟨3, ![2, 2048, 784]⟩
abbrev S2x2048x32 : Shape := ⟨3, ![2, 2048, 32]⟩
abbrev S2x2048x1584 : Shape := ⟨3, ![2, 2048, 1584]⟩
abbrev S2x2048x8192 : Shape := ⟨3, ![2, 2048, 8192]⟩
abbrev S1x1x8192 : Shape := ⟨3, ![1, 1, 8192]⟩
abbrev S2x2048x32000 : Shape := ⟨3, ![2, 2048, 32000]⟩
abbrev S2x2048x4 : Shape := ⟨3, ![2, 2048, 4]⟩
abbrev S4096x4 : Shape := ⟨2, ![4096, 4]⟩
abbrev S4096 : Shape := ⟨1, ![4096]⟩
abbrev S4096x1 : Shape := ⟨2, ![4096, 1]⟩
abbrev S4096x8192 : Shape := ⟨2, ![4096, 8192]⟩
abbrev S4096x4x1 : Shape := ⟨3, ![4096, 4, 1]⟩
abbrev S4096x4x2 : Shape := ⟨3, ![4096, 4, 2]⟩

abbrev nBuf : Space → Nat
  | .hbm => 124
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S40192x768, .f32⟩
  | .hbm, ⟨2, _⟩ => ⟨S32000x768, .f32⟩
  | .hbm, ⟨3, _⟩ => ⟨S768x768, .f32⟩
  | .hbm, ⟨4, _⟩ => ⟨S768, .f32⟩
  | .hbm, ⟨5, _⟩ => ⟨S768x8192, .f32⟩
  | .hbm, ⟨6, _⟩ => ⟨S8192, .f32⟩
  | .hbm, ⟨7, _⟩ => ⟨S784x32000, .f32⟩
  | .hbm, ⟨8, _⟩ => ⟨S32000x4, .i32⟩
  | .hbm, ⟨9, _⟩ => ⟨S32000x4, .f32⟩
  | .hbm, ⟨10, _⟩ => ⟨S_, .i32⟩
  | .hbm, ⟨11, _⟩ => ⟨S2x2048, .i32⟩
  | .hbm, ⟨12, _⟩ => ⟨S2x2048, .i1⟩
  | .hbm, ⟨13, _⟩ => ⟨S_, .i32⟩
  | .hbm, ⟨14, _⟩ => ⟨S2x2048, .i32⟩
  | .hbm, ⟨15, _⟩ => ⟨S2x2048, .i32⟩
  | .hbm, ⟨16, _⟩ => ⟨S2x2048, .i32⟩
  | .hbm, ⟨17, _⟩ => ⟨S2x2048x1, .i32⟩
  | .hbm, ⟨18, _⟩ => ⟨S2x2048x768, .f32⟩
  | .hbm, ⟨19, _⟩ => ⟨S_, .i32⟩
  | .hbm, ⟨20, _⟩ => ⟨S2x2048, .i32⟩
  | .hbm, ⟨21, _⟩ => ⟨S2x2048, .i1⟩
  | .hbm, ⟨22, _⟩ => ⟨S_, .i32⟩
  | .hbm, ⟨23, _⟩ => ⟨S2x2048, .i32⟩
  | .hbm, ⟨24, _⟩ => ⟨S2x2048, .i32⟩
  | .hbm, ⟨25, _⟩ => ⟨S2x2048, .i32⟩
  | .hbm, ⟨26, _⟩ => ⟨S2x2048x1, .i32⟩
  | .hbm, ⟨27, _⟩ => ⟨S2x2048x768, .f32⟩
  | .hbm, ⟨28, _⟩ => ⟨S_, .f32⟩
  | .hbm, ⟨29, _⟩ => ⟨S2x2048x768, .f32⟩
  | .hbm, ⟨30, _⟩ => ⟨S2x2048x768, .f32⟩
  | .hbm, ⟨31, _⟩ => ⟨S_, .f32⟩
  | .hbm, ⟨32, _⟩ => ⟨S2x2048x768, .f32⟩
  | .hbm, ⟨33, _⟩ => ⟨S2x2048x768, .f32⟩
  | .hbm, ⟨34, _⟩ => ⟨S_, .f32⟩
  | .hbm, ⟨35, _⟩ => ⟨S2x2048x768, .f32⟩
  | .hbm, ⟨36, _⟩ => ⟨S2x2048x768, .f32⟩
  | .hbm, ⟨37, _⟩ => ⟨S_, .f32⟩
  | .hbm, ⟨38, _⟩ => ⟨S2x2048x768, .f32⟩
  | .hbm, ⟨39, _⟩ => ⟨S2x2048x768, .f32⟩
  | .hbm, ⟨40, _⟩ => ⟨S2x2048x768, .f32⟩
  | .hbm, ⟨41, _⟩ => ⟨S2x2048x768, .f32⟩
  | .hbm, ⟨42, _⟩ => ⟨S_, .f32⟩
  | .hbm, ⟨43, _⟩ => ⟨S2x2048x768, .f32⟩
  | .hbm, ⟨44, _⟩ => ⟨S2x2048x768, .f32⟩
  | .hbm, ⟨45, _⟩ => ⟨S_, .f32⟩
  | .hbm, ⟨46, _⟩ => ⟨S2x2048x768, .f32⟩
  | .hbm, ⟨47, _⟩ => ⟨S2x2048x768, .f32⟩
  | .hbm, ⟨48, _⟩ => ⟨S2x2048x768, .f32⟩
  | .hbm, ⟨49, _⟩ => ⟨S_, .f32⟩
  | .hbm, ⟨50, _⟩ => ⟨S2x2048x768, .f32⟩
  | .hbm, ⟨51, _⟩ => ⟨S2x2048x768, .f32⟩
  | .hbm, ⟨52, _⟩ => ⟨S_, .f32⟩
  | .hbm, ⟨53, _⟩ => ⟨S2x2048x768, .f32⟩
  | .hbm, ⟨54, _⟩ => ⟨S2x2048x768, .f32⟩
  | .hbm, ⟨55, _⟩ => ⟨S2x2048x768, .f32⟩
  | .hbm, ⟨56, _⟩ => ⟨S2x2048x768, .f32⟩
  | .hbm, ⟨57, _⟩ => ⟨S_, .f32⟩
  | .hbm, ⟨58, _⟩ => ⟨S2x2048x768, .f32⟩
  | .hbm, ⟨59, _⟩ => ⟨S2x2048x768, .f32⟩
  | .hbm, ⟨60, _⟩ => ⟨S_, .f32⟩
  | .hbm, ⟨61, _⟩ => ⟨S2x2048x768, .f32⟩
  | .hbm, ⟨62, _⟩ => ⟨S2x2048x768, .f32⟩
  | .hbm, ⟨63, _⟩ => ⟨S2x2048x768, .f32⟩
  | .hbm, ⟨64, _⟩ => ⟨S2x2048x768, .f32⟩
  | .hbm, ⟨65, _⟩ => ⟨S2x2048x768, .f32⟩
  | .hbm, ⟨66, _⟩ => ⟨S1x1x768, .f32⟩
  | .hbm, ⟨67, _⟩ => ⟨S2x2048x768, .f32⟩
  | .hbm, ⟨68, _⟩ => ⟨S2x2048x768, .f32⟩
  | .hbm, ⟨69, _⟩ => ⟨S_, .f32⟩
  | .hbm, ⟨70, _⟩ => ⟨S2x2048x16, .f32⟩
  | .hbm, ⟨71, _⟩ => ⟨S2x2048x784, .f32⟩
  | .hbm, ⟨72, _⟩ => ⟨S_, .f32⟩
  | .hbm, ⟨73, _⟩ => ⟨S2x2048x32, .f32⟩
  | .hbm, ⟨74, _⟩ => ⟨S2x2048x1584, .f32⟩
  | .hbm, ⟨75, _⟩ => ⟨S2x2048x8192, .f32⟩
  | .hbm, ⟨76, _⟩ => ⟨S1x1x8192, .f32⟩
  | .hbm, ⟨77, _⟩ => ⟨S2x2048x8192, .f32⟩
  | .hbm, ⟨78, _⟩ => ⟨S2x2048x8192, .f32⟩
  | .hbm, ⟨79, _⟩ => ⟨S2x2048x32000, .f32⟩
  | .hbm, ⟨80, _⟩ => ⟨S_, .i32⟩
  | .hbm, ⟨81, _⟩ => ⟨S2x2048, .i32⟩
  | .hbm, ⟨82, _⟩ => ⟨S2x2048, .i1⟩
  | .hbm, ⟨83, _⟩ => ⟨S_, .i32⟩
  | .hbm, ⟨84, _⟩ => ⟨S2x2048, .i32⟩
  | .hbm, ⟨85, _⟩ => ⟨S2x2048, .i32⟩
  | .hbm, ⟨86, _⟩ => ⟨S2x2048, .i32⟩
  | .hbm, ⟨87, _⟩ => ⟨S2x2048x1, .i32⟩
  | .hbm, ⟨88, _⟩ => ⟨S2x2048x4, .i32⟩
  | .hbm, ⟨89, _⟩ => ⟨S4096x4, .i32⟩
  | .hbm, ⟨90, _⟩ => ⟨S_, .i32⟩
  | .hbm, ⟨91, _⟩ => ⟨S2x2048, .i32⟩
  | .hbm, ⟨92, _⟩ => ⟨S2x2048, .i1⟩
  | .hbm, ⟨93, _⟩ => ⟨S_, .i32⟩
  | .hbm, ⟨94, _⟩ => ⟨S2x2048, .i32⟩
  | .hbm, ⟨95, _⟩ => ⟨S2x2048, .i32⟩
  | .hbm, ⟨96, _⟩ => ⟨S2x2048, .i32⟩
  | .hbm, ⟨97, _⟩ => ⟨S2x2048x1, .i32⟩
  | .hbm, ⟨98, _⟩ => ⟨S2x2048x4, .f32⟩
  | .hbm, ⟨99, _⟩ => ⟨S4096x4, .f32⟩
  | .hbm, ⟨100, _⟩ => ⟨S4096, .i32⟩
  | .hbm, ⟨101, _⟩ => ⟨S4096x1, .i32⟩
  | .hbm, ⟨102, _⟩ => ⟨S_, .f32⟩
  | .hbm, ⟨103, _⟩ => ⟨S4096x8192, .f32⟩
  | .hbm, ⟨104, _⟩ => ⟨S_, .i32⟩
  | .hbm, ⟨105, _⟩ => ⟨S4096x1, .i32⟩
  | .hbm, ⟨106, _⟩ => ⟨S4096x1, .i1⟩
  | .hbm, ⟨107, _⟩ => ⟨S_, .i32⟩
  | .hbm, ⟨108, _⟩ => ⟨S4096x1, .i32⟩
  | .hbm, ⟨109, _⟩ => ⟨S4096x1, .i32⟩
  | .hbm, ⟨110, _⟩ => ⟨S4096x1, .i32⟩
  | .hbm, ⟨111, _⟩ => ⟨S_, .i32⟩
  | .hbm, ⟨112, _⟩ => ⟨S4096x4, .i32⟩
  | .hbm, ⟨113, _⟩ => ⟨S4096x4, .i1⟩
  | .hbm, ⟨114, _⟩ => ⟨S_, .i32⟩
  | .hbm, ⟨115, _⟩ => ⟨S4096x4, .i32⟩
  | .hbm, ⟨116, _⟩ => ⟨S4096x4, .i32⟩
  | .hbm, ⟨117, _⟩ => ⟨S4096x4, .i32⟩
  | .hbm, ⟨118, _⟩ => ⟨S4096x4, .i32⟩
  | .hbm, ⟨119, _⟩ => ⟨S4096x4x1, .i32⟩
  | .hbm, ⟨120, _⟩ => ⟨S4096x4x1, .i32⟩
  | .hbm, ⟨121, _⟩ => ⟨S4096x4x2, .i32⟩
  | .hbm, ⟨122, _⟩ => ⟨S4096x8192, .f32⟩
  | .hbm, ⟨123, _⟩ => ⟨S2x2048x8192, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_10 : Ref sig .tc := ⟨.hbm, 57, rfl⟩
abbrev main_v35 : Ref sig .tc := ⟨.hbm, 58, rfl⟩
abbrev main_v36 : Ref sig .tc := ⟨.hbm, 59, rfl⟩
abbrev main_cst_11 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_14 : Ref sig .tc := ⟨.hbm, 80, rfl⟩
abbrev main_v54 : Ref sig .tc := ⟨.hbm, 81, rfl⟩
abbrev main_v55 : Ref sig .tc := ⟨.hbm, 82, rfl⟩
abbrev main_c_15 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_16 : Ref sig .tc := ⟨.hbm, 90, rfl⟩
abbrev main_v62 : Ref sig .tc := ⟨.hbm, 91, rfl⟩
abbrev main_v63 : Ref sig .tc := ⟨.hbm, 92, rfl⟩
abbrev main_c_17 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_18 : Ref sig .tc := ⟨.hbm, 102, rfl⟩
abbrev main_v72 : Ref sig .tc := ⟨.hbm, 103, rfl⟩
abbrev main_c_19 : Ref sig .tc := ⟨.hbm, 104, rfl⟩
abbrev main_v73 : Ref sig .tc := ⟨.hbm, 105, rfl⟩
abbrev main_v74 : Ref sig .tc := ⟨.hbm, 106, rfl⟩
abbrev main_c_20 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_21 : Ref sig .tc := ⟨.hbm, 111, rfl⟩
abbrev main_v78 : Ref sig .tc := ⟨.hbm, 112, rfl⟩
abbrev main_v79 : Ref sig .tc := ⟨.hbm, 113, rfl⟩
abbrev main_c_22 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S_S2x2048x768 : S_.BroadcastsInDim S2x2048x768 (![] : Fin 0 → Fin S2x2048x768.rank)
  bcast_S768_S1x1x768_2 : S768.BroadcastsInDim S1x1x768 (![2] : Fin 1 → Fin S1x1x768.rank)
  bcast_S1x1x768_S2x2048x768_0_1_2 : S1x1x768.BroadcastsInDim S2x2048x768 (![0, 1, 2] : Fin 3 → Fin S2x2048x768.rank)
  bcast_S_S2x2048x16 : S_.BroadcastsInDim S2x2048x16 (![] : Fin 0 → Fin S2x2048x16.rank)
  concatenates_S2x2048x768_S2x2048x16_S2x2048x784_d2 : Shape.Concatenates [S2x2048x768, S2x2048x16] S2x2048x784 2
  bcast_S_S2x2048x32 : S_.BroadcastsInDim S2x2048x32 (![] : Fin 0 → Fin S2x2048x32.rank)
  concatenates_S2x2048x784_S2x2048x32_S2x2048x768_S2x2048x1584_d2 : Shape.Concatenates [S2x2048x784, S2x2048x32, S2x2048x768] S2x2048x1584 2
  bcast_S8192_S1x1x8192_2 : S8192.BroadcastsInDim S1x1x8192 (![2] : Fin 1 → Fin S1x1x8192.rank)
  bcast_S1x1x8192_S2x2048x8192_0_1_2 : S1x1x8192.BroadcastsInDim S2x2048x8192 (![0, 1, 2] : Fin 3 → Fin S2x2048x8192.rank)
  shapeCasts_S2x2048x4_S4096x4 : S2x2048x4.ShapeCasts S4096x4
  bcast_S4096_S4096x1_0 : S4096.BroadcastsInDim S4096x1 (![0] : Fin 1 → Fin S4096x1.rank)
  bcast_S_S4096x8192 : S_.BroadcastsInDim S4096x8192 (![] : Fin 0 → Fin S4096x8192.rank)
  bcast_S_S4096x1 : S_.BroadcastsInDim S4096x1 (![] : Fin 0 → Fin S4096x1.rank)
  bcast_S_S4096x4 : S_.BroadcastsInDim S4096x4 (![] : Fin 0 → Fin S4096x4.rank)
  bcast_S4096x1_S4096x4_0_1 : S4096x1.BroadcastsInDim S4096x4 (![0, 1] : Fin 2 → Fin S4096x4.rank)
  bcast_S4096x4_S4096x4x1_0_1 : S4096x4.BroadcastsInDim S4096x4x1 (![0, 1] : Fin 2 → Fin S4096x4x1.rank)
  concatenates_S4096x4x1_S4096x4x1_S4096x4x2_d2 : Shape.Concatenates [S4096x4x1, S4096x4x1] S4096x4x2 2
  shapeCasts_S4096x8192_S2x2048x8192 : S4096x8192.ShapeCasts S2x2048x8192
  gather_S40192x768_S2x2048x1_S2x2048x768_2_0_n_n_0_2_1768_wf : GatherDims.WF S40192x768 S2x2048x1 S2x2048x768 [2] [0] [] [0] [] 2 ![1, 768]
  gather_S32000x768_S2x2048x1_S2x2048x768_2_0_n_n_0_2_1768_wf : GatherDims.WF S32000x768 S2x2048x1 S2x2048x768 [2] [0] [] [0] [] 2 ![1, 768]
  dot_S2x2048x768_S768x768_S2x2048x768_2_0_01_1_n_n_wf : DotDims.WF S2x2048x768 S768x768 S2x2048x768 [2] [0] [0, 1] [1] [] []
  dot_S2x2048x768_S768x8192_S2x2048x8192_2_0_01_1_n_n_wf : DotDims.WF S2x2048x768 S768x8192 S2x2048x8192 [2] [0] [0, 1] [1] [] []
  dot_S2x2048x784_S784x32000_S2x2048x32000_2_0_01_1_n_n_wf : DotDims.WF S2x2048x784 S784x32000 S2x2048x32000 [2] [0] [0, 1] [1] [] []
  gather_S32000x4_S2x2048x1_S2x2048x4_2_0_n_n_0_2_14_wf : GatherDims.WF S32000x4 S2x2048x1 S2x2048x4 [2] [0] [] [0] [] 2 ![1, 4]
  scatter_S4096x8192_S4096x4x2_S4096x4_n_01_01_2_wf : ScatterDims.WF S4096x8192 S4096x4x2 S4096x4 [] [0, 1] [0, 1] 2

variable [Facts₀]

def gather_S40192x768_S2x2048x1_S2x2048x768_2_0_n_n_0_2_1768 : GatherDims S40192x768 S2x2048x1 S2x2048x768 where
  offsetDims := [2]
  collapsedSliceDims := [0]
  operandBatchingDims := []
  startIndicesBatchingDims := []
  startIndexMap := [0]
  indexVectorDim := 2
  sliceSizes := ![1, 768]
  wf := gather_S40192x768_S2x2048x1_S2x2048x768_2_0_n_n_0_2_1768_wf
def gather_S32000x768_S2x2048x1_S2x2048x768_2_0_n_n_0_2_1768 : GatherDims S32000x768 S2x2048x1 S2x2048x768 where
  offsetDims := [2]
  collapsedSliceDims := [0]
  operandBatchingDims := []
  startIndicesBatchingDims := []
  startIndexMap := [0]
  indexVectorDim := 2
  sliceSizes := ![1, 768]
  wf := gather_S32000x768_S2x2048x1_S2x2048x768_2_0_n_n_0_2_1768_wf
def dot_S2x2048x768_S768x768_S2x2048x768_2_0_01_1_n_n : DotDims S2x2048x768 S768x768 S2x2048x768 where
  lhsContracting := [2]
  rhsContracting := [0]
  lhsNonContracting := [0, 1]
  rhsNonContracting := [1]
  lhsBatch := []
  rhsBatch := []
  wf := dot_S2x2048x768_S768x768_S2x2048x768_2_0_01_1_n_n_wf
def dot_S2x2048x768_S768x8192_S2x2048x8192_2_0_01_1_n_n : DotDims S2x2048x768 S768x8192 S2x2048x8192 where
  lhsContracting := [2]
  rhsContracting := [0]
  lhsNonContracting := [0, 1]
  rhsNonContracting := [1]
  lhsBatch := []
  rhsBatch := []
  wf := dot_S2x2048x768_S768x8192_S2x2048x8192_2_0_01_1_n_n_wf
def dot_S2x2048x784_S784x32000_S2x2048x32000_2_0_01_1_n_n : DotDims S2x2048x784 S784x32000 S2x2048x32000 where
  lhsContracting := [2]
  rhsContracting := [0]
  lhsNonContracting := [0, 1]
  rhsNonContracting := [1]
  lhsBatch := []
  rhsBatch := []
  wf := dot_S2x2048x784_S784x32000_S2x2048x32000_2_0_01_1_n_n_wf
def gather_S32000x4_S2x2048x1_S2x2048x4_2_0_n_n_0_2_14 : GatherDims S32000x4 S2x2048x1 S2x2048x4 where
  offsetDims := [2]
  collapsedSliceDims := [0]
  operandBatchingDims := []
  startIndicesBatchingDims := []
  startIndexMap := [0]
  indexVectorDim := 2
  sliceSizes := ![1, 4]
  wf := gather_S32000x4_S2x2048x1_S2x2048x4_2_0_n_n_0_2_14_wf
def scatter_S4096x8192_S4096x4x2_S4096x4_n_01_01_2 : ScatterDims S4096x8192 S4096x4x2 S4096x4 where
  updateWindowDims := []
  insertedWindowDims := [0, 1]
  scatterDimsToOperandDims := [0, 1]
  indexVectorDim := 2
  wf := scatter_S4096x8192_S4096x4x2_S4096x4_n_01_01_2_wf

class Facts : Prop extends Facts₀ where

variable [Facts]
-- ==== Proof.LibRowGather.lean ====
/-
  A `stablehlo.gather` that takes whole ROWS of a rank-2 table — what `table[idx]` of a table `[N, D]` at an integer
  array `idx : [R, C]` lowers to (offset axis the last one, the row axis collapsed, start indices `[R, C, 1]`) —
  read at a result index `(r, c, j)`: the table's entry in column `j` of the row named by the start index
  `idx[r, c, 0]`, that index read as a signed integer and clamped into `[0, N − 1]` (a negative start index reads
  row 0, one past the end reads the last row).
-/
import Idealize.ShloMosaic.PureOps.Ideal
import Idealize.ShloMosaic.Lib.ValueIdx

noncomputable section

namespace Cert.Lib.RowGather

open Idealize.ShloMosaic Idealize.ShloMosaic.ValueIdx

variable {α : Type}

/-- The dimension numbers of a row gather for a table `[N, D]`, start indices `[R, C, 1]` and result `[R, C, D]`. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row a start index names in a table of `N` rows: the word read signed, clamped into `[0, N − 1]`. -/
def rowOf (N : Nat) (hN : 0 < N) {w : Nat} (t : BitVec w) : Fin N := ⟨min t.toInt.toNat (N - 1), by omega⟩

/-- On the table's row axis the operand coordinate is the clamped start index (nothing is added: the axis is collapsed). -/
theorem row_axis {N D R C w : Nat} (hN : 0 < N)
    (wf : GatherDims.WF ⟨2, ![N, D]⟩ ⟨3, ![R, C, 1]⟩ ⟨3, ![R, C, D]⟩ [2] [0] [] [0] [] 2 ![1, D])
    (idx : IVec ⟨3, ![R, C, 1]⟩ w) (r : Fin R) (c : Fin C) (j : Fin D) :
    (rowDims N D R C wf).start (ix3 r c j) idx (0 : Fin 2) + (rowDims N D R C wf).batchCoord (ix3 r c j) (0 : Fin 2)
      + (rowDims N D R C wf).offCoord (ix3 r c j) (0 : Fin 2)
      = (rowOf N hN (idx (ix3 r c (⟨0, Nat.one_pos⟩ : Fin 1)))).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R C wf).startIndexMap from List.mem_singleton.mpr rfl)]
  have hsi : (rowDims N D R C wf).siIdx (ix3 r c j) ⟨List.idxOf (0 : Fin 2) (rowDims N D R C wf).startIndexMap,
      List.idxOf_lt_length_iff.2 (List.mem_singleton.mpr rfl)⟩ = ix3 r c (⟨0, Nat.one_pos⟩ : Fin 1) := by
    funext b; refine Fin.ext ?_
    match b with
    | ⟨0, _⟩ => rfl
    | ⟨1, _⟩ => rfl
    | ⟨2, _⟩ => rfl
  rw [hsi]
  rfl

/-- On the table's column axis the operand coordinate is the result's offset coordinate (no start index names it). -/
theorem col_axis {N D R C w : Nat}
    (wf : GatherDims.WF ⟨2, ![N, D]⟩ ⟨3, ![R, C, 1]⟩ ⟨3, ![R, C, D]⟩ [2] [0] [] [0] [] 2 ![1, D])
    (idx : IVec ⟨3, ![R, C, 1]⟩ w) (r : Fin R) (c : Fin C) (j : Fin D) :
    (rowDims N D R C wf).start (ix3 r c j) idx (1 : Fin 2) + (rowDims N D R C wf).batchCoord (ix3 r c j) (1 : Fin 2)
      + (rowDims N D R C wf).offCoord (ix3 r c j) (1 : Fin 2) = j.val := by
  rw [GatherDims.batchCoord_eq_zero _ _ _ List.not_mem_nil]
  have hs : (rowDims N D R C wf).start (ix3 r c j) idx (1 : Fin 2) = 0 := by
    unfold GatherDims.start
    rw [dif_neg (show (1 : Fin 2) ∉ (rowDims N D R C wf).startIndexMap from
      fun h => absurd (List.mem_singleton.mp h) (fun e => Nat.one_ne_zero (congrArg Fin.val e)))]
  have ho : (rowDims N D R C wf).offCoord (ix3 r c j) (1 : Fin 2) = j.val := by
    unfold GatherDims.offCoord
    rw [dif_pos (show (1 : Fin 2) ∈ (rowDims N D R C wf).sKept from (GatherDims.mem_sKept _ _).mpr
      ⟨fun h => absurd (List.mem_singleton.mp h) (fun e => Nat.one_ne_zero (congrArg Fin.val e)), List.not_mem_nil⟩)]
    rfl
  rw [hs, ho]
  simp

/-- THE ROW GATHER READ AT `(r, c, j)`: column `j` of the table's row `rowOf N (idx[r, c, 0])`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (j : Fin D) :
    Host.gather (rowDims N D R C wf) x idx (ix3 r c j)
      = x (ix2 (rowOf N hN (idx (ix3 r c (⟨0, Nat.one_pos⟩ : Fin 1)))) j) := by
  unfold Host.gather
  congr 1
  funext a
  refine Fin.ext ?_
  match a with
  | ⟨0, _⟩ => exact row_axis hN wf idx r c j
  | ⟨1, _⟩ => exact col_axis wf idx r c j

end Cert.Lib.RowGather

end
-- ==== Proof.Spec.lean ====
/-
  What one token contributes to each of the four results, as plain functions of that token's table rows.

  A token id selects (after Python-style wrap of a negative id and the gather's clamp) one row of each
  embedding table.  From the row `w2` of the second table the synonym activations are the three-stage
  squashing `σ(3(w − 4)) − σ(3(−w − 4))` (σ the logistic function); the symbol vector adds to the row `w1`
  of the first table a linear image of the activations and a bias; the embedding row is the symbol vector,
  48 constant columns `0.1` and the activations side by side; the synonym sums are a second linear image
  plus bias; the reverse-embedding logits contract the symbol vector padded with sixteen constants `0.1`
  against a 784-row matrix; and the expected-synonym histogram adds, for each of the token's four synonym
  slots, the slot's mask value at the column the slot's synonym id names.
-/
import Idealize.ShloMosaic.PureOps.Ideal
import Idealize.ShloMosaic.Lib.ValueIdx
import proofs.«422631_j22874995818884_3_alg».proof.Proof.LibRowGather

noncomputable section

namespace Cert.Spec

open Idealize.ShloMosaic Idealize.ShloMosaic.ValueIdx Cert.Lib.RowGather

/-- The f32 literals the two programs share, as the extended reals their bit patterns denote. -/
abbrev c4 : EReal := Ideal.ofBits .f32 0x40800000#32
abbrev c3 : EReal := Ideal.ofBits .f32 0x40400000#32
abbrev c01 : EReal := Ideal.ofBits .f32 0x3DCCCCCD#32

/-- Python-style index normalisation as both programs print it: a negative index has the axis length added. -/
def wrapIdx (N x : BitVec 32) : BitVec 32 := Scalar.select (IntOp.cmpi .slt x 0#32) (IntOp.addi x N) x

/-- The table row a token id reads in a table of `N` rows: the id wrapped, then read signed and clamped into range. -/
def row (N : Nat) (hN : 0 < N) (id : BitVec 32) : Fin N := rowOf N hN (wrapIdx (BitVec.ofNat 32 N) id)

/-- The three-stage squashing of one table entry. -/
def stage3 (w : EReal) : EReal := Ideal.logistic (c3 * (w - c4)) - Ideal.logistic (c3 * (-w - c4))

/-- The synonym activations of a token whose second-table row is `w2`. -/
def synT (w2 : Fin 768 → EReal) (d : Fin 768) : EReal := stage3 (w2 d)

/-- The symbol vector: the first-table row plus the activations' linear image plus the bias. -/
def symT (w1 w2 : Fin 768 → EReal) (Wse : Fin 768 → Fin 768 → EReal) (bse : Fin 768 → EReal) (e : Fin 768) : EReal :=
  w1 e + (∑ d : Fin 768, synT w2 d * Wse d e) + bse e

/-- The embedding row: symbol vector (768), the constant 0.1 (16 + 32 columns), activations (768). -/
def embT (w1 w2 : Fin 768 → EReal) (Wse : Fin 768 → Fin 768 → EReal) (bse : Fin 768 → EReal) (j : Fin 1584) : EReal :=
  if h : j.val < 768 then symT w1 w2 Wse bse ⟨j.val, h⟩
  else if h2 : j.val < 816 then c01
  else synT w2 ⟨j.val - 816, by have := j.isLt; omega⟩

/-- The synonym sums: the activations' second linear image plus its bias. -/
def synsumT (w2 : Fin 768 → EReal) (Wss : Fin 768 → Fin 8192 → EReal) (bss : Fin 8192 → EReal) (s : Fin 8192) : EReal :=
  (∑ d : Fin 768, synT w2 d * Wss d s) + bss s

/-- The reverse-embedding logits of a symbol vector `sym`: its contraction with the first 768 rows of the matrix plus
    the contribution of the sixteen constant pad columns. -/
def logitT (sym : Fin 768 → EReal) (Wrev : Fin 784 → Fin 32000 → EReal) (v : Fin 32000) : EReal :=
  (∑ d : Fin 768, sym d * Wrev ⟨d.val, by have := d.isLt; omega⟩ v)
    + ∑ a : Fin 16, c01 * Wrev ⟨768 + a.val, by have := a.isLt; omega⟩ v

/-- A row contracted with a column, plus a bias entry: one entry of the second kernel's output. -/
def dotBias (sp wm : Fin 768 → EReal) (b : EReal) : EReal := (∑ d : Fin 768, sp d * wm d) + b

/-- The expected-synonym histogram of a token with synonym ids `t` and mask values `mk`. -/
def expectT (t : Fin 4 → BitVec 32) (mk : Fin 4 → EReal) (s : Fin 8192) : EReal :=
  ∑ k : Fin 4, if t k = BitVec.ofNat 32 s.val then mk k else 0

end Cert.Spec

end
-- ==== Proof.LibRowGatherFlat.lean ====
/-
  A `stablehlo.gather` that takes whole ROWS of a rank-2 table at a COLUMN of start indices — what `table[idx]` of a
  table `[N, D]` at an integer vector `idx : [R]` lowers to (offset axis the last one, the row axis collapsed, start
  indices `[R, 1]`) — read at a result index `(r, j)`: the table's entry in column `j` of the row named by the start
  index `idx[r, 0]`, that index read as a signed integer and clamped into `[0, N − 1]`.
-/
import Idealize.ShloMosaic.PureOps.Ideal
import Idealize.ShloMosaic.Lib.ValueIdx

noncomputable section

namespace Cert.Lib.RowGatherFlat

open Idealize.ShloMosaic Idealize.ShloMosaic.ValueIdx

variable {α : Type}

/-- The dimension numbers of a row gather for a table `[N, D]`, start indices `[R, 1]` and result `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row a start index names in a table of `N` rows: the word read signed, clamped into `[0, N − 1]`. -/
def rowOf (N : Nat) (hN : 0 < N) {w : Nat} (t : BitVec w) : Fin N := ⟨min t.toInt.toNat (N - 1), by omega⟩

/-- On the table's row axis the operand coordinate is the clamped start index (the axis is collapsed: nothing is added). -/
theorem row_axis {N D R w : Nat} (hN : 0 < N)
    (wf : GatherDims.WF ⟨2, ![N, D]⟩ ⟨2, ![R, 1]⟩ ⟨2, ![R, D]⟩ [1] [0] [] [0] [] 1 ![1, D])
    (idx : IVec ⟨2, ![R, 1]⟩ w) (r : Fin R) (j : Fin D) :
    (rowDims N D R wf).start (ix2 r j) idx (0 : Fin 2) + (rowDims N D R wf).batchCoord (ix2 r j) (0 : Fin 2)
      + (rowDims N D R wf).offCoord (ix2 r j) (0 : Fin 2)
      = (rowOf N hN (idx (ix2 r (⟨0, Nat.one_pos⟩ : Fin 1)))).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 r j) ⟨List.idxOf (0 : Fin 2) (rowDims N D R wf).startIndexMap,
      List.idxOf_lt_length_iff.2 (List.mem_singleton.mpr rfl)⟩ = ix2 r (⟨0, Nat.one_pos⟩ : Fin 1) := by
    funext b; refine Fin.ext ?_
    match b with
    | ⟨0, _⟩ => rfl
    | ⟨1, _⟩ => rfl
  rw [hsi]
  rfl

/-- On the table's column axis the operand coordinate is the result's offset coordinate (no start index names it). -/
theorem col_axis {N D R w : Nat}
    (wf : GatherDims.WF ⟨2, ![N, D]⟩ ⟨2, ![R, 1]⟩ ⟨2, ![R, D]⟩ [1] [0] [] [0] [] 1 ![1, D])
    (idx : IVec ⟨2, ![R, 1]⟩ w) (r : Fin R) (j : Fin D) :
    (rowDims N D R wf).start (ix2 r j) idx (1 : Fin 2) + (rowDims N D R wf).batchCoord (ix2 r j) (1 : Fin 2)
      + (rowDims N D R wf).offCoord (ix2 r j) (1 : Fin 2) = j.val := by
  rw [GatherDims.batchCoord_eq_zero _ _ _ List.not_mem_nil]
  have hs : (rowDims N D R wf).start (ix2 r j) idx (1 : Fin 2) = 0 := by
    unfold GatherDims.start
    rw [dif_neg (show (1 : Fin 2) ∉ (rowDims N D R wf).startIndexMap from
      fun h => absurd (List.mem_singleton.mp h) (fun e => Nat.one_ne_zero (congrArg Fin.val e)))]
  have ho : (rowDims N D R wf).offCoord (ix2 r j) (1 : Fin 2) = j.val := by
    unfold GatherDims.offCoord
    rw [dif_pos (show (1 : Fin 2) ∈ (rowDims N D R wf).sKept from (GatherDims.mem_sKept _ _).mpr
      ⟨fun h => absurd (List.mem_singleton.mp h) (fun e => Nat.one_ne_zero (congrArg Fin.val e)), List.not_mem_nil⟩)]
    rfl
  rw [hs, ho]
  simp

/-- THE ROW GATHER READ AT `(r, j)`: column `j` of the table's row `rowOf N (idx[r, 0])`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowDims N D R wf) x idx (ix2 r j)
      = x (ix2 (rowOf N hN (idx (ix2 r (⟨0, Nat.one_pos⟩ : Fin 1)))) j) := by
  unfold Host.gather
  congr 1
  funext a
  refine Fin.ext ?_
  match a with
  | ⟨0, _⟩ => exact row_axis hN wf idx r j
  | ⟨1, _⟩ => exact col_axis wf idx r j

end Cert.Lib.RowGatherFlat

end
-- ==== Proof.HostSide.lean ====
/-
  The host operations around the two pallas_calls of the kernel program, read at an index.

  Before the first call the token ids are flattened to 4096 rows, wrapped, and used to gather one row per token from
  each of the four tables; the two weight matrices change float format only (the identity on the extended reals) and the two
  biases become one-row matrices.
-/
import proofs.«422631_j22874995818884_3_alg».proof.Proof.Gen.KernelIdeal.Frame
import proofs.«422631_j22874995818884_3_alg».proof.Proof.Spec
import proofs.«422631_j22874995818884_3_alg».proof.Proof.LibRowGatherFlat
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo

/-- The two spellings of "the row a start index names" are one function. -/
theorem rowOf_flat (N : Nat) (hN : 0 < N) {w : Nat} (t : BitVec w) :
    Cert.Lib.RowGatherFlat.rowOf N hN t = Cert.Lib.RowGather.rowOf N hN t := rfl

/-- The id of flat token `r`: the ids array `[2, 2048]` read in row-major order. -/
def tok (ids : IVec S2x2048 32) (r : Fin 4096) : BitVec 32 :=
  ids (ix2 (⟨r.val / 2048, by have := r.isLt; omega⟩ : Fin 2) (⟨r.val % 2048, Nat.mod_lt _ (by decide)⟩ : Fin 2048))

/-- The flattened ids at row `r`. -/
theorem flat_ids_apply (ids : IVec S2x2048 32) (r : Fin 4096) :
    shapeCast S4096 ids shapeCasts_S2x2048_S4096 (ix1 r) = tok ids r := by
  unfold tok
  refine shapeCast_apply ids shapeCasts_S2x2048_S4096 (ix1 r) _ ?_
  rw [Shape.rowMajor_val_two, Shape.rowMajor_val_one]
  show r.val / 2048 * 2048 + r.val % 2048 = r.val
  omega

/-- The column of start indices a gather takes: the flattened ids, a negative one wrapped by the table's length. -/
theorem start_apply (N : BitVec 32) (R : IVec S4096 32) (r : Fin 4096) :
    broadcastInDim S4096x1 ![0] bcast_S4096_S4096x1_0
        (select (cmpi .slt R (broadcastInDim S4096 ![] bcast_S_S4096 (constantI S_ 32 0#32)))
          (addi R (broadcastInDim S4096 ![] bcast_S_S4096 (constantI S_ 32 N))) R) (ix2 r (⟨0, Nat.one_pos⟩ : Fin 1))
      = Cert.Spec.wrapIdx N (R (ix1 r)) := by
  rw [broadcastInDim_apply _ bcast_S4096_S4096x1_0 _ (ix2 r (⟨0, Nat.one_pos⟩ : Fin 1)) (ix1 r) (fun a => by
    match a with
    | ⟨0, _⟩ => show r.val = if (4096 : Nat) = 1 then 0 else r.val; rw [if_neg (by decide)])]
  rfl

variable (m : (ℓ : Loc nD τ sig) → Buf (Elt Ideal) ℓ) (ρ : Dev nD → PrngReg)

/-- The wrapped start indices of a gather from a table of `N` rows, as the first host stretch computes them. -/
abbrev starts (N : BitVec 32) (ids : IVec S2x2048 32) : IVec S4096x1 32 :=
  broadcastInDim S4096x1 ![0] bcast_S4096_S4096x1_0
    (select (cmpi .slt (shapeCast S4096 ids shapeCasts_S2x2048_S4096) (broadcastInDim S4096 ![] bcast_S_S4096 (constantI S_ 32 0#32)))
      (addi (shapeCast S4096 ids shapeCasts_S2x2048_S4096) (broadcastInDim S4096 ![] bcast_S_S4096 (constantI S_ 32 N)))
      (shapeCast S4096 ids shapeCasts_S2x2048_S4096))

theorem starts_apply (N : BitVec 32) (ids : IVec S2x2048 32) (r : Fin 4096) :
    starts N ids (ix2 r (⟨0, Nat.one_pos⟩ : Fin 1)) = Cert.Spec.wrapIdx N (tok ids r) := by
  unfold starts
  rw [start_apply, flat_ids_apply]

/-- Region 0's first operand: row `r` is the first table's row for token `r`. -/
theorem v7_eq (c : Dev nD) :
    (V1 m ρ c main_v7 : S4096x768.Idx → EReal)
      = Host.gather gather_S40192x768_S4096x1_S4096x768_1_0_n_n_0_1_1768 (m ((c : Thread nD τ).loc main_arg1))
          (starts 40192#32 (m ((c : Thread nD τ).loc main_arg0))) := by
  show StableHlo.after hostOps0 _ (Proc.devRef .tc main_v7) = _
  after_results
  rfl

theorem v7_apply (c : Dev nD) (r : Fin 4096) (e : Fin 768) :
    (V1 m ρ c main_v7 : S4096x768.Idx → EReal) (ix2 r e)
      = (m ((c : Thread nD τ).loc main_arg1) : S40192x768.Idx → EReal)
          (ix2 (Cert.Spec.row 40192 (by decide) (tok (m ((c : Thread nD τ).loc main_arg0)) r)) e) := by
  rw [v7_eq]
  refine (Cert.Lib.RowGatherFlat.gather_rows_apply (N := 40192) (D := 768) (R := 4096) (by decide)
    gather_S40192x768_S4096x1_S4096x768_1_0_n_n_0_1_1768_wf _ _ r e).trans ?_
  rw [starts_apply]
  rfl

/-- Region 0's second operand: row `r` is the second table's row for token `r`. -/
theorem v14_eq (c : Dev nD) :
    (V1 m ρ c main_v14 : S4096x768.Idx → EReal)
      = Host.gather gather_S32000x768_S4096x1_S4096x768_1_0_n_n_0_1_1768 (m ((c : Thread nD τ).loc main_arg2))
          (starts 32000#32 (m ((c : Thread nD τ).loc main_arg0))) := by
  show StableHlo.after hostOps0 _ (Proc.devRef .tc main_v14) = _
  after_results_simp
  rfl

theorem v14_apply (c : Dev nD) (r : Fin 4096) (d : Fin 768) :
    (V1 m ρ c main_v14 : S4096x768.Idx → EReal) (ix2 r d)
      = (m ((c : Thread nD τ).loc main_arg2) : S32000x768.Idx → EReal)
          (ix2 (Cert.Spec.row 32000 (by decide) (tok (m ((c : Thread nD τ).loc main_arg0)) r)) d) := by
  rw [v14_eq]
  refine (Cert.Lib.RowGatherFlat.gather_rows_apply (N := 32000) (D := 768) (R := 4096) (by decide)
    gather_S32000x768_S4096x1_S4096x768_1_0_n_n_0_1_1768_wf _ _ r d).trans ?_
  rw [starts_apply]
  rfl

/-- Region 0's third operand: row `r` holds the four synonym ids of token `r`. -/
theorem v21_eq (c : Dev nD) :
    (V1 m ρ c main_v21 : S4096x4.Idx → BitVec 32)
      = Host.gather gather_S32000x4_S4096x1_S4096x4_1_0_n_n_0_1_14 (m ((c : Thread nD τ).loc main_arg8))
          (starts 32000#32 (m ((c : Thread nD τ).loc main_arg0))) := by
  show StableHlo.after hostOps0 _ (Proc.devRef .tc main_v21) = _
  after_results_simp
  rfl

theorem v21_apply (c : Dev nD) (r : Fin 4096) (k : Fin 4) :
    (V1 m ρ c main_v21 : S4096x4.Idx → BitVec 32) (ix2 r k)
      = (m ((c : Thread nD τ).loc main_arg8) : S32000x4.Idx → BitVec 32)
          (ix2 (Cert.Spec.row 32000 (by decide) (tok (m ((c : Thread nD τ).loc main_arg0)) r)) k) := by
  rw [v21_eq]
  refine (Cert.Lib.RowGatherFlat.gather_rows_apply (N := 32000) (D := 4) (R := 4096) (by decide)
    gather_S32000x4_S4096x1_S4096x4_1_0_n_n_0_1_14_wf _ _ r k).trans ?_
  rw [starts_apply]
  rfl

/-- Region 0's fourth operand: row `r` holds the four mask values of token `r`. -/
theorem v28_eq (c : Dev nD) :
    (V1 m ρ c main_v28 : S4096x4.Idx → EReal)
      = Host.gather gather_S32000x4_S4096x1_S4096x4_1_0_n_n_0_1_14 (m ((c : Thread nD τ).loc main_arg9))
          (starts 32000#32 (m ((c : Thread nD τ).loc main_arg0))) := by
  show StableHlo.after hostOps0 _ (Proc.devRef .tc main_v28) = _
  after_results_simp
  rfl

theorem v28_apply (c : Dev nD) (r : Fin 4096) (k : Fin 4) :
    (V1 m ρ c main_v28 : S4096x4.Idx → EReal) (ix2 r k)
      = (m ((c : Thread nD τ).loc main_arg9) : S32000x4.Idx → EReal)
          (ix2 (Cert.Spec.row 32000 (by decide) (tok (m ((c : Thread nD τ).loc main_arg0)) r)) k) := by
  rw [v28_eq]
  refine (Cert.Lib.RowGatherFlat.gather_rows_apply (N := 32000) (D := 4) (R := 4096) (by decide)
    gather_S32000x4_S4096x1_S4096x4_1_0_n_n_0_1_14_wf _ _ r k).trans ?_
  rw [starts_apply]
  rfl

/-- The two weight matrices reach the first call unchanged (a change of float format is the identity here). -/
theorem v29_apply (c : Dev nD) (d e : Fin 768) :
    (V1 m ρ c main_v29 : S768x768.Idx → EReal) (ix2 d e)
      = (m ((c : Thread nD τ).loc main_arg3) : S768x768.Idx → EReal) (ix2 d e) := by
  have h : (V1 m ρ c main_v29 : S768x768.Idx → EReal)
      = (truncf .bf16 (m ((c : Thread nD τ).loc main_arg3)) bitsLt_bf16_f32 : FVec Ideal S768x768 .bf16) := by
    show StableHlo.after hostOps0 _ (Proc.devRef .tc main_v29) = _
    after_results
  rw [h]; rfl

theorem v30_apply (c : Dev nD) (d : Fin 768) (s : Fin 8192) :
    (V1 m ρ c main_v30 : S768x8192.Idx → EReal) (ix2 d s)
      = (m ((c : Thread nD τ).loc main_arg5) : S768x8192.Idx → EReal) (ix2 d s) := by
  have h : (V1 m ρ c main_v30 : S768x8192.Idx → EReal)
      = (truncf .bf16 (m ((c : Thread nD τ).loc main_arg5)) bitsLt_bf16_f32 : FVec Ideal S768x8192 .bf16) := by
    show StableHlo.after hostOps0 _ (Proc.devRef .tc main_v30) = _
    after_results
  rw [h]; rfl

/-- The two biases reach the first call as one-row matrices. -/
theorem v31_apply (c : Dev nD) (e : Fin 768) :
    (V1 m ρ c main_v31 : S1x768.Idx → EReal) (ix2 (0 : Fin 1) e)
      = (m ((c : Thread nD τ).loc main_arg4) : S768.Idx → EReal) (ix1 e) := by
  have h : (V1 m ρ c main_v31 : S1x768.Idx → EReal)
      = shapeCast S1x768 (m ((c : Thread nD τ).loc main_arg4)) shapeCasts_S768_S1x768 := by
    show StableHlo.after hostOps0 _ (Proc.devRef .tc main_v31) = _
    after_results
    rfl
  rw [h]
  refine shapeCast_apply _ shapeCasts_S768_S1x768 (ix2 (0 : Fin 1) e) (ix1 e) ?_
  rw [Shape.rowMajor_val_two, Shape.rowMajor_val_one]
  show e.val = 0 * 768 + e.val
  omega

theorem v32_apply (c : Dev nD) (s : Fin 8192) :
    (V1 m ρ c main_v32 : S1x8192.Idx → EReal) (ix2 (0 : Fin 1) s)
      = (m ((c : Thread nD τ).loc main_arg6) : S8192.Idx → EReal) (ix1 s) := by
  have h : (V1 m ρ c main_v32 : S1x8192.Idx → EReal)
      = shapeCast S1x8192 (m ((c : Thread nD τ).loc main_arg6)) shapeCasts_S8192_S1x8192 := by
    show StableHlo.after hostOps0 _ (Proc.devRef .tc main_v32) = _
    after_results
    rfl
  rw [h]
  refine shapeCast_apply _ shapeCasts_S8192_S1x8192 (ix2 (0 : Fin 1) s) (ix1 s) ?_
  rw [Shape.rowMajor_val_two, Shape.rowMajor_val_one]
  show s.val = 0 * 8192 + s.val
  omega

end Cert.KernelIdeal.HostSide

end
-- ==== Proof.HostMid.lean ====
/-
  The host operations between the two pallas_calls, read at an index: the second call's symbol operand is the first
  call's symbol output; its matrix operand is the first 768 rows of the reverse-embedding matrix; its bias row is the
  constant 0.1 times the column sums of the matrix's last sixteen rows.
-/
import proofs.«422631_j22874995818884_3_alg».proof.Proof.Gen.KernelIdeal.Frame
import proofs.«422631_j22874995818884_3_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostMid

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- Nothing before the second stretch writes the reverse-embedding matrix: at the first call's exit it is as launched. -/
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The second call's symbol operand is the array the first call's pipeline left in its symbol output. -/
theorem sp_eq (c : Dev nD) : V3 m ρ c main_v33_2 = (dat0 (V1 m ρ) c).arrAt 10 cfg0.N :=
  calc V3 m ρ c main_v33_2
    _ = W2 m ρ c (Proc.devRef .tc main_v33_2) := StableHlo.after_of_forall_not_mem (b := Proc.devRef .tc main_v33_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 10 cfg0.N := W2_arr m ρ c 10

/-- The second call's matrix operand: the first 768 rows of the reverse-embedding matrix. -/
theorem v35_apply (c : Dev nD) (d : Fin 768) (v : Fin 32000) :
    (V3 m ρ c main_v35 : S768x32000.Idx → EReal) (ix2 d v)
      = (m ((c : Thread nD τ).loc main_arg7) : S784x32000.Idx → EReal) (ix2 (⟨d.val, by have := d.isLt; omega⟩ : Fin 784) v) := by
  have h : (V3 m ρ c main_v35 : S768x32000.Idx → EReal)
      = (truncf .bf16 (extractStridedSlice S768x32000 ![0, 0] (W2 m ρ c (Proc.devRef .tc main_arg7)) slices_S784x32000_S768x32000_0_0) bitsLt_bf16_f32 : FVec Ideal S768x32000 .bf16) := by
    show StableHlo.after hostOps1 _ (Proc.devRef .tc main_v35) = _
    after_results
  rw [h, W2_arg7]
  refine extractStridedSlice_apply _ _ slices_S784x32000_S768x32000_0_0 (ix2 d v) _ (fun a => ?_)
  match a with
  | ⟨0, _⟩ => show d.val = 0 + d.val; omega
  | ⟨1, _⟩ => show v.val = 0 + v.val; omega

/-- The reverse-embedding matrix as launched, as a plain array of extended reals. -/
abbrev argWrev (c : Dev nD) : S784x32000.Idx → EReal := m ((c : Thread nD τ).loc main_arg7)

/-- The second call's bias row: the constant 0.1 times the sum of the matrix's rows 768 … 783, column by column. -/
theorem v40_apply (c : Dev nD) (v : Fin 32000) :
    (V3 m ρ c main_v40 : S1x32000.Idx → EReal) (ix2 (0 : Fin 1) v)
      = Cert.Spec.c01 * (0 + ∑ a : Fin 16, argWrev m c (ix2 (⟨768 + a.val, by have := a.isLt; omega⟩ : Fin 784) v)) := by
  have h : (V3 m ρ c main_v40 : S1x32000.Idx → EReal)
      = shapeCast S1x32000
          (mulf (broadcastInDim S32000 ![] bcast_S_S32000 (constant (F := Ideal) S_ .f32 0x3DCCCCCD#32))
            (Host.reduceAdd (F := Ideal)
              (extractStridedSlice S16x32000 ![768, 0] (W2 m ρ c (Proc.devRef .tc main_arg7)) slices_S784x32000_S16x32000_768_0)
              (constant (F := Ideal) S_ .f32 0x00000000#32) reducesTo_S16x32000_S32000_d0 h_S_))
          shapeCasts_S32000_S1x32000 := by
    show StableHlo.after hostOps1 _ (Proc.devRef .tc main_v40) = _
    after_results
    rfl
  rw [h, W2_arg7]
  refine (shapeCast_apply _ shapeCasts_S32000_S1x32000 (ix2 (0 : Fin 1) v) (ix1 v) (by
    rw [Shape.rowMajor_val_two, Shape.rowMajor_val_one]; show v.val = 0 * 32000 + v.val; omega)).trans ?_
  have hred : S16x32000.Reduces [0] S32000 := by decide
  show Cert.Spec.c01 * Ideal.hostReduceAdd reducesTo_S16x32000_S32000_d0 _ _ (ix1 v) = _
  rw [Ideal.hostReduceAdd_single reducesTo_S16x32000_S32000_d0 hred]
  show Cert.Spec.c01 * (Ideal.ofBits .f32 0x00000000#32 + ∑ k : Fin 16, extractStridedSlice S16x32000 ![768, 0] (argWrev m c)
    slices_S784x32000_S16x32000_768_0 (hred.lift (ix1 v) k)) = _
  rw [Ideal.ofBits_zero_f32]
  refine congrArg (fun z => Cert.Spec.c01 * (0 + z)) (Finset.sum_congr rfl fun k _ => ?_)
  refine extractStridedSlice_apply _ _ slices_S784x32000_S16x32000_768_0 _ _ (fun a => ?_)
  match a with
  | ⟨0, _⟩ => rfl
  | ⟨1, _⟩ => show v.val = 0 + v.val; omega

end Cert.KernelIdeal.HostMid

end
-- ==== Proof.HostTail.lean ====
/-
  The host operations after the two pallas_calls: each result is the reshape `[4096, D] → [2, 2048, D]` of one output
  array, so its entry at token `(b, l)` is the flat array's entry in row `b · 2048 + l`.
-/
import proofs.«422631_j22874995818884_3_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.HostTail

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- After the second call the first call's output array of window 8 is still what its pipeline left. -/
theorem W4_main_v33_0 (c : Dev nD) : W4 m ρ c (Proc.devRef .tc main_v33_0) = (dat0 (V1 m ρ) c).arrAt 8 cfg0.N :=
  calc W4 m ρ c (Proc.devRef .tc main_v33_0)
    _ = W3 m ρ c (Proc.devRef .tc main_v33_0) := W4_of_ne m ρ c main_v33_0 (by decide)
    _ = W2 m ρ c (Proc.devRef .tc main_v33_0) := StableHlo.after_of_forall_not_mem (b := Proc.devRef .tc main_v33_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 8 cfg0.N := W2_arr m ρ c 8

/-- After the second call the first call's output array of window 9 is still what its pipeline left. -/
theorem W4_main_v33_1 (c : Dev nD) : W4 m ρ c (Proc.devRef .tc main_v33_1) = (dat0 (V1 m ρ) c).arrAt 9 cfg0.N :=
  calc W4 m ρ c (Proc.devRef .tc main_v33_1)
    _ = W3 m ρ c (Proc.devRef .tc main_v33_1) := W4_of_ne m ρ c main_v33_1 (by decide)
    _ = W2 m ρ c (Proc.devRef .tc main_v33_1) := StableHlo.after_of_forall_not_mem (b := Proc.devRef .tc main_v33_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 9 cfg0.N := W2_arr m ρ c 9

/-- After the second call the first call's output array of window 11 is still what its pipeline left. -/
theorem W4_main_v33_3 (c : Dev nD) : W4 m ρ c (Proc.devRef .tc main_v33_3) = (dat0 (V1 m ρ) c).arrAt 11 cfg0.N :=
  calc W4 m ρ c (Proc.devRef .tc main_v33_3)
    _ = W3 m ρ c (Proc.devRef .tc main_v33_3) := W4_of_ne m ρ c main_v33_3 (by decide)
    _ = W2 m ρ c (Proc.devRef .tc main_v33_3) := StableHlo.after_of_forall_not_mem (b := Proc.devRef .tc main_v33_3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 11 cfg0.N := W2_arr m ρ c 11

/-- After the second call its output array is what its pipeline left. -/
theorem W4_main_v41 (c : Dev nD) : W4 m ρ c (Proc.devRef .tc main_v41) = (dat1 (V3 m ρ) c).arrAt 3 cfg1.N :=
  W4_arr m ρ c 3

/-- Result main_v42 at token `(b, l)`, column `j`: row `b · 2048 + l` of the flat array. -/
theorem main_v42_apply (c : Dev nD) (b : Fin 2) (l : Fin 2048) (j : Fin 1584) :
    (W5 m ρ c (Proc.devRef .tc main_v42) : S2x2048x1584.Idx → EReal) (ix3 b l j)
      = ((dat0 (V1 m ρ) c).arrAt 8 cfg0.N : S4096x1584.Idx → EReal) (ix2 (⟨b.val * 2048 + l.val, by have := b.isLt; have := l.isLt; omega⟩ : Fin 4096) j) := by
  have h : (W5 m ρ c (Proc.devRef .tc main_v42) : S2x2048x1584.Idx → EReal)
      = shapeCast S2x2048x1584 (W4 m ρ c (Proc.devRef .tc main_v33_0)) shapeCasts_S4096x1584_S2x2048x1584 := by
    show StableHlo.after hostOps2 _ (Proc.devRef .tc main_v42) = _
    after_results
    rfl
  rw [h, W4_main_v33_0]
  refine shapeCast_apply _ shapeCasts_S4096x1584_S2x2048x1584 (ix3 b l j) _ ?_
  rw [Shape.rowMajor_val_two, Shape.rowMajor_val_three]
  show (b.val * 2048 + l.val) * 1584 + j.val = (b.val * 2048 + l.val) * 1584 + j.val
  rfl

/-- Result main_v43 at token `(b, l)`, column `j`: row `b · 2048 + l` of the flat array. -/
theorem main_v43_apply (c : Dev nD) (b : Fin 2) (l : Fin 2048) (j : Fin 32000) :
    (W5 m ρ c (Proc.devRef .tc main_v43) : S2x2048x32000.Idx → EReal) (ix3 b l j)
      = ((dat1 (V3 m ρ) c).arrAt 3 cfg1.N : S4096x32000.Idx → EReal) (ix2 (⟨b.val * 2048 + l.val, by have := b.isLt; have := l.isLt; omega⟩ : Fin 4096) j) := by
  have h : (W5 m ρ c (Proc.devRef .tc main_v43) : S2x2048x32000.Idx → EReal)
      = shapeCast S2x2048x32000 (W4 m ρ c (Proc.devRef .tc main_v41)) shapeCasts_S4096x32000_S2x2048x32000 := by
    show StableHlo.after hostOps2 _ (Proc.devRef .tc main_v43) = _
    after_results
    rfl
  rw [h, W4_main_v41]
  refine shapeCast_apply _ shapeCasts_S4096x32000_S2x2048x32000 (ix3 b l j) _ ?_
  rw [Shape.rowMajor_val_two, Shape.rowMajor_val_three]
  show (b.val * 2048 + l.val) * 32000 + j.val = (b.val * 2048 + l.val) * 32000 + j.val
  rfl

/-- Result main_v44 at token `(b, l)`, column `j`: row `b · 2048 + l` of the flat array. -/
theorem main_v44_apply (c : Dev nD) (b : Fin 2) (l : Fin 2048) (j : Fin 8192) :
    (W5 m ρ c (Proc.devRef .tc main_v44) : S2x2048x8192.Idx → EReal) (ix3 b l j)
      = ((dat0 (V1 m ρ) c).arrAt 9 cfg0.N : S4096x8192.Idx → EReal) (ix2 (⟨b.val * 2048 + l.val, by have := b.isLt; have := l.isLt; omega⟩ : Fin 4096) j) := by
  have h : (W5 m ρ c (Proc.devRef .tc main_v44) : S2x2048x8192.Idx → EReal)
      = shapeCast S2x2048x8192 (W4 m ρ c (Proc.devRef .tc main_v33_1)) shapeCasts_S4096x8192_S2x2048x8192 := by
    show StableHlo.after hostOps2 _ (Proc.devRef .tc main_v44) = _
    after_results
    rfl
  rw [h, W4_main_v33_1]
  refine shapeCast_apply _ shapeCasts_S4096x8192_S2x2048x8192 (ix3 b l j) _ ?_
  rw [Shape.rowMajor_val_two, Shape.rowMajor_val_three]
  show (b.val * 2048 + l.val) * 8192 + j.val = (b.val * 2048 + l.val) * 8192 + j.val
  rfl

/-- Result main_v45 at token `(b, l)`, column `j`: row `b · 2048 + l` of the flat array. -/
theorem main_v45_apply (c : Dev nD) (b : Fin 2) (l : Fin 2048) (j : Fin 8192) :
    (W5 m ρ c (Proc.devRef .tc main_v45) : S2x2048x8192.Idx → EReal) (ix3 b l j)
      = ((dat0 (V1 m ρ) c).arrAt 11 cfg0.N : S4096x8192.Idx → EReal) (ix2 (⟨b.val * 2048 + l.val, by have := b.isLt; have := l.isLt; omega⟩ : Fin 4096) j) := by
  have h : (W5 m ρ c (Proc.devRef .tc main_v45) : S2x2048x8192.Idx → EReal)
      = shapeCast S2x2048x8192 (W4 m ρ c (Proc.devRef .tc main_v33_3)) shapeCasts_S4096x8192_S2x2048x8192 := by
    show StableHlo.after hostOps2 _ (Proc.devRef .tc main_v45) = _
    after_results
    rfl
  rw [h, W4_main_v33_3]
  refine shapeCast_apply _ shapeCasts_S4096x8192_S2x2048x8192 (ix3 b l j) _ ?_
  rw [Shape.rowMajor_val_two, Shape.rowMajor_val_three]
  show (b.val * 2048 + l.val) * 8192 + j.val = (b.val * 2048 + l.val) * 8192 + j.val
  rfl

end Cert.KernelIdeal.HostTail

end
-- ==== Proof.Region0EmbPoint.lean ====
/-
  One grid point of the first pallas_call, read entry by entry: the embedding block and the symbol block the body
  leaves, as the per-token functions of the rows of the loaded blocks.  Row `p` of the activations is the three-stage
  squashing of row `p` of the second-table block; row `p` of the symbol block is row `p` of the first-table block plus
  the activations' row contracted with the matrix plus the bias row; the embedding block lays the symbol block, 48
  constant columns and the activations side by side.
-/
import proofs.«422631_j22874995818884_3_alg».proof.Proof.Spec
import proofs.«422631_j22874995818884_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0EmbPoint

open Cert.KernelIdeal Cert.KernelIdeal.Gen Idealize.ShloMosaic Idealize.ShloMosaic.TcCoe Idealize.ShloMosaic.ValueIdx Idealize.SL.Sem
open Idealize.ShloMosaic.Pipeline (Dat Cfg Window)

/-- The synonym activations of a block of second-table rows: row `p`, column `q` is the three-stage squashing of the
    entry there (the literal `0` of `0 - w` is the real zero, and `0 - w = -w`). -/
theorem pay1_at (x1 : Vec Ideal S64x768 .f32) (p : Fin 64) (q : Fin 768) :
    k0_pay1 (F := Ideal) x1 (ix2 p q) = Cert.Spec.synT (fun d => x1 (ix2 p d)) q := by
  unfold k0_pay1
  simp only [shapeCast_self]
  show Ideal.logistic (Ideal.ofBits .f32 0x40400000#32 * (x1 (ix2 p q) - Ideal.ofBits .f32 0x40800000#32))
      - Ideal.logistic (Ideal.ofBits .f32 0x40400000#32 * ((Ideal.ofBits .f32 0x00000000#32 - x1 (ix2 p q)) - Ideal.ofBits .f32 0x40800000#32)) = _
  rw [Ideal.ofBits_zero_f32, zero_sub]
  rfl

/-! The operand indices of the [64,768] × [768,768] product at output index `i` and contraction position `k`:
    (row of `i`, `k`) on the left, (`k`, column of `i`) on the right. -/

theorem lhs_dot_0 (i : S64x768.Idx) (k : dot_S64x768_S768x768_S64x768_1_0_0_1_n_n.contr.Idx) :
    (dot_S64x768_S768x768_S64x768_1_0_0_1_n_n.lhsIdx i k 0).val = (i 0).val := by
  unfold DotDims.lhsIdx
  rw [dif_neg (show ¬(0 : Fin S64x768.rank) ∈ dot_S64x768_S768x768_S64x768_1_0_0_1_n_n.lhsBatch by decide), dif_pos (show (0 : Fin S64x768.rank) ∈ dot_S64x768_S768x768_S64x768_1_0_0_1_n_n.lhsNonContracting by decide)]
  rfl
theorem lhs_dot_1 (i : S64x768.Idx) (k : dot_S64x768_S768x768_S64x768_1_0_0_1_n_n.contr.Idx) :
    (dot_S64x768_S768x768_S64x768_1_0_0_1_n_n.lhsIdx i k 1).val = (k ⟨0, by decide⟩).val :=
  dot_S64x768_S768x768_S64x768_1_0_0_1_n_n.lhsIdx_val_of_single rfl i k
theorem rhs_dot_0 (i : S64x768.Idx) (k : dot_S64x768_S768x768_S64x768_1_0_0_1_n_n.contr.Idx) :
    (dot_S64x768_S768x768_S64x768_1_0_0_1_n_n.rhsIdx i k 0).val = (k ⟨0, by decide⟩).val :=
  dot_S64x768_S768x768_S64x768_1_0_0_1_n_n.rhsIdx_val_of_single rfl i k
theorem rhs_dot_1 (i : S64x768.Idx) (k : dot_S64x768_S768x768_S64x768_1_0_0_1_n_n.contr.Idx) :
    (dot_S64x768_S768x768_S64x768_1_0_0_1_n_n.rhsIdx i k 1).val = (i 1).val := by
  unfold DotDims.rhsIdx
  rw [dif_neg (show ¬(1 : Fin S768x768.rank) ∈ dot_S64x768_S768x768_S64x768_1_0_0_1_n_n.rhsBatch by decide), dif_pos (show (1 : Fin S768x768.rank) ∈ dot_S64x768_S768x768_S64x768_1_0_0_1_n_n.rhsNonContracting by decide)]
  rfl

/-- The product into a zero accumulator, at row `p`, column `q`: the sum over the 768 contraction positions. -/
theorem matmul_at (a : FVec Ideal S64x768 .bf16) (w : FVec Ideal S768x768 .bf16) (p : Fin 64) (q : Fin 768) :
    matmul dot_S64x768_S768x768_S64x768_1_0_0_1_n_n none a w (constant (F := Ideal) S64x768 .f32 0x00000000#32) (ix2 p q)
      = ∑ d : Fin 768, a (ix2 p d) * w (ix2 d q) := by
  simp only [matmul]
  rw [Ideal.matmul_constant_zero_apply, ← Equiv.sum_comp (ValueIdx.contrEquiv1 dot_S64x768_S768x768_S64x768_1_0_0_1_n_n 768 rfl rfl).symm]
  refine Finset.sum_congr rfl fun k _ => ?_
  have hk := ValueIdx.contrEquiv1_symm_val dot_S64x768_S768x768_S64x768_1_0_0_1_n_n 768 rfl rfl k
  have el : dot_S64x768_S768x768_S64x768_1_0_0_1_n_n.lhsIdx (ix2 p q) ((ValueIdx.contrEquiv1 dot_S64x768_S768x768_S64x768_1_0_0_1_n_n 768 rfl rfl).symm k) = ix2 p k := funext fun a => Fin.ext (by
    match a with
    | ⟨0, _⟩ => exact lhs_dot_0 _ _
    | ⟨1, _⟩ => exact (lhs_dot_1 _ _).trans hk)
  have er : dot_S64x768_S768x768_S64x768_1_0_0_1_n_n.rhsIdx (ix2 p q) ((ValueIdx.contrEquiv1 dot_S64x768_S768x768_S64x768_1_0_0_1_n_n 768 rfl rfl).symm k) = ix2 k q := funext fun a => Fin.ext (by
    match a with
    | ⟨0, _⟩ => exact (rhs_dot_0 _ _).trans hk
    | ⟨1, _⟩ => exact rhs_dot_1 _ _)
  rw [el, er]

/-- The symbol vectors of a block: at row `p`, column `q` the first-table entry plus the activations' row contracted
    with column `q` of the matrix plus the bias entry (rounding to bf16 is the identity on the extended reals). -/
theorem pay3_at (x1 : Vec Ideal S64x768 .f32) (x4 : Vec Ideal S768x768 .bf16) (x0 : Vec Ideal S64x768 .f32) (x5 : Vec Ideal S1x768 .f32)
    (p : Fin 64) (q : Fin 768) :
    k0_pay3 (F := Ideal) x1 x4 x0 x5 (ix2 p q)
      = Cert.Spec.symT (fun e => x0 (ix2 p e)) (fun d => x1 (ix2 p d)) (fun d e => x4 (ix2 d e)) (fun e => x5 (ix2 (0 : Fin 1) e)) q := by
  unfold k0_pay3 k0_pay2
  simp only [shapeCast_self]
  refine (addf_apply _ _ (ix2 p q)).trans ?_
  unfold Cert.Spec.symT
  refine congrArg₂ (· + ·) ?_ ?_
  · refine (addf_apply _ _ (ix2 p q)).trans ?_
    refine congrArg (x0 (ix2 p q) + ·) ?_
    refine (matmul_at _ _ p q).trans ?_
    refine Finset.sum_congr rfl fun d _ => ?_
    exact congrArg (· * x4 (ix2 d q)) (pay1_at x1 p d)
  · exact broadcastTo_apply x5 _ (ix2 p q) (ix2 (0 : Fin 1) q) (fun a => by
      match a with
      | ⟨0, _⟩ => rfl
      | ⟨1, _⟩ => rfl)

theorem hz : (![0, 0] : Fin 2 → Nat) = fun _ => 0 := funext fun a => by fin_cases a <;> rfl

/-- What the body leaves in the symbol window's buffer, at row `p`, column `q` of the block. -/
theorem out10_at (x0 : Vec Ideal S64x768 .f32) (x1 : Vec Ideal S64x768 .f32) (x2 : Vec Ideal S64x4 .i32) (x3 : Vec Ideal S64x4 .f32) (x4 : Vec Ideal S768x768 .bf16) (x5 : Vec Ideal S1x768 .f32) (x6 : Vec Ideal S768x8192 .bf16) (x7 : Vec Ideal S1x8192 .f32)
    (p : Fin 64) (q : Fin 768) :
    out0_10 (F := Ideal) x0 x1 x2 x3 x4 x5 x6 x7 (ix2 p q)
      = Cert.Spec.symT (fun e => x0 (ix2 p e)) (fun d => x1 (ix2 p d)) (fun d e => x4 (ix2 d e)) (fun e => x5 (ix2 (0 : Fin 1) e)) q := by
  unfold out0_10
  rw [View.canon_unit_zero hz]
  simp only [View.ld_unit_zero (S := S64x768) hz, View.ld_unit_zero (S := S768x768) hz, View.ld_unit_zero (S := S1x768) hz]
  unfold k0_pay7
  exact pay3_at x1 x4 x0 x5 p q

/-- What the body leaves in the embedding window's buffer, at row `p`, column `j` of the block: the columns below 768
    fall in the first piece of the outer concatenation and there in the first piece of the inner one (the symbol
    vector); 768 … 783 in the inner one's constant columns, 784 … 815 in the outer one's constant columns; the rest in
    the last piece, the activations, at column `j - 816`. -/
theorem out8_at (x0 : Vec Ideal S64x768 .f32) (x1 : Vec Ideal S64x768 .f32) (x2 : Vec Ideal S64x4 .i32) (x3 : Vec Ideal S64x4 .f32) (x4 : Vec Ideal S768x768 .bf16) (x5 : Vec Ideal S1x768 .f32) (x6 : Vec Ideal S768x8192 .bf16) (x7 : Vec Ideal S1x8192 .f32)
    (p : Fin 64) (j : Fin 1584) :
    out0_8 (F := Ideal) x0 x1 x2 x3 x4 x5 x6 x7 (ix2 p j)
      = Cert.Spec.embT (fun e => x0 (ix2 p e)) (fun d => x1 (ix2 p d)) (fun d e => x4 (ix2 d e)) (fun e => x5 (ix2 (0 : Fin 1) e)) j := by
  unfold out0_8
  rw [View.canon_unit_zero hz]
  simp only [View.ld_unit_zero (S := S64x768) hz, View.ld_unit_zero (S := S768x768) hz, View.ld_unit_zero (S := S1x768) hz]
  unfold k0_pay6 k0_pay5 Cert.Spec.embT
  dsimp only
  have hj : j.val < 1584 := j.isLt
  by_cases h1 : j.val < 768
  · rw [dif_pos h1]
    refine (concatenate_apply_piece (1 : Fin S64x1584.rank) _ _ (ix2 p j) 0 (by show (0 : Nat) < 3; omega) S64x784 _ rfl rfl 0 rfl
      (ix2 p (⟨j.val, by omega⟩ : Fin 784)) (fun b => by
        match b with
        | ⟨0, _⟩ => exact fun _ => rfl
        | ⟨1, _⟩ => exact fun h => absurd rfl h) (by show 0 + j.val = j.val; omega)).trans ?_
    refine (concatenate_pair_apply_left (t := S64x784) (s₁ := S64x768) (s₂ := S64x16) (1 : Fin S64x784.rank) _ _ _ (ix2 p (⟨j.val, by omega⟩ : Fin 784)) rfl
      (ix2 p (⟨j.val, h1⟩ : Fin 768)) (fun b => by
        match b with
        | ⟨0, _⟩ => rfl
        | ⟨1, _⟩ => rfl)).trans ?_
    exact pay3_at x1 x4 x0 x5 p ⟨j.val, h1⟩
  · rw [dif_neg h1]
    by_cases h2 : j.val < 816
    · rw [dif_pos h2]
      by_cases h3 : j.val < 784
      · refine (concatenate_apply_piece (1 : Fin S64x1584.rank) _ _ (ix2 p j) 0 (by show (0 : Nat) < 3; omega) S64x784 _ rfl rfl 0 rfl
          (ix2 p (⟨j.val, h3⟩ : Fin 784)) (fun b => by
            match b with
            | ⟨0, _⟩ => exact fun _ => rfl
            | ⟨1, _⟩ => exact fun h => absurd rfl h) (by show 0 + j.val = j.val; omega)).trans ?_
        refine (concatenate_pair_apply_right (t := S64x784) (s₁ := S64x768) (s₂ := S64x16) (1 : Fin S64x784.rank) _ _ _ (ix2 p (⟨j.val, h3⟩ : Fin 784)) rfl rfl
          (ix2 p (⟨j.val - 768, by omega⟩ : Fin 16)) (fun b => by
            match b with
            | ⟨0, _⟩ => exact fun _ => rfl
            | ⟨1, _⟩ => exact fun h => absurd rfl h) (by show j.val - 768 + 768 = j.val; omega)).trans ?_
        rfl
      · refine (concatenate_apply_piece (1 : Fin S64x1584.rank) _ _ (ix2 p j) 1 (by show (1 : Nat) < 3; omega) S64x32 _ rfl rfl 784 rfl
          (ix2 p (⟨j.val - 784, by omega⟩ : Fin 32)) (fun b => by
            match b with
            | ⟨0, _⟩ => exact fun _ => rfl
            | ⟨1, _⟩ => exact fun h => absurd rfl h) (by show 784 + (j.val - 784) = j.val; omega)).trans ?_
        rfl
    · rw [dif_neg h2]
      refine (concatenate_apply_piece (1 : Fin S64x1584.rank) _ _ (ix2 p j) 2 (by show (2 : Nat) < 3; omega) S64x768 _ rfl rfl 816 rfl
        (ix2 p (⟨j.val - 816, by omega⟩ : Fin 768)) (fun b => by
          match b with
          | ⟨0, _⟩ => exact fun _ => rfl
          | ⟨1, _⟩ => exact fun h => absurd rfl h) (by show 816 + (j.val - 816) = j.val; omega)).trans ?_
      exact pay1_at x1 p ⟨j.val - 816, by omega⟩

end Cert.KernelIdeal.Region0EmbPoint

end
-- ==== Proof.Region0Emb.lean ====
/-
  The first pallas_call's embedding and symbol outputs as whole arrays: row `r` of the embedding array is the embedding
  row of the token whose table rows are row `r` of the gathered operands, and row `r` of the symbol array its symbol vector.

  Each of the 64 grid points reads rows `64 t … 64 t + 63` of the two gathered operands and the whole matrix and bias row,
  and writes back rows `64 t … 64 t + 63` of each output; what it writes is the block of one whole-array function, and the
  64 blocks cover the 4096 rows.
-/
import proofs.«422631_j22874995818884_3_alg».proof.Proof.Spec
import proofs.«422631_j22874995818884_3_alg».proof.Proof.Gen.KernelIdeal.Frame
import proofs.«422631_j22874995818884_3_alg».proof.Proof.Region0EmbPoint
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0Emb

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.Region0EmbPoint

variable (V : (c : Dev nD) → (b : Ref sig .tc) → Buf (Elt Ideal) ((c : Thread nD τ).loc b))

/-! ## Where a block sits in its array -/

/-- The grid's 64 points times 64 rows stay inside the 4096 rows. -/
theorem row_lt (t : Fin cfg0.N) (p : Fin 64) : 64 * t.val + p.val < 4096 := by
  have hN : cfg0.N = 64 := N_0
  have ht := t.isLt
  have hp := p.isLt
  omega

/-- The printed index maps over the grid: the row-blocked windows are at block (t, 0), the whole-array ones at (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_8.index t (0 : Fin 2) = t.val ∧ win0_8.index t (1 : Fin 2) = 0
    ∧ win0_10.index t (0 : Fin 2) = t.val ∧ win0_10.index t (1 : Fin 2) = 0 :=
  (by decide +kernel : ∀ t : Fin grid0.N, _)

/-- Row `p` of the first-table block at point `t` is row `64 t + p` of the gathered first-table rows. -/
theorem blk0_at (c : Dev nD) (t : Fin cfg0.N) (p : Fin 64) (e : Fin 768) :
    (iblk0 (F := Ideal) V c 0 t : Vec Ideal S64x768 .f32) (ix2 p e)
      = V c main_v7 (ix2 (⟨64 * t.val + p.val, row_lt t p⟩ : Fin 4096) e) := by
  obtain ⟨h0, h1, -⟩ := idx_facts t
  unfold iblk0
  rw [View.read_apply]
  show V c main_v7 (((cfg0.win 0).blk t).view.emb (ix2 p e)) = _
  refine congrArg (V c main_v7) (funext fun a => Fin.ext ?_)
  match a with
  | ⟨0, _⟩ => show win0_0.index t (0 : Fin 2) * 64 + 1 * p.val = 64 * t.val + p.val; omega
  | ⟨1, _⟩ => show win0_0.index t (1 : Fin 2) * 768 + 1 * e.val = e.val; omega

/-- Row `p` of the second-table block at point `t` is row `64 t + p` of the gathered second-table rows. -/
theorem blk1_at (c : Dev nD) (t : Fin cfg0.N) (p : Fin 64) (d : Fin 768) :
    (iblk0 (F := Ideal) V c 1 t : Vec Ideal S64x768 .f32) (ix2 p d)
      = V c main_v14 (ix2 (⟨64 * t.val + p.val, row_lt t p⟩ : Fin 4096) d) := by
  obtain ⟨-, -, h0, h1, -⟩ := idx_facts t
  unfold iblk0
  rw [View.read_apply]
  show V c main_v14 (((cfg0.win 1).blk t).view.emb (ix2 p d)) = _
  refine congrArg (V c main_v14) (funext fun a => Fin.ext ?_)
  match a with
  | ⟨0, _⟩ => show win0_1.index t (0 : Fin 2) * 64 + 1 * p.val = 64 * t.val + p.val; omega
  | ⟨1, _⟩ => show win0_1.index t (1 : Fin 2) * 768 + 1 * d.val = d.val; omega

/-- The matrix's block is the whole matrix at every point. -/
theorem blk4_at (c : Dev nD) (t : Fin cfg0.N) (d e : Fin 768) :
    (iblk0 (F := Ideal) V c 4 t : Vec Ideal S768x768 .bf16) (ix2 d e) = V c main_v29 (ix2 d e) := by
  obtain ⟨-, -, -, -, h0, h1, -⟩ := idx_facts t
  unfold iblk0
  rw [View.read_apply]
  show V c main_v29 (((cfg0.win 4).blk t).view.emb (ix2 d e)) = _
  refine congrArg (V c main_v29) (funext fun a => Fin.ext ?_)
  match a with
  | ⟨0, _⟩ => show win0_4.index t (0 : Fin 2) * 768 + 1 * d.val = d.val; omega
  | ⟨1, _⟩ => show win0_4.index t (1 : Fin 2) * 768 + 1 * e.val = e.val; omega

/-- The bias row's block is the whole row at every point. -/
theorem blk5_at (c : Dev nD) (t : Fin cfg0.N) (e : Fin 768) :
    (iblk0 (F := Ideal) V c 5 t : Vec Ideal S1x768 .f32) (ix2 (0 : Fin 1) e) = V c main_v31 (ix2 (0 : Fin 1) e) := by
  obtain ⟨-, -, -, -, -, -, h0, h1, -⟩ := idx_facts t
  unfold iblk0
  rw [View.read_apply]
  show V c main_v31 (((cfg0.win 5).blk t).view.emb (ix2 (0 : Fin 1) e)) = _
  refine congrArg (V c main_v31) (funext fun a => Fin.ext ?_)
  match a with
  | ⟨0, _⟩ => show win0_5.index t (0 : Fin 2) * 1 + 1 * 0 = 0; omega
  | ⟨1, _⟩ => show win0_5.index t (1 : Fin 2) * 768 + 1 * e.val = e.val; omega

/-! ## The embedding array -/

/-- The embedding array as one function of the entry arrays: row `r` is the embedding row of the token whose table rows
    are row `r` of the two gathered operands. -/
def embArr (c : Dev nD) : S4096x1584.Idx → EReal := fun i =>
  Cert.Spec.embT (fun e => V c main_v7 (ix2 (⟨(i 0).val, idx2_lt0 i⟩ : Fin 4096) e))
    (fun d => V c main_v14 (ix2 (⟨(i 0).val, idx2_lt0 i⟩ : Fin 4096) d))
    (fun d e => V c main_v29 (ix2 d e)) (fun e => V c main_v31 (ix2 (0 : Fin 1) e)) ⟨(i 1).val, idx2_lt1 i⟩

/-- What point `t` leaves in the embedding window's buffer is block `t` of that function: rows `64 t … 64 t + 63`. -/
theorem blk8_at (c : Dev nD) (t : Fin cfg0.N) (y : S64x1584.Idx) :
    out0_8 (F := Ideal) (iblk0 V c 0 t) (iblk0 V c 1 t) (iblk0 V c 2 t) (iblk0 V c 3 t) (iblk0 V c 4 t) (iblk0 V c 5 t) (iblk0 V c 6 t) (iblk0 V c 7 t) y = embArr V c (((cfg0.win 8).blk t).view.emb y) := by
  obtain ⟨p, j, rfl⟩ : ∃ (p : Fin 64) (j : Fin 1584), y = ix2 p j := ⟨y 0, y 1, eq_ix2 y⟩
  obtain ⟨-, -, -, -, -, -, -, -, h0, h1, -⟩ := idx_facts t
  have eR : ((cfg0.win 8).blk t).view.emb (ix2 p j) = ix2 (⟨64 * t.val + p.val, row_lt t p⟩ : Fin 4096) j :=
    funext fun a => Fin.ext (by
      match a with
      | ⟨0, _⟩ => show win0_8.index t (0 : Fin 2) * 64 + 1 * p.val = 64 * t.val + p.val; omega
      | ⟨1, _⟩ => show win0_8.index t (1 : Fin 2) * 1584 + 1 * j.val = j.val; omega)
  rw [eR]
  refine (out8_at (iblk0 V c 0 t) (iblk0 V c 1 t) (iblk0 V c 2 t) (iblk0 V c 3 t) (iblk0 V c 4 t) (iblk0 V c 5 t) (iblk0 V c 6 t) (iblk0 V c 7 t) p j).trans ?_
  have e0 := funext (blk0_at V c t p)
  have e1 := funext (blk1_at V c t p)
  have e4 : (fun d e : Fin 768 => (iblk0 (F := Ideal) V c 4 t : Vec Ideal S768x768 .bf16) (ix2 d e)) = fun d e => V c main_v29 (ix2 d e) :=
    funext fun d => funext fun e => blk4_at V c t d e
  have e5 := funext (blk5_at V c t)
  exact congrFun (congr (congr (congr (congrArg Cert.Spec.embT e0) e1) e4) e5) j

theorem flushed8_eq (c : Dev nD) (t : Fin cfg0.N) :
    (dat0 (F := Ideal) V c).flushed 8 t = ((cfg0.win 8).blk t).view.read (Elt Ideal) (embArr V c) := by
  show (cfg0.win 8).cut (grid0.coords t) ((dat0 (F := Ideal) V c).after 8 t) = _
  rw [after0_8]
  funext y
  exact blk8_at V c t y

/-- An index of the embedding array is in point `t`'s block iff each coordinate is in the block's range on its axis. -/
theorem mem_blk8 (t : Fin cfg0.N) (i : S4096x1584.Idx) :
    i ∈ ((cfg0.win 8).blk t).view.set ↔ ∀ a : Fin 2, win0_8.index t a * S64x1584.size a ≤ (i a).val ∧ (i a).val < win0_8.index t a * S64x1584.size a + S64x1584.size a := by
  show i ∈ ((View.whole main_v33_0).slice (win0_8.rect t)).set ↔ _
  rw [View.set_slice_whole, Rect.mem_set_unit]
  exact Iff.rfl

/-- Row `r` lies in the block of point `r / 64`. -/
theorem cover8 (i : S4096x1584.Idx) : ∃ t : Fin cfg0.N, (cfg0.win 8).flush t = true ∧ i ∈ ((cfg0.win 8).blk t).view.set := by
  have hN : cfg0.N = 64 := N_0
  have hi0 : (i 0).val < 4096 := (i 0).isLt
  have hi1 : (i 1).val < 1584 := (i 1).isLt
  obtain ⟨t, ht⟩ : ∃ t : Fin cfg0.N, t.val = (i 0).val / 64 := ⟨⟨(i 0).val / 64, by omega⟩, rfl⟩
  obtain ⟨-, -, -, -, -, -, -, -, h0, h1, -⟩ := idx_facts t
  refine ⟨t, flush0_8 t, ?_⟩
  rw [mem_blk8]
  intro a
  match a with
  | ⟨0, _⟩ => show win0_8.index t (0 : Fin 2) * 64 ≤ (i 0).val ∧ (i 0).val < win0_8.index t (0 : Fin 2) * 64 + 64; omega
  | ⟨1, _⟩ => show win0_8.index t (1 : Fin 2) * 1584 ≤ (i 1).val ∧ (i 1).val < win0_8.index t (1 : Fin 2) * 1584 + 1584; omega

/-- The embedding output (window 8) after the pipeline, read at row `r`, column `j`. -/
theorem emb_arr (c : Dev nD) (r : Fin 4096) (j : Fin 1584) :
    (dat0 (F := Ideal) V c).arrAt 8 cfg0.N (ix2 r j)
      = Cert.Spec.embT (fun e => V c main_v7 (ix2 r e)) (fun d => V c main_v14 (ix2 r d))
          (fun d e => V c main_v29 (ix2 d e)) (fun e => V c main_v31 (ix2 (0 : Fin 1) e)) j :=
  congrFun ((dat0 (F := Ideal) V c).arrAt_eq_of_cover 8 (embArr V c) (fun t _ => flushed8_eq V c t) cover8) (ix2 r j)

/-! ## The symbol array -/

/-- The symbol array as one function of the entry arrays: row `r` is the symbol vector of the token whose table rows
    are row `r` of the two gathered operands. -/
def symArr (c : Dev nD) : S4096x768.Idx → EReal := fun i =>
  Cert.Spec.symT (fun e => V c main_v7 (ix2 (⟨(i 0).val, idx2_lt0 i⟩ : Fin 4096) e))
    (fun d => V c main_v14 (ix2 (⟨(i 0).val, idx2_lt0 i⟩ : Fin 4096) d))
    (fun d e => V c main_v29 (ix2 d e)) (fun e => V c main_v31 (ix2 (0 : Fin 1) e)) ⟨(i 1).val, idx2_lt1 i⟩

/-- What point `t` leaves in the symbol window's buffer is block `t` of that function: rows `64 t … 64 t + 63`. -/
theorem blk10_at (c : Dev nD) (t : Fin cfg0.N) (y : S64x768.Idx) :
    out0_10 (F := Ideal) (iblk0 V c 0 t) (iblk0 V c 1 t) (iblk0 V c 2 t) (iblk0 V c 3 t) (iblk0 V c 4 t) (iblk0 V c 5 t) (iblk0 V c 6 t) (iblk0 V c 7 t) y = symArr V c (((cfg0.win 10).blk t).view.emb y) := by
  obtain ⟨p, q, rfl⟩ : ∃ (p : Fin 64) (q : Fin 768), y = ix2 p q := ⟨y 0, y 1, eq_ix2 y⟩
  obtain ⟨-, -, -, -, -, -, -, -, -, -, h0, h1⟩ := idx_facts t
  have eR : ((cfg0.win 10).blk t).view.emb (ix2 p q) = ix2 (⟨64 * t.val + p.val, row_lt t p⟩ : Fin 4096) q :=
    funext fun a => Fin.ext (by
      match a with
      | ⟨0, _⟩ => show win0_10.index t (0 : Fin 2) * 64 + 1 * p.val = 64 * t.val + p.val; omega
      | ⟨1, _⟩ => show win0_10.index t (1 : Fin 2) * 768 + 1 * q.val = q.val; omega)
  rw [eR]
  refine (out10_at (iblk0 V c 0 t) (iblk0 V c 1 t) (iblk0 V c 2 t) (iblk0 V c 3 t) (iblk0 V c 4 t) (iblk0 V c 5 t) (iblk0 V c 6 t) (iblk0 V c 7 t) p q).trans ?_
  have e0 := funext (blk0_at V c t p)
  have e1 := funext (blk1_at V c t p)
  have e4 : (fun d e : Fin 768 => (iblk0 (F := Ideal) V c 4 t : Vec Ideal S768x768 .bf16) (ix2 d e)) = fun d e => V c main_v29 (ix2 d e) :=
    funext fun d => funext fun e => blk4_at V c t d e
  have e5 := funext (blk5_at V c t)
  exact congrFun (congr (congr (congr (congrArg Cert.Spec.symT e0) e1) e4) e5) q

theorem flushed10_eq (c : Dev nD) (t : Fin cfg0.N) :
    (dat0 (F := Ideal) V c).flushed 10 t = ((cfg0.win 10).blk t).view.read (Elt Ideal) (symArr V c) := by
  show (cfg0.win 10).cut (grid0.coords t) ((dat0 (F := Ideal) V c).after 10 t) = _
  rw [after0_10]
  funext y
  exact blk10_at V c t y

/-- An index of the symbol array is in point `t`'s block iff each coordinate is in the block's range on its axis. -/
theorem mem_blk10 (t : Fin cfg0.N) (i : S4096x768.Idx) :
    i ∈ ((cfg0.win 10).blk t).view.set ↔ ∀ a : Fin 2, win0_10.index t a * S64x768.size a ≤ (i a).val ∧ (i a).val < win0_10.index t a * S64x768.size a + S64x768.size a := by
  show i ∈ ((View.whole main_v33_2).slice (win0_10.rect t)).set ↔ _
  rw [View.set_slice_whole, Rect.mem_set_unit]
  exact Iff.rfl

/-- Row `r` lies in the block of point `r / 64`. -/
theorem cover10 (i : S4096x768.Idx) : ∃ t : Fin cfg0.N, (cfg0.win 10).flush t = true ∧ i ∈ ((cfg0.win 10).blk t).view.set := by
  have hN : cfg0.N = 64 := N_0
  have hi0 : (i 0).val < 4096 := (i 0).isLt
  have hi1 : (i 1).val < 768 := (i 1).isLt
  obtain ⟨t, ht⟩ : ∃ t : Fin cfg0.N, t.val = (i 0).val / 64 := ⟨⟨(i 0).val / 64, by omega⟩, rfl⟩
  obtain ⟨-, -, -, -, -, -, -, -, -, -, h0, h1⟩ := idx_facts t
  refine ⟨t, flush0_10 t, ?_⟩
  rw [mem_blk10]
  intro a
  match a with
  | ⟨0, _⟩ => show win0_10.index t (0 : Fin 2) * 64 ≤ (i 0).val ∧ (i 0).val < win0_10.index t (0 : Fin 2) * 64 + 64; omega
  | ⟨1, _⟩ => show win0_10.index t (1 : Fin 2) * 768 ≤ (i 1).val ∧ (i 1).val < win0_10.index t (1 : Fin 2) * 768 + 768; omega

/-- The symbol output (window 10) after the pipeline, read at row `r`, column `e`. -/
theorem sp_arr (c : Dev nD) (r : Fin 4096) (e : Fin 768) :
    (dat0 (F := Ideal) V c).arrAt 10 cfg0.N (ix2 r e)
      = Cert.Spec.symT (fun e => V c main_v7 (ix2 r e)) (fun d => V c main_v14 (ix2 r d))
          (fun d e => V c main_v29 (ix2 d e)) (fun e => V c main_v31 (ix2 (0 : Fin 1) e)) e :=
  congrFun ((dat0 (F := Ideal) V c).arrAt_eq_of_cover 10 (symArr V c) (fun t _ => flushed10_eq V c t) cover10) (ix2 r e)

end Cert.KernelIdeal.Region0Emb

end
-- ==== Proof.Region0Sum.lean ====
/-
  The first pallas_call's synonym-sum and histogram outputs as whole arrays, row by row.

  At grid point t the body holds rows 64t … 64t + 63 of the gathered table rows, synonym ids and mask values, and the
  whole second matrix with its bias row.  Per block: the activations are the three-stage squashing of the second
  table's rows (the zero literal minus w is -w); the synonym sums are their product with the matrix, a contraction over
  the 768 columns re-indexed through the one contracted axis, plus the bias row broadcast down the rows; the histogram
  adds onto zero, slot by slot, the indicator "column number = slot id" (a one-bit compare widened to 0 or 1 and read as
  a real) times the slot's mask value, which is the specification's four-term sum.  What a point writes back is the
  restriction to rows 64t … 64t + 63 of one function of the entry arrays, and row r lies in the block of point r / 64,
  so each array ends holding that function.
-/
import proofs.«422631_j22874995818884_3_alg».proof.Proof.Spec
import proofs.«422631_j22874995818884_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0Sum

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The activations of row `p` of a block at column `d`. -/
theorem pay1_apply (x1 : Vec Ideal S64x768 .f32) (p : Fin 64) (d : Fin 768) :
    k0_pay1 (F := Ideal) x1 (ix2 p d) = Cert.Spec.synT (fun e => x1 (ix2 p e)) d := by
  unfold k0_pay1
  simp only [shapeCast_self]
  show Ideal.logistic (Cert.Spec.c3 * (x1 (ix2 p d) - Cert.Spec.c4))
      - Ideal.logistic (Cert.Spec.c3 * ((Ideal.ofBits .f32 0x00000000#32 - x1 (ix2 p d)) - Cert.Spec.c4)) = _
  rw [Ideal.ofBits_zero_f32, zero_sub]
  rfl

/-- The operand indices of the block's contraction at output index `i` and contraction index `q`, axis by axis: the left
    operand is read at (row of `i`, `q`), the right one at (`q`, column of `i`). -/
theorem lhs_pay4_0 (i : S64x8192.Idx) (q : dot_S64x768_S768x8192_S64x8192_1_0_0_1_n_n.contr.Idx) :
    (dot_S64x768_S768x8192_S64x8192_1_0_0_1_n_n.lhsIdx i q 0).val = (i 0).val := by
  unfold DotDims.lhsIdx
  rw [dif_neg (show ¬(0 : Fin S64x768.rank) ∈ dot_S64x768_S768x8192_S64x8192_1_0_0_1_n_n.lhsBatch by decide), dif_pos (show (0 : Fin S64x768.rank) ∈ dot_S64x768_S768x8192_S64x8192_1_0_0_1_n_n.lhsNonContracting by decide)]
  rfl
theorem lhs_pay4_1 (i : S64x8192.Idx) (q : dot_S64x768_S768x8192_S64x8192_1_0_0_1_n_n.contr.Idx) :
    (dot_S64x768_S768x8192_S64x8192_1_0_0_1_n_n.lhsIdx i q 1).val = (q ⟨0, by decide⟩).val :=
  dot_S64x768_S768x8192_S64x8192_1_0_0_1_n_n.lhsIdx_val_of_single rfl i q
theorem rhs_pay4_0 (i : S64x8192.Idx) (q : dot_S64x768_S768x8192_S64x8192_1_0_0_1_n_n.contr.Idx) :
    (dot_S64x768_S768x8192_S64x8192_1_0_0_1_n_n.rhsIdx i q 0).val = (q ⟨0, by decide⟩).val :=
  dot_S64x768_S768x8192_S64x8192_1_0_0_1_n_n.rhsIdx_val_of_single rfl i q
theorem rhs_pay4_1 (i : S64x8192.Idx) (q : dot_S64x768_S768x8192_S64x8192_1_0_0_1_n_n.contr.Idx) :
    (dot_S64x768_S768x8192_S64x8192_1_0_0_1_n_n.rhsIdx i q 1).val = (i 1).val := by
  unfold DotDims.rhsIdx
  rw [dif_neg (show ¬(1 : Fin S768x8192.rank) ∈ dot_S64x768_S768x8192_S64x8192_1_0_0_1_n_n.rhsBatch by decide), dif_pos (show (1 : Fin S768x8192.rank) ∈ dot_S64x768_S768x8192_S64x8192_1_0_0_1_n_n.rhsNonContracting by decide)]
  rfl

/-- The product of a block of activations with the whole second matrix, read at row `p`, column `q`. -/
theorem matmul4_apply (a : FVec Ideal S64x768 .bf16) (w : FVec Ideal S768x8192 .bf16) (p : Fin 64) (q : Fin 8192) :
    matmul dot_S64x768_S768x8192_S64x8192_1_0_0_1_n_n none a w (constant (F := Ideal) S64x8192 .f32 0x00000000#32) (ix2 p q)
      = ∑ k : Fin 768, a (ix2 p k) * w (ix2 k q) := by
  show FloatOps.matmul dot_S64x768_S768x8192_S64x8192_1_0_0_1_n_n none a w (constant (F := Ideal) S64x8192 .f32 0x00000000#32) (ix2 p q) = _
  rw [Ideal.matmul_constant_zero_apply, ← Equiv.sum_comp (ValueIdx.contrEquiv1 dot_S64x768_S768x8192_S64x8192_1_0_0_1_n_n 768 rfl rfl).symm]
  refine Finset.sum_congr rfl fun k _ => ?_
  have hk := ValueIdx.contrEquiv1_symm_val dot_S64x768_S768x8192_S64x8192_1_0_0_1_n_n 768 rfl rfl k
  have el : dot_S64x768_S768x8192_S64x8192_1_0_0_1_n_n.lhsIdx (ix2 p q) ((ValueIdx.contrEquiv1 dot_S64x768_S768x8192_S64x8192_1_0_0_1_n_n 768 rfl rfl).symm k) = ix2 p k := funext fun a => Fin.ext (by
    match a with
    | ⟨0, _⟩ => exact lhs_pay4_0 _ _
    | ⟨1, _⟩ => exact (lhs_pay4_1 _ _).trans hk)
  have er : dot_S64x768_S768x8192_S64x8192_1_0_0_1_n_n.rhsIdx (ix2 p q) ((ValueIdx.contrEquiv1 dot_S64x768_S768x8192_S64x8192_1_0_0_1_n_n 768 rfl rfl).symm k) = ix2 k q := funext fun a => Fin.ext (by
    match a with
    | ⟨0, _⟩ => exact (rhs_pay4_0 _ _).trans hk
    | ⟨1, _⟩ => exact rhs_pay4_1 _ _)
  rw [el, er]

/-- The synonym sums of a block: row `p`, column `q`. -/
theorem pay4_apply (x1 : Vec Ideal S64x768 .f32) (x6 : Vec Ideal S768x8192 .bf16) (x7 : Vec Ideal S1x8192 .f32) (p : Fin 64) (q : Fin 8192) :
    k0_pay4 (F := Ideal) x1 x6 x7 (ix2 p q)
      = Cert.Spec.synsumT (fun d => x1 (ix2 p d)) (fun d s => x6 (ix2 d s)) (fun s => x7 (ix2 (0 : Fin 1) s)) q := by
  unfold k0_pay4 k0_pay2
  simp only [shapeCast_self]
  rw [addf_apply, matmul4_apply]
  unfold Cert.Spec.synsumT
  congr 1
  · refine Finset.sum_congr rfl fun k _ => ?_
    rw [truncf_apply, pay1_apply]
  · exact broadcastTo_apply _ _ _ _ (fun a => by
      match a with
      | ⟨0, _⟩ => rfl
      | ⟨1, _⟩ => rfl)

/-- One synonym slot's indicator times its mask value. -/
theorem slot_word (id : BitVec 32) (n : Nat) (m : EReal) :
    ((((BitVec.ofBool (BitVec.ofNat 32 n == id)).setWidth 32).toInt : ℝ) : EReal) * m
      = if id = BitVec.ofNat 32 n then m else 0 := by
  by_cases h : id = BitVec.ofNat 32 n
  · subst h
    rw [if_pos rfl, beq_self_eq_true]
    have e : ((BitVec.ofBool true).setWidth 32).toInt = 1 := by decide
    rw [e]
    simp
  · rw [if_neg h]
    have hb : (BitVec.ofNat 32 n == id) = false := by
      rw [beq_eq_false_iff_ne]; exact fun e => h e.symm
    rw [hb]
    have e : ((BitVec.ofBool false).setWidth 32).toInt = 0 := by decide
    rw [e]
    simp

/-- One slot's term of the histogram at row `p`, column `q`: the slice offset names the slot's column `k`. -/
theorem slot_apply (x2 : IVec S64x4 32) (x3 : FVec Ideal S64x4 .f32) (off : Fin 2 → Nat) (k : Fin 4) (hoff : off = ![0, k.val])
    (h : S64x4.Slices off S64x1) (p : Fin 64) (q : Fin 8192) :
    mulf (sitofp (F := Ideal) .f32 (extui 32 (cmpi .eq (iota .tc S64x8192 32 [1] iota_S64x8192_d1_w32)
        (broadcastTo S64x8192 (extractStridedSlice S64x1 off x2 h) broadcasts_S64x1_S64x8192)) natLt_1_32))
      (broadcastTo S64x8192 (extractStridedSlice S64x1 off x3 h) broadcasts_S64x1_S64x8192) (ix2 p q)
      = if x2 (ix2 p k) = BitVec.ofNat 32 q.val then x3 (ix2 p k) else 0 := by
  subst hoff
  have e2 : broadcastTo S64x8192 (extractStridedSlice S64x1 ![0, k.val] x2 h) broadcasts_S64x1_S64x8192 (ix2 p q) = x2 (ix2 p k) := by
    refine (broadcastTo_apply _ _ (ix2 p q) (ix2 p (0 : Fin 1)) (fun a => by
      match a with
      | ⟨0, _⟩ => rfl
      | ⟨1, _⟩ => rfl)).trans ?_
    exact extractStridedSlice_apply _ _ _ _ _ (fun a => by
      match a with
      | ⟨0, _⟩ => show p.val = 0 + p.val; omega
      | ⟨1, _⟩ => show k.val = k.val + 0; omega)
  have e3 : broadcastTo S64x8192 (extractStridedSlice S64x1 ![0, k.val] x3 h) broadcasts_S64x1_S64x8192 (ix2 p q) = x3 (ix2 p k) := by
    refine (broadcastTo_apply _ _ (ix2 p q) (ix2 p (0 : Fin 1)) (fun a => by
      match a with
      | ⟨0, _⟩ => rfl
      | ⟨1, _⟩ => rfl)).trans ?_
    exact extractStridedSlice_apply _ _ _ _ _ (fun a => by
      match a with
      | ⟨0, _⟩ => show p.val = 0 + p.val; omega
      | ⟨1, _⟩ => show k.val = k.val + 0; omega)
  rw [mulf_apply, e3]
  show ((((BitVec.ofBool (iota .tc S64x8192 32 [1] iota_S64x8192_d1_w32 (ix2 p q)
      == broadcastTo S64x8192 (extractStridedSlice S64x1 ![0, k.val] x2 h) broadcasts_S64x1_S64x8192 (ix2 p q))).setWidth 32).toInt : ℝ) : EReal) * _ = _
  rw [e2, iota_single_apply]
  exact slot_word _ _ _

/-- The histogram of a block: row `p`, column `q`. -/
theorem pay8_apply (x2 : Vec Ideal S64x4 .i32) (x3 : Vec Ideal S64x4 .f32) (p : Fin 64) (q : Fin 8192) :
    k0_pay8 (F := Ideal) x2 x3 (ix2 p q)
      = Cert.Spec.expectT (fun k => x2 (ix2 p k)) (fun k => x3 (ix2 p k)) q := by
  unfold k0_pay8
  simp only [shapeCast_self]
  rw [addf_apply, addf_apply, addf_apply, addf_apply, broadcast_apply,
    slot_apply x2 x3 ![0, 0] 0 rfl, slot_apply x2 x3 ![0, 1] 1 rfl, slot_apply x2 x3 ![0, 2] 2 rfl, slot_apply x2 x3 ![0, 3] 3 rfl]
  unfold Cert.Spec.expectT
  rw [Fin.sum_univ_four]
  show Ideal.ofBits .f32 0x00000000#32 + _ + _ + _ + _ = _
  rw [Ideal.ofBits_zero_f32, zero_add]

theorem hz : (![0, 0] : Fin 2 → Nat) = fun _ => 0 := funext fun a => by fin_cases a <;> rfl

/-- The printed index maps, decided over the grid: the row windows sit at block (t, 0), the whole-array windows at (0, 0). -/
theorem idx_facts : ∀ t : Fin cfg0.N,
    win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_9.index t (0 : Fin 2) = t.val ∧ win0_9.index t (1 : Fin 2) = 0
    ∧ win0_11.index t (0 : Fin 2) = t.val ∧ win0_11.index t (1 : Fin 2) = 0 :=
  (by decide +kernel : ∀ t : Fin grid0.N, _)

/-- Window 1's block at point `t` is rows `64t … 64t + 63` of the second table's gathered rows. -/
theorem blk1_apply (c : Dev nD) (t : Fin cfg0.N) (p : Fin 64) (d : Fin 768) (r : Fin 4096) (hr : r.val = 64 * t.val + p.val) :
    (iblk0 V c 1 t : Vec Ideal S64x768 .f32) (ix2 p d) = V c main_v14 (ix2 r d) := by
  obtain ⟨e0, e1, -⟩ := idx_facts t
  unfold iblk0
  rw [View.read_apply]
  show V c main_v14 _ = V c main_v14 _
  congr 1
  funext a
  apply Fin.ext
  match a with
  | ⟨0, _⟩ => show win0_1.index t (0 : Fin 2) * 64 + 1 * p.val = r.val; rw [e0, hr]; omega
  | ⟨1, _⟩ => show win0_1.index t (1 : Fin 2) * 768 + 1 * d.val = d.val; rw [e1]; omega

/-- Window 6's block is the whole second matrix at every point. -/
theorem blk6_apply (c : Dev nD) (t : Fin cfg0.N) (d : Fin 768) (s : Fin 8192) :
    (iblk0 V c 6 t : Vec Ideal S768x8192 .bf16) (ix2 d s) = V c main_v30 (ix2 d s) := by
  obtain ⟨-, -, -, -, -, -, e0, e1, -⟩ := idx_facts t
  unfold iblk0
  rw [View.read_apply]
  show V c main_v30 _ = V c main_v30 _
  congr 1
  funext a
  apply Fin.ext
  match a with
  | ⟨0, _⟩ => show win0_6.index t (0 : Fin 2) * 768 + 1 * d.val = d.val; rw [e0]; omega
  | ⟨1, _⟩ => show win0_6.index t (1 : Fin 2) * 8192 + 1 * s.val = s.val; rw [e1]; omega

/-- Window 7's block is the whole bias row at every point. -/
theorem blk7_apply (c : Dev nD) (t : Fin cfg0.N) (z : Fin 1) (s : Fin 8192) :
    (iblk0 V c 7 t : Vec Ideal S1x8192 .f32) (ix2 z s) = V c main_v32 (ix2 z s) := by
  obtain ⟨-, -, -, -, -, -, -, -, e0, e1, -⟩ := idx_facts t
  unfold iblk0
  rw [View.read_apply]
  show V c main_v32 _ = V c main_v32 _
  congr 1
  funext a
  apply Fin.ext
  match a with
  | ⟨0, _⟩ => show win0_7.index t (0 : Fin 2) * 1 + 1 * z.val = z.val; rw [e0]; omega
  | ⟨1, _⟩ => show win0_7.index t (1 : Fin 2) * 8192 + 1 * s.val = s.val; rw [e1]; omega

/-- The whole synonym-sum array as one function of the region's entry arrays. -/
abbrev synsumG (c : Dev nD) : S4096x8192.Idx → EReal := fun i =>
  Cert.Spec.synsumT (fun d => V c main_v14 (ix2 (i 0 : Fin 4096) d)) (fun d s => V c main_v30 (ix2 d s))
    (fun s => V c main_v32 (ix2 (0 : Fin 1) s)) (i 1 : Fin 8192)

/-- What point `t` writes back to the synonym-sum array is block `t` of that function. -/
theorem synsum_flushed (c : Dev nD) (t : Fin cfg0.N) :
    (dat0 (F := Ideal) V c).flushed 9 t = ((cfg0.win 9).blk t).view.read (Elt Ideal) (synsumG V c) := by
  show (cfg0.win 9).cut (grid0.coords t) ((dat0 (F := Ideal) V c).after 9 t) = _
  rw [after0_9]
  unfold out0_9
  rw [View.canon_unit_zero hz]
  simp only [View.ld_unit_zero (S := S64x768) hz, View.ld_unit_zero (S := S768x8192) hz, View.ld_unit_zero (S := S1x8192) hz]
  funext j
  obtain ⟨p, q, rfl⟩ : ∃ (p : Fin 64) (q : Fin 8192), j = ix2 p q := ⟨j 0, j 1, eq_ix2 j⟩
  rw [View.read_apply]
  obtain ⟨-, -, -, -, -, -, -, -, -, -, e0, e1, -⟩ := idx_facts t
  have hN : cfg0.N = 64 := N_0
  have hr : 64 * t.val + p.val < 4096 := by have := t.isLt; have := p.isLt; omega
  have he : ((cfg0.win 9).blk t).view.emb (ix2 p q) = (ix2 (⟨64 * t.val + p.val, hr⟩ : Fin 4096) q : S4096x8192.Idx) := by
    funext a
    apply Fin.ext
    match a with
    | ⟨0, _⟩ => show win0_9.index t (0 : Fin 2) * 64 + 1 * p.val = 64 * t.val + p.val; rw [e0]; omega
    | ⟨1, _⟩ => show win0_9.index t (1 : Fin 2) * 8192 + 1 * q.val = q.val; rw [e1]; omega
  rw [he]
  refine (pay4_apply (iblk0 V c 1 t) (iblk0 V c 6 t) (iblk0 V c 7 t) p q).trans ?_
  show Cert.Spec.synsumT _ _ _ q = Cert.Spec.synsumT (fun d => V c main_v14 (ix2 (⟨64 * t.val + p.val, hr⟩ : Fin 4096) d))
    (fun d s => V c main_v30 (ix2 d s)) (fun s => V c main_v32 (ix2 (0 : Fin 1) s)) q
  congr 1
  · funext d; exact blk1_apply V c t p d _ rfl
  · funext d s; exact blk6_apply V c t d s
  · funext s; exact blk7_apply V c t 0 s

/-- An index of the array is in point `t`'s block iff each coordinate is in the block's range on its axis. -/
theorem mem_blk9 (t : Fin cfg0.N) (i : S4096x8192.Idx) :
    i ∈ ((cfg0.win 9).blk t).view.set ↔ ∀ a : Fin 2, win0_9.index t a * S64x8192.size a ≤ (i a).val ∧ (i a).val < win0_9.index t a * S64x8192.size a + S64x8192.size a := by
  show i ∈ ((View.whole main_v33_1).slice (win0_9.rect t)).set ↔ _
  rw [View.set_slice_whole, Rect.mem_set_unit]
  exact Iff.rfl

/-- Row `r` lies in the block of point `r / 64`. -/
theorem cover9 (i : S4096x8192.Idx) : ∃ t : Fin cfg0.N, (cfg0.win 9).flush t = true ∧ i ∈ ((cfg0.win 9).blk t).view.set := by
  have hi0 : (i 0).val < 4096 := (i 0).isLt
  have hi1 : (i 1).val < 8192 := (i 1).isLt
  have hN : cfg0.N = 64 := N_0
  obtain ⟨t, ht⟩ : ∃ t : Fin cfg0.N, t.val = (i 0).val / 64 := ⟨⟨(i 0).val / 64, by rw [hN]; omega⟩, rfl⟩
  obtain ⟨-, -, -, -, -, -, -, -, -, -, e0, e1, -⟩ := idx_facts t
  refine ⟨t, flush0_9 t, ?_⟩
  rw [mem_blk9]
  intro a
  match a with
  | ⟨0, _⟩ => show win0_9.index t (0 : Fin 2) * 64 ≤ (i 0).val ∧ (i 0).val < win0_9.index t (0 : Fin 2) * 64 + 64; rw [e0, ht]; omega
  | ⟨1, _⟩ => show win0_9.index t (1 : Fin 2) * 8192 ≤ (i 1).val ∧ (i 1).val < win0_9.index t (1 : Fin 2) * 8192 + 8192; rw [e1]; omega

/-- The synonym-sum array after the pipeline. -/
theorem synsum_final (c : Dev nD) : (dat0 (F := Ideal) V c).arrAt 9 cfg0.N = synsumG V c :=
  (dat0 (F := Ideal) V c).arrAt_eq_of_cover 9 (synsumG V c) (fun t _ => synsum_flushed V c t) cover9

/-- Window 2's block at point `t` is rows `64t … 64t + 63` of the gathered synonym ids. -/
theorem blk2_apply (c : Dev nD) (t : Fin cfg0.N) (p : Fin 64) (k : Fin 4) (r : Fin 4096) (hr : r.val = 64 * t.val + p.val) :
    (iblk0 V c 2 t : Vec Ideal S64x4 .i32) (ix2 p k) = V c main_v21 (ix2 r k) := by
  obtain ⟨-, -, e0, e1, -⟩ := idx_facts t
  unfold iblk0
  rw [View.read_apply]
  show V c main_v21 _ = V c main_v21 _
  congr 1
  funext a
  apply Fin.ext
  match a with
  | ⟨0, _⟩ => show win0_2.index t (0 : Fin 2) * 64 + 1 * p.val = r.val; rw [e0, hr]; omega
  | ⟨1, _⟩ => show win0_2.index t (1 : Fin 2) * 4 + 1 * k.val = k.val; rw [e1]; omega

/-- Window 3's block at point `t` is rows `64t … 64t + 63` of the gathered mask values. -/
theorem blk3_apply (c : Dev nD) (t : Fin cfg0.N) (p : Fin 64) (k : Fin 4) (r : Fin 4096) (hr : r.val = 64 * t.val + p.val) :
    (iblk0 V c 3 t : Vec Ideal S64x4 .f32) (ix2 p k) = V c main_v28 (ix2 r k) := by
  obtain ⟨-, -, -, -, e0, e1, -⟩ := idx_facts t
  unfold iblk0
  rw [View.read_apply]
  show V c main_v28 _ = V c main_v28 _
  congr 1
  funext a
  apply Fin.ext
  match a with
  | ⟨0, _⟩ => show win0_3.index t (0 : Fin 2) * 64 + 1 * p.val = r.val; rw [e0, hr]; omega
  | ⟨1, _⟩ => show win0_3.index t (1 : Fin 2) * 4 + 1 * k.val = k.val; rw [e1]; omega

/-- The whole histogram array as one function of the region's entry arrays. -/
abbrev expectG (c : Dev nD) : S4096x8192.Idx → EReal := fun i =>
  Cert.Spec.expectT (fun k => V c main_v21 (ix2 (i 0 : Fin 4096) k)) (fun k => V c main_v28 (ix2 (i 0 : Fin 4096) k)) (i 1 : Fin 8192)

/-- What point `t` writes back to the histogram array is block `t` of that function. -/
theorem expect_flushed (c : Dev nD) (t : Fin cfg0.N) :
    (dat0 (F := Ideal) V c).flushed 11 t = ((cfg0.win 11).blk t).view.read (Elt Ideal) (expectG V c) := by
  show (cfg0.win 11).cut (grid0.coords t) ((dat0 (F := Ideal) V c).after 11 t) = _
  rw [after0_11]
  unfold out0_11
  rw [View.canon_unit_zero hz]
  simp only [View.ld_unit_zero (S := S64x4) hz]
  funext j
  obtain ⟨p, q, rfl⟩ : ∃ (p : Fin 64) (q : Fin 8192), j = ix2 p q := ⟨j 0, j 1, eq_ix2 j⟩
  rw [View.read_apply]
  obtain ⟨-, -, -, -, -, -, -, -, -, -, -, -, e0, e1⟩ := idx_facts t
  have hN : cfg0.N = 64 := N_0
  have hr : 64 * t.val + p.val < 4096 := by have := t.isLt; have := p.isLt; omega
  have he : ((cfg0.win 11).blk t).view.emb (ix2 p q) = (ix2 (⟨64 * t.val + p.val, hr⟩ : Fin 4096) q : S4096x8192.Idx) := by
    funext a
    apply Fin.ext
    match a with
    | ⟨0, _⟩ => show win0_11.index t (0 : Fin 2) * 64 + 1 * p.val = 64 * t.val + p.val; rw [e0]; omega
    | ⟨1, _⟩ => show win0_11.index t (1 : Fin 2) * 8192 + 1 * q.val = q.val; rw [e1]; omega
  rw [he]
  refine (pay8_apply (iblk0 V c 2 t) (iblk0 V c 3 t) p q).trans ?_
  show Cert.Spec.expectT _ _ q = Cert.Spec.expectT (fun k => V c main_v21 (ix2 (⟨64 * t.val + p.val, hr⟩ : Fin 4096) k))
    (fun k => V c main_v28 (ix2 (⟨64 * t.val + p.val, hr⟩ : Fin 4096) k)) q
  congr 1
  · funext k; exact blk2_apply V c t p k _ rfl
  · funext k; exact blk3_apply V c t p k _ rfl

/-- An index of the array is in point `t`'s block iff each coordinate is in the block's range on its axis. -/
theorem mem_blk11 (t : Fin cfg0.N) (i : S4096x8192.Idx) :
    i ∈ ((cfg0.win 11).blk t).view.set ↔ ∀ a : Fin 2, win0_11.index t a * S64x8192.size a ≤ (i a).val ∧ (i a).val < win0_11.index t a * S64x8192.size a + S64x8192.size a := by
  show i ∈ ((View.whole main_v33_3).slice (win0_11.rect t)).set ↔ _
  rw [View.set_slice_whole, Rect.mem_set_unit]
  exact Iff.rfl

/-- Row `r` lies in the block of point `r / 64`. -/
theorem cover11 (i : S4096x8192.Idx) : ∃ t : Fin cfg0.N, (cfg0.win 11).flush t = true ∧ i ∈ ((cfg0.win 11).blk t).view.set := by
  have hi0 : (i 0).val < 4096 := (i 0).isLt
  have hi1 : (i 1).val < 8192 := (i 1).isLt
  have hN : cfg0.N = 64 := N_0
  obtain ⟨t, ht⟩ : ∃ t : Fin cfg0.N, t.val = (i 0).val / 64 := ⟨⟨(i 0).val / 64, by rw [hN]; omega⟩, rfl⟩
  obtain ⟨-, -, -, -, -, -, -, -, -, -, -, -, e0, e1⟩ := idx_facts t
  refine ⟨t, flush0_11 t, ?_⟩
  rw [mem_blk11]
  intro a
  match a with
  | ⟨0, _⟩ => show win0_11.index t (0 : Fin 2) * 64 ≤ (i 0).val ∧ (i 0).val < win0_11.index t (0 : Fin 2) * 64 + 64; rw [e0, ht]; omega
  | ⟨1, _⟩ => show win0_11.index t (1 : Fin 2) * 8192 ≤ (i 1).val ∧ (i 1).val < win0_11.index t (1 : Fin 2) * 8192 + 8192; rw [e1]; omega

/-- The histogram array after the pipeline. -/
theorem expect_final (c : Dev nD) : (dat0 (F := Ideal) V c).arrAt 11 cfg0.N = expectG V c :=
  (dat0 (F := Ideal) V c).arrAt_eq_of_cover 11 (expectG V c) (fun t _ => expect_flushed V c t) cover11

/-- The synonym-sum output (window 9) after the pipeline, read at row `r`, column `s`. -/
theorem synsum_arr (c : Dev nD) (r : Fin 4096) (s : Fin 8192) :
    (dat0 (F := Ideal) V c).arrAt 9 cfg0.N (ix2 r s)
      = Cert.Spec.synsumT (fun d => V c main_v14 (ix2 r d)) (fun d s => V c main_v30 (ix2 d s))
          (fun s => V c main_v32 (ix2 (0 : Fin 1) s)) s :=
  congrFun (synsum_final V c) (ix2 r s)

/-- The histogram output (window 11) after the pipeline, read at row `r`, column `s`. -/
theorem expected_arr (c : Dev nD) (r : Fin 4096) (s : Fin 8192) :
    (dat0 (F := Ideal) V c).arrAt 11 cfg0.N (ix2 r s)
      = Cert.Spec.expectT (fun k => V c main_v21 (ix2 r k)) (fun k => V c main_v28 (ix2 r k)) s :=
  congrFun (expect_final V c) (ix2 r s)

end Cert.KernelIdeal.Region0Sum

end
-- ==== Proof.Region1.lean ====
/-
  The second pallas_call's output as a whole array: entry `(r, v)` is row `r` of the symbol operand contracted with
  column `v` of the matrix operand, plus entry `v` of the bias row.
-/
import proofs.«422631_j22874995818884_3_alg».proof.Proof.Spec
import proofs.«422631_j22874995818884_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-block access, as the constant function. -/
theorem hz : (![0, 0] : Fin 2 → Nat) = fun _ => 0 := funext fun a => by fin_cases a <;> rfl

/-! ## The product's operand indices, axis by axis -/

theorem lhs_dot_0 (i : S512x3200.Idx) (q : dot_S512x768_S768x3200_S512x3200_1_0_0_1_n_n.contr.Idx) :
    (dot_S512x768_S768x3200_S512x3200_1_0_0_1_n_n.lhsIdx i q 0).val = (i 0).val := by
  unfold DotDims.lhsIdx
  rw [dif_neg (show ¬(0 : Fin S512x768.rank) ∈ dot_S512x768_S768x3200_S512x3200_1_0_0_1_n_n.lhsBatch by decide), dif_pos (show (0 : Fin S512x768.rank) ∈ dot_S512x768_S768x3200_S512x3200_1_0_0_1_n_n.lhsNonContracting by decide)]
  rfl
theorem lhs_dot_1 (i : S512x3200.Idx) (q : dot_S512x768_S768x3200_S512x3200_1_0_0_1_n_n.contr.Idx) :
    (dot_S512x768_S768x3200_S512x3200_1_0_0_1_n_n.lhsIdx i q 1).val = (q ⟨0, by decide⟩).val :=
  dot_S512x768_S768x3200_S512x3200_1_0_0_1_n_n.lhsIdx_val_of_single rfl i q
theorem rhs_dot_0 (i : S512x3200.Idx) (q : dot_S512x768_S768x3200_S512x3200_1_0_0_1_n_n.contr.Idx) :
    (dot_S512x768_S768x3200_S512x3200_1_0_0_1_n_n.rhsIdx i q 0).val = (q ⟨0, by decide⟩).val :=
  dot_S512x768_S768x3200_S512x3200_1_0_0_1_n_n.rhsIdx_val_of_single rfl i q
theorem rhs_dot_1 (i : S512x3200.Idx) (q : dot_S512x768_S768x3200_S512x3200_1_0_0_1_n_n.contr.Idx) :
    (dot_S512x768_S768x3200_S512x3200_1_0_0_1_n_n.rhsIdx i q 1).val = (i 1).val := by
  unfold DotDims.rhsIdx
  rw [dif_neg (show ¬(1 : Fin S768x3200.rank) ∈ dot_S512x768_S768x3200_S512x3200_1_0_0_1_n_n.rhsBatch by decide), dif_pos (show (1 : Fin S768x3200.rank) ∈ dot_S512x768_S768x3200_S512x3200_1_0_0_1_n_n.rhsNonContracting by decide)]
  rfl

/-- The product into the zero accumulator, read at row `p`, column `q` of the block: row `p` of the left block
    contracted with column `q` of the right block. -/
theorem matmul_block_apply (y0 : FVec Ideal S512x768 .bf16) (y1 : FVec Ideal S768x3200 .bf16) (p : Fin 512) (q : Fin 3200) :
    FloatOps.matmul dot_S512x768_S768x3200_S512x3200_1_0_0_1_n_n none y0 y1 (constant (F := Ideal) S512x3200 .f32 0x00000000#32) (ix2 p q)
      = ∑ k : Fin 768, y0 (ix2 p k) * y1 (ix2 k q) := by
  rw [Ideal.matmul_constant_zero_apply, ← Equiv.sum_comp (ValueIdx.contrEquiv1 dot_S512x768_S768x3200_S512x3200_1_0_0_1_n_n 768 rfl rfl).symm]
  refine Finset.sum_congr rfl fun k _ => ?_
  have hk := ValueIdx.contrEquiv1_symm_val dot_S512x768_S768x3200_S512x3200_1_0_0_1_n_n 768 rfl rfl k
  have el : dot_S512x768_S768x3200_S512x3200_1_0_0_1_n_n.lhsIdx (ix2 p q) ((ValueIdx.contrEquiv1 dot_S512x768_S768x3200_S512x3200_1_0_0_1_n_n 768 rfl rfl).symm k) = ix2 p k := funext fun a => Fin.ext (by
    match a with
    | ⟨0, _⟩ => exact lhs_dot_0 _ _
    | ⟨1, _⟩ => exact (lhs_dot_1 _ _).trans hk)
  have er : dot_S512x768_S768x3200_S512x3200_1_0_0_1_n_n.rhsIdx (ix2 p q) ((ValueIdx.contrEquiv1 dot_S512x768_S768x3200_S512x3200_1_0_0_1_n_n 768 rfl rfl).symm k) = ix2 k q := funext fun a => Fin.ext (by
    match a with
    | ⟨0, _⟩ => exact (rhs_dot_0 _ _).trans hk
    | ⟨1, _⟩ => exact rhs_dot_1 _ _)
  rw [el, er]

/-- The body's payload at row `p`, column `q` of the output block: row `p` of the symbol block contracted with
    column `q` of the matrix block, plus entry `q` of the bias block. -/
theorem pay_apply (x0 : Vec Ideal S512x768 .bf16) (x1 : Vec Ideal S768x3200 .bf16) (x2 : Vec Ideal S1x3200 .f32) (p : Fin 512) (q : Fin 3200) :
    k1_pay1 (F := Ideal) x0 x1 x2 (ix2 p q)
      = Cert.Spec.dotBias (fun d => x0 (ix2 p d)) (fun d => x1 (ix2 d q)) (x2 (ix2 (0 : Fin 1) q)) := by
  unfold k1_pay1 Cert.Spec.dotBias
  dsimp only
  rw [shapeCast_self, shapeCast_self, shapeCast_self, addf_apply]
  refine congrArg₂ (· + ·) (matmul_block_apply x0 x1 p q) ?_
  exact broadcastTo_apply x2 broadcasts_S1x3200_S512x3200 (ix2 p q) (ix2 (0 : Fin 1) q) (fun a => by
    match a with
    | ⟨0, _⟩ => rfl
    | ⟨1, _⟩ => rfl)

variable (V : (c : Dev nD) → (b : Ref sig .tc) → Buf (Elt Ideal) ((c : Thread nD τ).loc b))

/-- The second pipeline's output as ONE function of the three operand arrays: entry `(r, v)` is row `r` of the
    symbol array contracted with column `v` of the matrix array, plus entry `v` of the bias row. -/
def logitsFn (a0 : S4096x768.Idx → Elt Ideal .bf16) (a1 : S768x32000.Idx → Elt Ideal .bf16) (a2 : S1x32000.Idx → Elt Ideal .f32)
    (i : S4096x32000.Idx) : Elt Ideal .f32 :=
  Cert.Spec.dotBias (fun d => a0 (ix2 (⟨(i 0).val, (i 0).isLt⟩ : Fin 4096) d)) (fun d => a1 (ix2 d (⟨(i 1).val, (i 1).isLt⟩ : Fin 32000)))
    (a2 (ix2 (0 : Fin 1) (⟨(i 1).val, (i 1).isLt⟩ : Fin 32000)))

/-- The printed index maps, decided over the grid: the symbol window moves with the output's row tile and stays in
    column block 0, the matrix and bias windows stay in row block 0 and move with the output's column tile, and the
    output's block indices stay in their ranges. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) ≤ 7 ∧ win1_3.index t (1 : Fin 2) ≤ 9 :=
  (by decide +kernel : ∀ t : Fin grid1.N, _)

/-- Every (row tile, column tile) pair is SOME point's output block. -/
theorem idx_onto : ∀ (q0 : Fin 8) (q1 : Fin 10), ∃ t : Fin cfg1.N, win1_3.index t = ![q0.val, q1.val] :=
  (by decide +kernel : ∀ (q0 : Fin 8) (q1 : Fin 10), ∃ t : Fin grid1.N, win1_3.index t = ![q0.val, q1.val])

/-- WHAT POINT `t` WRITES BACK is block `t` of `logitsFn` of the operand arrays as the region finds them. -/
theorem flushed_eq (c : Dev nD) (t : Fin cfg1.N) :
    (dat1 (F := Ideal) V c).flushed 3 t
      = ((cfg1.win 3).blk t).view.read (Elt Ideal) (logitsFn (V c main_v33_2) (V c main_v35) (V c main_v40)) := by
  show (cfg1.win 3).cut (grid1.coords t) ((dat1 (F := Ideal) V c).after 3 t) = _
  rw [after1_3]
  unfold out1_3
  rw [View.canon_unit_zero hz]
  simp only [View.ld_unit_zero (S := S512x768) hz, View.ld_unit_zero (S := S768x3200) hz, View.ld_unit_zero (S := S1x3200) hz]
  obtain ⟨e0, e1, e2, e3, e4, e5, e6, e7⟩ := idx_facts t
  funext j
  obtain ⟨p, q, rfl⟩ : ∃ (p : Fin 512) (q : Fin 3200), j = ix2 p q := ⟨j 0, j 1, eq_ix2 j⟩
  refine (pay_apply (iblk1 V c 0 t) (iblk1 V c 1 t) (iblk1 V c 2 t) p q).trans ?_
  show _ = logitsFn (V c main_v33_2) (V c main_v35) (V c main_v40) (((cfg1.win 3).blk t).view.emb (ix2 p q))
  unfold logitsFn
  have hp : p.val < 512 := p.isLt
  have hq : q.val < 3200 := q.isLt
  refine congr (congr (congrArg Cert.Spec.dotBias (funext fun d => ?_)) (funext fun d => ?_)) ?_
  · show V c main_v33_2 (((cfg1.win 0).blk t).view.emb (ix2 p d)) = V c main_v33_2 _
    refine congrArg (V c main_v33_2) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 768 + 1 * d.val = d.val; omega
  · show V c main_v35 (((cfg1.win 1).blk t).view.emb (ix2 d q)) = V c main_v35 _
    refine congrArg (V c main_v35) (funext fun a => Fin.ext ?_)
    match a with
    | ⟨0, _⟩ => show win1_1.index t (0 : Fin 2) * 768 + 1 * d.val = d.val; omega
    | ⟨1, _⟩ => show win1_1.index t (1 : Fin 2) * 3200 + 1 * q.val = win1_3.index t (1 : Fin 2) * 3200 + 1 * q.val; omega
  · show V c main_v40 (((cfg1.win 2).blk t).view.emb (ix2 (0 : Fin 1) q)) = V c main_v40 _
    refine congrArg (V c main_v40) (funext fun a => Fin.ext ?_)
    match a with
    | ⟨0, _⟩ => show win1_2.index t (0 : Fin 2) * 1 + 1 * 0 = 0; omega
    | ⟨1, _⟩ => show win1_2.index t (1 : Fin 2) * 3200 + 1 * q.val = win1_3.index t (1 : Fin 2) * 3200 + 1 * q.val; omega

/-- An index of the output array is in point `t`'s block iff each coordinate is in the block's range on its axis. -/
theorem mem_blk (t : Fin cfg1.N) (i : S4096x32000.Idx) :
    i ∈ ((cfg1.win 3).blk t).view.set ↔ ∀ a : Fin 2, win1_3.index t a * S512x3200.size a ≤ (i a).val ∧ (i a).val < win1_3.index t a * S512x3200.size a + S512x3200.size a := by
  show i ∈ ((View.whole main_v41).slice (win1_3.rect t)).set ↔ _
  rw [View.set_slice_whole, Rect.mem_set_unit]
  exact Iff.rfl

/-- THE COVER: entry `(r, v)` lies in the block of the point whose row tile is `r / 512` and column tile `v / 3200`. -/
theorem cover (i : S4096x32000.Idx) :
    ∃ t : Fin cfg1.N, (cfg1.win 3).flush t = true ∧ i ∈ ((cfg1.win 3).blk t).view.set := by
  have hi0 : (i 0).val < 4096 := (i 0).isLt
  have hi1 : (i 1).val < 32000 := (i 1).isLt
  obtain ⟨t, ht⟩ := idx_onto ⟨(i 0).val / 512, by omega⟩ ⟨(i 1).val / 3200, by omega⟩
  have q0 : win1_3.index t (0 : Fin 2) = (i 0).val / 512 := congrFun ht 0
  have q1 : win1_3.index t (1 : Fin 2) = (i 1).val / 3200 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 3200 ≤ (i 1).val ∧ (i 1).val < win1_3.index t (1 : Fin 2) * 3200 + 3200; omega

/-- THE ARRAY after the pipeline: `logitsFn` of the operand arrays as the region finds them. -/
theorem logits_whole (c : Dev nD) :
    (dat1 (F := Ideal) V c).arrAt 3 cfg1.N = logitsFn (V c main_v33_2) (V c main_v35) (V c main_v40) :=
  (dat1 (F := Ideal) V c).arrAt_eq_of_cover 3 (logitsFn (V c main_v33_2) (V c main_v35) (V c main_v40))
    (fun t _ => flushed_eq V c t) cover

/-- The logits output (window 3 of the second pipeline) after the pipeline, read at row `r`, column `v`. -/
theorem logits_arr (c : Dev nD) (r : Fin 4096) (v : Fin 32000) :
    (dat1 (F := Ideal) V c).arrAt 3 cfg1.N (ix2 r v)
      = Cert.Spec.dotBias (fun d => V c main_v33_2 (ix2 r d)) (fun d => V c main_v35 (ix2 d v))
          (V c main_v40 (ix2 (0 : Fin 1) v)) := by
  exact (congrFun (logits_whole V c) (ix2 r v)).trans rfl

end Cert.KernelIdeal.Region1

end
-- ==== Proof.KernelValue.lean ====
/-
  The kernel program's four results as per-token functions of the argument arrays.

  Each result is the reshape of a flat array of 4096 rows; row `b · 2048 + l` of a flat array is the per-token function
  of the rows that token `(b, l)`'s id selects in the tables.  The logits need one law beyond re-indexing: the second
  call adds a bias row `0.1 · Σₐ W[768 + a, v]`, which is `Σₐ 0.1 · W[768 + a, v]` because multiplication by a
  non-negative finite constant distributes over sums of extended reals.
-/
import proofs.«422631_j22874995818884_3_alg».proof.Proof.HostSide
import proofs.«422631_j22874995818884_3_alg».proof.Proof.HostMid
import proofs.«422631_j22874995818884_3_alg».proof.Proof.HostTail
import proofs.«422631_j22874995818884_3_alg».proof.Proof.Region0Emb
import proofs.«422631_j22874995818884_3_alg».proof.Proof.Region0Sum
import proofs.«422631_j22874995818884_3_alg».proof.Proof.Region1

set_option maxRecDepth 16384

noncomputable section

namespace Cert.KernelIdeal.Results

open Cert.KernelIdeal Cert.KernelIdeal.Gen Idealize.ShloMosaic Idealize.ShloMosaic.TcCoe Idealize.ShloMosaic.ValueIdx Idealize.SL.Sem

/-- The literal 0.1f denotes a non-negative real. -/
theorem c01_eq : Cert.Spec.c01 = ((13421773 / 134217728 : ℝ) : EReal) := by
  unfold Cert.Spec.c01
  simp [Ideal.ofBits, Ideal.ieee, -EReal.coe_mul]; norm_num

/-- Multiplication by a non-negative real distributes over a finite sum of extended reals. -/
theorem coe_mul_sum {n : Nat} (r : ℝ) (hr : 0 ≤ r) (w : Fin n → EReal) :
    (r : EReal) * ∑ a, w a = ∑ a, (r : EReal) * w a := by
  refine Finset.induction_on (Finset.univ : Finset (Fin n)) (by simp) (fun a s ha ih => ?_)
  rw [Finset.sum_insert ha, Finset.sum_insert ha,
    EReal.left_distrib_of_nonneg_of_ne_top (by exact_mod_cast hr) (EReal.coe_ne_top r), ih]

/-- The flat token `b · 2048 + l` is token `(b, l)`. -/
theorem tok_flat (ids : IVec S2x2048 32) (b : Fin 2) (l : Fin 2048) :
    HostSide.tok ids (⟨b.val * 2048 + l.val, by have := b.isLt; have := l.isLt; omega⟩ : Fin 4096) = ids (ix2 b l) := by
  have hb := b.isLt
  have hl := l.isLt
  unfold HostSide.tok
  refine congrArg ids (funext fun a => Fin.ext ?_)
  match a with
  | ⟨0, _⟩ => show (b.val * 2048 + l.val) / 2048 = b.val; omega
  | ⟨1, _⟩ => show (b.val * 2048 + l.val) % 2048 = l.val; omega

variable (m : (ℓ : Loc nD τ sig) → Buf (Elt Ideal) ℓ) (ρ : Dev nD → PrngReg)

/-- The argument arrays as plain arrays of words and extended reals. -/
abbrev aIds (c : Dev nD) : S2x2048.Idx → BitVec 32 := m ((c.tc : Thread nD τ).loc main_arg0)
abbrev aW1 (c : Dev nD) : S40192x768.Idx → EReal := m ((c.tc : Thread nD τ).loc main_arg1)
abbrev aW2 (c : Dev nD) : S32000x768.Idx → EReal := m ((c.tc : Thread nD τ).loc main_arg2)
abbrev aWse (c : Dev nD) : S768x768.Idx → EReal := m ((c.tc : Thread nD τ).loc main_arg3)
abbrev aBse (c : Dev nD) : S768.Idx → EReal := m ((c.tc : Thread nD τ).loc main_arg4)
abbrev aWss (c : Dev nD) : S768x8192.Idx → EReal := m ((c.tc : Thread nD τ).loc main_arg5)
abbrev aBss (c : Dev nD) : S8192.Idx → EReal := m ((c.tc : Thread nD τ).loc main_arg6)
abbrev aWrev (c : Dev nD) : S784x32000.Idx → EReal := m ((c.tc : Thread nD τ).loc main_arg7)
abbrev aTbl (c : Dev nD) : S32000x4.Idx → BitVec 32 := m ((c.tc : Thread nD τ).loc main_arg8)
abbrev aMask (c : Dev nD) : S32000x4.Idx → EReal := m ((c.tc : Thread nD τ).loc main_arg9)

/-- The embedding result at token `(b, l)`, column `j`. -/
theorem emb_value (c : Dev nD) (b : Fin 2) (l : Fin 2048) (j : Fin 1584) :
    (W5 m ρ c (Proc.devRef .tc main_v42) : S2x2048x1584.Idx → EReal) (ix3 b l j)
      = Cert.Spec.embT (fun e => aW1 m c (ix2 (Cert.Spec.row 40192 (by decide) (aIds m c (ix2 b l))) e))
          (fun d => aW2 m c (ix2 (Cert.Spec.row 32000 (by decide) (aIds m c (ix2 b l))) d))
          (fun d e => aWse m c (ix2 d e)) (fun e => aBse m c (ix1 e)) j := by
  rw [HostTail.main_v42_apply, Region0Emb.emb_arr (V1 m ρ) c]
  refine congrFun (congr (congr (congr (congrArg Cert.Spec.embT ?_) ?_) ?_) ?_) j
  · funext e; exact (HostSide.v7_apply m ρ c _ e).trans (by rw [tok_flat])
  · funext d; exact (HostSide.v14_apply m ρ c _ d).trans (by rw [tok_flat])
  · funext d e; exact HostSide.v29_apply m ρ c d e
  · funext e; exact HostSide.v31_apply m ρ c e

/-- The synonym-sum result at token `(b, l)`, column `s`. -/
theorem synsum_value (c : Dev nD) (b : Fin 2) (l : Fin 2048) (s : Fin 8192) :
    (W5 m ρ c (Proc.devRef .tc main_v44) : S2x2048x8192.Idx → EReal) (ix3 b l s)
      = Cert.Spec.synsumT (fun d => aW2 m c (ix2 (Cert.Spec.row 32000 (by decide) (aIds m c (ix2 b l))) d))
          (fun d s => aWss m c (ix2 d s)) (fun s => aBss m c (ix1 s)) s := by
  rw [HostTail.main_v44_apply, Region0Sum.synsum_arr (V1 m ρ) c]
  refine congrFun (congr (congr (congrArg Cert.Spec.synsumT ?_) ?_) ?_) s
  · funext d; exact (HostSide.v14_apply m ρ c _ d).trans (by rw [tok_flat])
  · funext d s; exact HostSide.v30_apply m ρ c d s
  · funext s; exact HostSide.v32_apply m ρ c s

/-- The histogram result at token `(b, l)`, column `s`. -/
theorem expected_value (c : Dev nD) (b : Fin 2) (l : Fin 2048) (s : Fin 8192) :
    (W5 m ρ c (Proc.devRef .tc main_v45) : S2x2048x8192.Idx → EReal) (ix3 b l s)
      = Cert.Spec.expectT (fun k => aTbl m c (ix2 (Cert.Spec.row 32000 (by decide) (aIds m c (ix2 b l))) k))
          (fun k => aMask m c (ix2 (Cert.Spec.row 32000 (by decide) (aIds m c (ix2 b l))) k)) s := by
  rw [HostTail.main_v45_apply, Region0Sum.expected_arr (V1 m ρ) c]
  refine congrFun (congr (congrArg Cert.Spec.expectT ?_) ?_) s
  · funext k; exact (HostSide.v21_apply m ρ c _ k).trans (by rw [tok_flat])
  · funext k; exact (HostSide.v28_apply m ρ c _ k).trans (by rw [tok_flat])

/-- The logits result at token `(b, l)`, column `v`. -/
theorem logits_value (c : Dev nD) (b : Fin 2) (l : Fin 2048) (v : Fin 32000) :
    (W5 m ρ c (Proc.devRef .tc main_v43) : S2x2048x32000.Idx → EReal) (ix3 b l v)
      = Cert.Spec.logitT
          (Cert.Spec.symT (fun e => aW1 m c (ix2 (Cert.Spec.row 40192 (by decide) (aIds m c (ix2 b l))) e))
            (fun d => aW2 m c (ix2 (Cert.Spec.row 32000 (by decide) (aIds m c (ix2 b l))) d))
            (fun d e => aWse m c (ix2 d e)) (fun e => aBse m c (ix1 e)))
          (fun k v => aWrev m c (ix2 k v)) v := by
  rw [HostTail.main_v43_apply, Region1.logits_arr (V3 m ρ) c]
  have hsp : (fun d => V3 m ρ c main_v33_2 (ix2 (⟨b.val * 2048 + l.val, by have := b.isLt; have := l.isLt; omega⟩ : Fin 4096) d))
      = Cert.Spec.symT (fun e => aW1 m c (ix2 (Cert.Spec.row 40192 (by decide) (aIds m c (ix2 b l))) e))
          (fun d => aW2 m c (ix2 (Cert.Spec.row 32000 (by decide) (aIds m c (ix2 b l))) d))
          (fun d e => aWse m c (ix2 d e)) (fun e => aBse m c (ix1 e)) := by
    funext d
    rw [HostMid.sp_eq, Region0Emb.sp_arr (V1 m ρ) c]
    refine congrFun (congr (congr (congr (congrArg Cert.Spec.symT ?_) ?_) ?_) ?_) d
    · funext e; exact (HostSide.v7_apply m ρ c _ e).trans (by rw [tok_flat])
    · funext d; exact (HostSide.v14_apply m ρ c _ d).trans (by rw [tok_flat])
    · funext d e; exact HostSide.v29_apply m ρ c d e
    · funext e; exact HostSide.v31_apply m ρ c e
  have hwm : (fun d => V3 m ρ c main_v35 (ix2 d v))
      = fun d : Fin 768 => aWrev m c (ix2 (⟨d.val, by have := d.isLt; omega⟩ : Fin 784) v) :=
    funext fun d => HostMid.v35_apply m ρ c d v
  rw [hsp, hwm, HostMid.v40_apply]
  unfold Cert.Spec.dotBias Cert.Spec.logitT
  rw [zero_add, c01_eq, coe_mul_sum _ (by norm_num)]

end Cert.KernelIdeal.Results

end
-- ==== Proof.RefDense.lean ====
/-
  The reference's embedding, logits and synonym-sum results read at a token `(b, l)` and a column: each is the
  per-token function of the rows the token's id selects in the tables.
-/
import proofs.«422631_j22874995818884_3_alg».proof.Proof.Spec
import proofs.«422631_j22874995818884_3_alg».proof.Proof.Gen.ReferenceIdeal.Run
import proofs.«422631_j22874995818884_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefDense

open Cert.ReferenceIdeal Cert.ReferenceIdeal.Gen Cert.ReferenceIdeal.Read Idealize.ShloMosaic Idealize.ShloMosaic.TcCoe Idealize.ShloMosaic.ValueIdx Idealize.SL.Sem

variable (x0 : (⟨S2x2048, .i32⟩ : BufTy).Contents (Elt Ideal)) (x1 : (⟨S40192x768, .f32⟩ : BufTy).Contents (Elt Ideal))
  (x2 : (⟨S32000x768, .f32⟩ : BufTy).Contents (Elt Ideal)) (x3 : (⟨S768x768, .f32⟩ : BufTy).Contents (Elt Ideal))
  (x4 : (⟨S768, .f32⟩ : BufTy).Contents (Elt Ideal)) (x5 : (⟨S768x8192, .f32⟩ : BufTy).Contents (Elt Ideal))
  (x6 : (⟨S8192, .f32⟩ : BufTy).Contents (Elt Ideal)) (x7 : (⟨S784x32000, .f32⟩ : BufTy).Contents (Elt Ideal))

/-- The literal 8.0 denotes the real 8. -/
theorem ofBits_eight : Ideal.ofBits .f32 0x41000000#32 = ((8 : ℝ) : EReal) := by
  simp [Ideal.ofBits, Ideal.ieee, -EReal.coe_mul]; norm_num

/-- The literal 1.0 denotes 1. -/
theorem ofBits_one : Ideal.ofBits .f32 0x3F800000#32 = 1 := by
  simp [Ideal.ofBits, Ideal.ieee, -EReal.coe_mul]; norm_num

/-- Dividing by 8 and multiplying by 8 again returns every extended real, the infinities included. -/
theorem div_eight_mul_eight (w : EReal) : Ideal.div w ((8 : ℝ) : EReal) * ((8 : ℝ) : EReal) = w := by
  rw [Ideal.div_coe (by norm_num)]
  induction w using EReal.rec with
  | bot => rw [EReal.bot_mul_coe_of_pos (by norm_num), EReal.bot_mul_coe_of_pos (by norm_num)]
  | coe r => rw [← EReal.coe_mul, ← EReal.coe_mul]; congr 1; ring
  | top => rw [EReal.top_mul_coe_of_pos (by norm_num), EReal.top_mul_coe_of_pos (by norm_num)]

/-- The start index of the first table's gather at token `(b, l)`: the token id, wrapped. -/
theorem start_first (b : Fin 2) (l : Fin 2048) :
    val_main_v5 (F := Ideal) x0 (ix3 b l (⟨0, Nat.one_pos⟩ : Fin 1)) = Cert.Spec.wrapIdx 40192#32 (x0 (ix2 b l)) := by
  have e : idx_main_v5 (ix3 b l (⟨0, Nat.one_pos⟩ : Fin 1)) = ix2 b l :=
    funext fun a => Fin.ext (by match a with | ⟨0, _⟩ => rfl | ⟨1, _⟩ => rfl)
  rw [val_main_v5_apply, e, val_main_v4_apply, val_main_v1_apply, val_main_v3_apply, val_main_v0_apply, val_main_v2_apply,
    val_main_c_apply, val_main_c_0_apply]
  rfl

/-- The start index of the second table's gather at token `(b, l)`: the token id, wrapped. -/
theorem start_second (b : Fin 2) (l : Fin 2048) :
    val_main_v12 (F := Ideal) x0 (ix3 b l (⟨0, Nat.one_pos⟩ : Fin 1)) = Cert.Spec.wrapIdx 32000#32 (x0 (ix2 b l)) := by
  have e : idx_main_v12 (ix3 b l (⟨0, Nat.one_pos⟩ : Fin 1)) = ix2 b l :=
    funext fun a => Fin.ext (by match a with | ⟨0, _⟩ => rfl | ⟨1, _⟩ => rfl)
  rw [val_main_v12_apply, e, val_main_v11_apply, val_main_v8_apply, val_main_v10_apply, val_main_v7_apply, val_main_v9_apply,
    val_main_c_1_apply, val_main_c_2_apply]
  rfl

/-- The first table's gathered row at token `(b, l)`, column `d`. -/
theorem first_row_apply (b : Fin 2) (l : Fin 2048) (d : Fin 768) :
    val_main_v6 (F := Ideal) x0 x1 (ix3 b l d) = x1 (ix2 (Cert.Spec.row 40192 (by decide) (x0 (ix2 b l))) d) := by
  have h := Cert.Lib.RowGather.gather_rows_apply (N := 40192) (D := 768) (R := 2) (C := 2048) (by decide)
    Facts₀.gather_S40192x768_S2x2048x1_S2x2048x768_2_0_n_n_0_2_1768_wf x1 (val_main_v5 (F := Ideal) x0) b l d
  rw [start_first] at h
  exact h

/-- The second table's gathered row at token `(b, l)`, column `d`. -/
theorem second_row_apply (b : Fin 2) (l : Fin 2048) (d : Fin 768) :
    val_main_v13 (F := Ideal) x0 x2 (ix3 b l d) = x2 (ix2 (Cert.Spec.row 32000 (by decide) (x0 (ix2 b l))) d) := by
  have h := Cert.Lib.RowGather.gather_rows_apply (N := 32000) (D := 768) (R := 2) (C := 2048) (by decide)
    Facts₀.gather_S32000x768_S2x2048x1_S2x2048x768_2_0_n_n_0_2_1768_wf x2 (val_main_v12 (F := Ideal) x0) b l d
  rw [start_second] at h
  exact h

/-- The synonym activations at token `(b, l)`, column `d`: the three-stage squashing of the second table's entry. -/
theorem syn_apply (b : Fin 2) (l : Fin 2048) (d : Fin 768) :
    val_main_v39 (F := Ideal) x0 x2 (ix3 b l d)
      = Cert.Spec.synT (fun d => x2 (ix2 (Cert.Spec.row 32000 (by decide) (x0 (ix2 b l))) d)) d := by
  simp only [val_main_v39_apply, val_main_v27_apply, val_main_v38_apply, val_main_v26_apply, val_main_v37_apply,
    val_main_v25_apply, val_main_v36_apply, val_main_v24_apply, val_main_v35_apply, val_main_v23_apply, val_main_v34_apply,
    val_main_v22_apply, val_main_v33_apply, val_main_v21_apply, val_main_v32_apply, val_main_v20_apply, val_main_v31_apply,
    val_main_v19_apply, val_main_v30_apply, val_main_v18_apply, val_main_v29_apply, val_main_v28_apply, val_main_v17_apply,
    val_main_v16_apply, val_main_v15_apply, val_main_v14_apply, val_main_cst_apply, val_main_cst_3_apply, val_main_cst_4_apply,
    val_main_cst_5_apply, val_main_cst_6_apply, val_main_cst_7_apply, val_main_cst_8_apply, val_main_cst_9_apply,
    val_main_cst_10_apply, val_main_cst_11_apply, second_row_apply,
    Ideal.ofBits_def, Ideal.addf_def, Ideal.subf_def, Ideal.mulf_def, Ideal.hostDivf_def, Ideal.hostNegf_def, Ideal.negf_def,
    Ideal.hostUnary_exp_def, ofBits_eight, div_eight_mul_eight, ofBits_one]
  rfl

/-- The symbol vector at token `(b, l)`, column `e`: the first table's entry, plus the activations' linear image, plus the bias. -/
theorem sym_apply (b : Fin 2) (l : Fin 2048) (e : Fin 768) :
    val_main_v44 (F := Ideal) x0 x1 x2 x3 x4 (ix3 b l e)
      = Cert.Spec.symT (fun e => x1 (ix2 (Cert.Spec.row 40192 (by decide) (x0 (ix2 b l))) e))
          (fun d => x2 (ix2 (Cert.Spec.row 32000 (by decide) (x0 (ix2 b l))) d))
          (fun d e => x3 (ix2 d e)) (fun e => x4 (ix1 e)) e := by
  have el : ∀ k : Fin 768, lidx_main_v40 (ix3 b l e) k = ix3 b l k := fun k =>
    funext fun a => Fin.ext (by match a with | ⟨0, _⟩ => rfl | ⟨1, _⟩ => rfl | ⟨2, _⟩ => rfl)
  have er : ∀ k : Fin 768, ridx_main_v40 (ix3 b l e) k = ix2 k e := fun k =>
    funext fun a => Fin.ext (by match a with | ⟨0, _⟩ => rfl | ⟨1, _⟩ => rfl)
  have eb : idx_main_v42 (idx_main_v43 (ix3 b l e)) = ix1 e :=
    funext fun a => Fin.ext (by match a with | ⟨0, _⟩ => rfl)
  rw [val_main_v44_apply, val_main_v41_apply, val_main_v43_apply, val_main_v42_apply, val_main_v40_apply, first_row_apply, eb]
  simp only [el, er, syn_apply, Ideal.addf_def]
  rfl

/-- The padded symbol vector on its first 768 columns is the symbol vector. -/
theorem padded_left (b : Fin 2) (l : Fin 2048) (k : Fin 784) (hk : k.val < 768) :
    val_main_v46 (F := Ideal) x0 x1 x2 x3 x4 (ix3 b l k)
      = val_main_v44 (F := Ideal) x0 x1 x2 x3 x4 (ix3 b l (⟨k.val, hk⟩ : Fin 768)) := by
  unfold val_main_v46
  exact concatenate_pair_apply_left (s₁ := S2x2048x768) (s₂ := S2x2048x16) (2 : Fin S2x2048x784.rank) _ _ _ _ rfl (ix3 b l (⟨k.val, hk⟩ : Fin 768))
    (fun a => by match a with | ⟨0, _⟩ => rfl | ⟨1, _⟩ => rfl | ⟨2, _⟩ => rfl)

/-- The padded symbol vector on its last 16 columns is the constant 0.1. -/
theorem padded_right (b : Fin 2) (l : Fin 2048) (k : Fin 784) (hk : 768 ≤ k.val) :
    val_main_v46 (F := Ideal) x0 x1 x2 x3 x4 (ix3 b l k) = Cert.Spec.c01 := by
  unfold val_main_v46
  refine (concatenate_pair_apply_right (s₁ := S2x2048x768) (s₂ := S2x2048x16) (2 : Fin S2x2048x784.rank) _ _ _ _ rfl rfl
    (ix3 b l (⟨k.val - 768, by have := k.isLt; omega⟩ : Fin 16))
    (fun a ha => by
      match a with
      | ⟨0, _⟩ => rfl
      | ⟨1, _⟩ => rfl
      | ⟨2, _⟩ => exact absurd rfl ha)
    (by show k.val - 768 + 768 = k.val; omega)).trans ?_
  rw [val_main_v45_apply, val_main_cst_12_apply]
  rfl

/-- The embedding result at token `(b, l)`, column `j`. -/
theorem ref_emb (b : Fin 2) (l : Fin 2048) (j : Fin 1584) :
    val_main_v48 (F := Ideal) x0 x1 x2 x3 x4 (ix3 b l j)
      = Cert.Spec.embT (fun e => x1 (ix2 (Cert.Spec.row 40192 (by decide) (x0 (ix2 b l))) e))
          (fun d => x2 (ix2 (Cert.Spec.row 32000 (by decide) (x0 (ix2 b l))) d))
          (fun d e => x3 (ix2 d e)) (fun e => x4 (ix1 e)) j := by
  have hj := j.isLt
  unfold val_main_v48 Cert.Spec.embT
  by_cases h1 : j.val < 768
  · -- a column of the symbol vector: the first piece, and there the padded vector's first part
    rw [dif_pos h1]
    refine (concatenate_apply_piece (2 : Fin S2x2048x1584.rank) _ _ (ix3 b l j) 0 (by show (0 : Nat) < 3; decide) S2x2048x784
      (val_main_v46 (F := Ideal) x0 x1 x2 x3 x4) rfl rfl 0 rfl (ix3 b l (⟨j.val, by omega⟩ : Fin 784))
      (fun a ha => by
        match a with
        | ⟨0, _⟩ => rfl
        | ⟨1, _⟩ => rfl
        | ⟨2, _⟩ => exact absurd rfl ha)
      (by show 0 + j.val = j.val; omega)).trans ?_
    exact (padded_left x0 x1 x2 x3 x4 b l (⟨j.val, by omega⟩ : Fin 784) h1).trans (sym_apply x0 x1 x2 x3 x4 b l ⟨j.val, h1⟩)
  · rw [dif_neg h1]
    by_cases h2 : j.val < 816
    · rw [dif_pos h2]
      by_cases h3 : j.val < 784
      · -- one of the sixteen pad columns of the first piece
        refine (concatenate_apply_piece (2 : Fin S2x2048x1584.rank) _ _ (ix3 b l j) 0 (by show (0 : Nat) < 3; decide) S2x2048x784
          (val_main_v46 (F := Ideal) x0 x1 x2 x3 x4) rfl rfl 0 rfl (ix3 b l (⟨j.val, h3⟩ : Fin 784))
          (fun a ha => by
            match a with
            | ⟨0, _⟩ => rfl
            | ⟨1, _⟩ => rfl
            | ⟨2, _⟩ => exact absurd rfl ha)
          (by show 0 + j.val = j.val; omega)).trans ?_
        exact padded_right x0 x1 x2 x3 x4 b l (⟨j.val, h3⟩ : Fin 784) (Nat.le_of_not_lt h1)
      · -- one of the thirty-two constant columns of the second piece
        refine (concatenate_apply_piece (2 : Fin S2x2048x1584.rank) _ _ (ix3 b l j) 1 (by show (1 : Nat) < 3; decide) S2x2048x32
          (val_main_v47 (F := Ideal)) rfl rfl 784 rfl (ix3 b l (⟨j.val - 784, by omega⟩ : Fin 32))
          (fun a ha => by
            match a with
            | ⟨0, _⟩ => rfl
            | ⟨1, _⟩ => rfl
            | ⟨2, _⟩ => exact absurd rfl ha)
          (by show 784 + (j.val - 784) = j.val; omega)).trans ?_
        rw [val_main_v47_apply, val_main_cst_13_apply]
        rfl
    · -- a column of the activations: the third piece
      rw [dif_neg h2]
      refine (concatenate_apply_piece (2 : Fin S2x2048x1584.rank) _ _ (ix3 b l j) 2 (by show (2 : Nat) < 3; decide) S2x2048x768
        (val_main_v39 (F := Ideal) x0 x2) rfl rfl 816 rfl (ix3 b l (⟨j.val - 816, by omega⟩ : Fin 768))
        (fun a ha => by
          match a with
          | ⟨0, _⟩ => rfl
          | ⟨1, _⟩ => rfl
          | ⟨2, _⟩ => exact absurd rfl ha)
        (by show 816 + (j.val - 816) = j.val; omega)).trans ?_
      exact syn_apply x0 x2 b l ⟨j.val - 816, by omega⟩

/-- The synonym-sum result at token `(b, l)`, column `s`. -/
theorem ref_synsum (b : Fin 2) (l : Fin 2048) (s : Fin 8192) :
    val_main_v52 (F := Ideal) x0 x2 x5 x6 (ix3 b l s)
      = Cert.Spec.synsumT (fun d => x2 (ix2 (Cert.Spec.row 32000 (by decide) (x0 (ix2 b l))) d))
          (fun d s => x5 (ix2 d s)) (fun s => x6 (ix1 s)) s := by
  have el : ∀ k : Fin 768, lidx_main_v49 (ix3 b l s) k = ix3 b l k := fun k =>
    funext fun a => Fin.ext (by match a with | ⟨0, _⟩ => rfl | ⟨1, _⟩ => rfl | ⟨2, _⟩ => rfl)
  have er : ∀ k : Fin 768, ridx_main_v49 (ix3 b l s) k = ix2 k s := fun k =>
    funext fun a => Fin.ext (by match a with | ⟨0, _⟩ => rfl | ⟨1, _⟩ => rfl)
  have eb : idx_main_v50 (idx_main_v51 (ix3 b l s)) = ix1 s :=
    funext fun a => Fin.ext (by match a with | ⟨0, _⟩ => rfl)
  rw [val_main_v52_apply, val_main_v51_apply, val_main_v50_apply, val_main_v49_apply, eb]
  simp only [el, er, syn_apply, Ideal.addf_def]
  rfl
/-- The logits result at token `(b, l)`, column `v`. -/
theorem ref_logits (b : Fin 2) (l : Fin 2048) (v : Fin 32000) :
    val_main_v53 (F := Ideal) x0 x1 x2 x3 x4 x7 (ix3 b l v)
      = Cert.Spec.logitT
          (Cert.Spec.symT (fun e => x1 (ix2 (Cert.Spec.row 40192 (by decide) (x0 (ix2 b l))) e))
            (fun d => x2 (ix2 (Cert.Spec.row 32000 (by decide) (x0 (ix2 b l))) d))
            (fun d e => x3 (ix2 d e)) (fun e => x4 (ix1 e)))
          (fun k v => x7 (ix2 k v)) v := by
  have el : ∀ k : Fin 784, lidx_main_v53 (ix3 b l v) k = ix3 b l k := fun k =>
    funext fun a => Fin.ext (by match a with | ⟨0, _⟩ => rfl | ⟨1, _⟩ => rfl | ⟨2, _⟩ => rfl)
  have er : ∀ k : Fin 784, ridx_main_v53 (ix3 b l v) k = ix2 k v := fun k =>
    funext fun a => Fin.ext (by match a with | ⟨0, _⟩ => rfl | ⟨1, _⟩ => rfl)
  rw [val_main_v53_apply]
  simp only [el, er]
  refine (@Fin.sum_univ_add EReal _ 768 16
    (fun k : Fin 784 => val_main_v46 (F := Ideal) x0 x1 x2 x3 x4 (ix3 b l k) * x7 (ix2 k v))).trans ?_
  unfold Cert.Spec.logitT
  refine congrArg₂ (· + ·) (Finset.sum_congr rfl fun d _ => ?_) (Finset.sum_congr rfl fun a _ => ?_)
  · exact congrArg (· * x7 (ix2 (Fin.castAdd 16 d) v))
      ((padded_left x0 x1 x2 x3 x4 b l (Fin.castAdd 16 d) d.isLt).trans (sym_apply x0 x1 x2 x3 x4 b l d))
  · exact congrArg (· * x7 (ix2 (Fin.natAdd 768 a) v))
      (padded_right x0 x1 x2 x3 x4 b l (Fin.natAdd 768 a) (Nat.le_add_right 768 a.val))

end Cert.ReferenceIdeal.RefDense

end
-- ==== Proof.LibPointScatter.lean ====
/-
  A `stablehlo.scatter` that adds single ELEMENTS into a rank-2 array `[N, M]` — what `x.at[rows, cols].add(u)`
  lowers to for index arrays of shape `[R, C]` (no window axis, both operand axes inserted, scatter indices
  `[R, C, 2]` with the index vector last) — read through its landing map: the update at `(r, k)` lands at the
  element `(n, m)` exactly when the two components of its index vector, read as signed integers, are `n` and `m`
  (an index vector naming no element of the array lands nowhere).
-/
import Idealize.ShloMosaic.PureOps.Ideal
import Idealize.ShloMosaic.Lib.ValueIdx

noncomputable section

namespace Cert.Lib.PointScatter

open Idealize.ShloMosaic Idealize.ShloMosaic.ValueIdx

/-- The dimension numbers of an element scatter into `[N, M]` with scatter indices `[R, C, 2]` and updates `[R, C]`. -/
abbrev pointDims (N M R C : Nat)
    (wf : ScatterDims.WF ⟨2, ![N, M]⟩ ⟨3, ![R, C, 2]⟩ ⟨2, ![R, C]⟩ [] [0, 1] [0, 1] 2) :
    ScatterDims ⟨2, ![N, M]⟩ ⟨3, ![R, C, 2]⟩ ⟨2, ![R, C]⟩ where
  updateWindowDims := []
  insertedWindowDims := [0, 1]
  scatterDimsToOperandDims := [0, 1]
  indexVectorDim := 2
  wf := wf

variable {N M R C w : Nat}
  (wf : ScatterDims.WF ⟨2, ![N, M]⟩ ⟨3, ![R, C, 2]⟩ ⟨2, ![R, C]⟩ [] [0, 1] [0, 1] 2)

/-- No operand axis is a window axis: both are inserted. -/
theorem sKept_nil : (pointDims N M R C wf).sKept = [] := rfl

/-- The window coordinate is zero on both operand axes. -/
theorem window_zero (j : (⟨2, ![R, C]⟩ : Shape).Idx) (a : Fin 2) : (pointDims N M R C wf).window j a = 0 := by
  unfold ScatterDims.window
  rw [dif_neg (by rw [sKept_nil]; exact List.not_mem_nil)]

/-- The start on the row axis is the first component of the update's index vector, read signed. -/
theorem start_row (idx : IVec ⟨3, ![R, C, 2]⟩ w) (r : Fin R) (k : Fin C) :
    (pointDims N M R C wf).start (ix2 r k) idx (0 : Fin 2) = (idx (ix3 r k (0 : Fin 2))).toInt := by
  unfold ScatterDims.start
  rw [dif_pos (show (0 : Fin 2) ∈ (pointDims N M R C wf).scatterDimsToOperandDims from List.mem_cons_self ..)]
  have hsi : (pointDims N M R C wf).siIdx (ix2 r k) ⟨List.idxOf (0 : Fin 2) (pointDims N M R C wf).scatterDimsToOperandDims,
      List.idxOf_lt_length_iff.2 (List.mem_cons_self ..)⟩ = ix3 r k (0 : Fin 2) := by
    funext b; refine Fin.ext ?_
    match b with
    | ⟨0, _⟩ => rfl
    | ⟨1, _⟩ => rfl
    | ⟨2, _⟩ => rfl
  rw [hsi]

/-- The start on the column axis is the second component of the update's index vector, read signed. -/
theorem start_col (idx : IVec ⟨3, ![R, C, 2]⟩ w) (r : Fin R) (k : Fin C) :
    (pointDims N M R C wf).start (ix2 r k) idx (1 : Fin 2) = (idx (ix3 r k (1 : Fin 2))).toInt := by
  unfold ScatterDims.start
  have hm : (1 : Fin 2) ∈ (pointDims N M R C wf).scatterDimsToOperandDims :=
    List.mem_cons_of_mem _ (List.mem_cons_self ..)
  rw [dif_pos hm]
  have hsi : (pointDims N M R C wf).siIdx (ix2 r k) ⟨List.idxOf (1 : Fin 2) (pointDims N M R C wf).scatterDimsToOperandDims,
      List.idxOf_lt_length_iff.2 hm⟩ = ix3 r k (1 : Fin 2) := by
    funext b; refine Fin.ext ?_
    match b with
    | ⟨0, _⟩ => rfl
    | ⟨1, _⟩ => rfl
    | ⟨2, _⟩ => rfl
  rw [hsi]

/-- WHERE AN UPDATE LANDS: the update at `(r, k)` lands at `(n, m)` iff its index vector, read signed, is `(n, m)`. -/
theorem resultIdx?_eq_some_iff (idx : IVec ⟨3, ![R, C, 2]⟩ w) (r : Fin R) (k : Fin C) (n : Fin N) (m : Fin M) :
    (pointDims N M R C wf).resultIdx? (ix2 r k) idx = some (ix2 n m)
      ↔ (idx (ix3 r k (0 : Fin 2))).toInt = (n.val : Int) ∧ (idx (ix3 r k (1 : Fin 2))).toInt = (m.val : Int) := by
  have h0 := start_row wf idx r k
  have h1 := start_col wf idx r k
  have w0 := window_zero wf (ix2 r k) (0 : Fin 2)
  have w1 := window_zero wf (ix2 r k) (1 : Fin 2)
  unfold ScatterDims.resultIdx?
  constructor
  · intro h
    split at h
    · rename_i hb
      have e := Option.some.inj h
      have e0 := congrArg Fin.val (congrFun e (0 : Fin 2))
      have e1 := congrArg Fin.val (congrFun e (1 : Fin 2))
      have b0 := hb (0 : Fin 2)
      have b1 := hb (1 : Fin 2)
      simp only [h0, h1, w0, w1] at e0 e1 b0 b1
      constructor
      · have : ((idx (ix3 r k (0 : Fin 2))).toInt + ((0 : Nat) : Int)).toNat = n.val := e0
        omega
      · have : ((idx (ix3 r k (1 : Fin 2))).toInt + ((0 : Nat) : Int)).toNat = m.val := e1
        omega
    · exact absurd h (by simp)
  · rintro ⟨e0, e1⟩
    have hb : ∀ a : Fin 2, 0 ≤ (pointDims N M R C wf).start (ix2 r k) idx a + (pointDims N M R C wf).window (ix2 r k) a
        ∧ (pointDims N M R C wf).start (ix2 r k) idx a + (pointDims N M R C wf).window (ix2 r k) a
          < (⟨2, ![N, M]⟩ : Shape).size a := by
      intro a
      match a with
      | ⟨0, _⟩ =>
        have hn : n.val < N := n.isLt
        show 0 ≤ (pointDims N M R C wf).start (ix2 r k) idx (0 : Fin 2) + ((pointDims N M R C wf).window (ix2 r k) (0 : Fin 2) : Int)
          ∧ (pointDims N M R C wf).start (ix2 r k) idx (0 : Fin 2) + ((pointDims N M R C wf).window (ix2 r k) (0 : Fin 2) : Int) < (N : Int)
        rw [h0, w0, e0]; omega
      | ⟨1, _⟩ =>
        have hm : m.val < M := m.isLt
        show 0 ≤ (pointDims N M R C wf).start (ix2 r k) idx (1 : Fin 2) + ((pointDims N M R C wf).window (ix2 r k) (1 : Fin 2) : Int)
          ∧ (pointDims N M R C wf).start (ix2 r k) idx (1 : Fin 2) + ((pointDims N M R C wf).window (ix2 r k) (1 : Fin 2) : Int) < (M : Int)
        rw [h1, w1, e1]; omega
    rw [dif_pos hb]
    congr 1
    funext a
    refine Fin.ext ?_
    match a with
    | ⟨0, _⟩ =>
      show ((pointDims N M R C wf).start (ix2 r k) idx (0 : Fin 2) + ((pointDims N M R C wf).window (ix2 r k) (0 : Fin 2) : Int)).toNat = n.val
      rw [h0, w0, e0]; omega
    | ⟨1, _⟩ =>
      show ((pointDims N M R C wf).start (ix2 r k) idx (1 : Fin 2) + ((pointDims N M R C wf).window (ix2 r k) (1 : Fin 2) : Int)).toNat = m.val
      rw [h1, w1, e1]; omega

end Cert.Lib.PointScatter

end
-- ==== Proof.RefExpected.lean ====
/-
  The reference's histogram result read at a token `(b, l)` and a column `s`: when no synonym id is negative (so
  that the index normalisation adds nothing) the scatter-add leaves there the sum, over the token's four slots, of
  the mask values of the slots whose synonym id is `s`.
-/
import proofs.«422631_j22874995818884_3_alg».proof.Proof.Spec
import proofs.«422631_j22874995818884_3_alg».proof.Proof.LibPointScatter
import proofs.«422631_j22874995818884_3_alg».proof.Proof.Gen.ReferenceIdeal.Run
import proofs.«422631_j22874995818884_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefExpected

open Cert.ReferenceIdeal Cert.ReferenceIdeal.Gen Cert.ReferenceIdeal.Read Idealize.ShloMosaic Idealize.ShloMosaic.TcCoe Idealize.ShloMosaic.ValueIdx Idealize.SL.Sem
open Cert.Lib.RowGather Cert.Lib.PointScatter

/-! ## Words -/

/-- A word that is not negative is left alone by the index normalisation. -/
theorem wrap_of_nonneg (N x : BitVec 32) (h : 0 ≤ x.toInt) :
    Scalar.select (IntOp.cmpi .slt x 0#32) (IntOp.addi x N) x = x := by
  unfold Scalar.select
  rw [if_neg]
  intro hc
  have h2 : x.toInt < (0#32 : BitVec 32).toInt := IntOp.cmpi_slt.mp hc
  have h3 : (0#32 : BitVec 32).toInt = 0 := by decide
  omega

/-- A small natural number as a word reads back, signed, as itself. -/
theorem toInt_ofNat_small (n : Nat) (h : n < 2 ^ 31) : (BitVec.ofNat 32 n).toInt = (n : Int) := by
  rw [BitVec.toInt_eq_toNat_cond, BitVec.toNat_ofNat]
  have e : n % 2 ^ 32 = n := Nat.mod_eq_of_lt (by omega)
  rw [e]
  split <;> omega

/-- A word reads, signed, as a small natural number exactly when it is that number's word. -/
theorem toInt_eq_iff (t : BitVec 32) (s : Nat) (hs : s < 2 ^ 31) : t.toInt = (s : Int) ↔ t = BitVec.ofNat 32 s := by
  constructor
  · intro h
    apply BitVec.eq_of_toNat_eq
    rw [BitVec.toNat_ofNat]
    rw [BitVec.toInt_eq_toNat_cond] at h
    have := t.isLt
    split at h <;> omega
  · rintro rfl
    exact toInt_ofNat_small s hs

variable (x0 : (⟨S2x2048, .i32⟩ : BufTy).Contents (Elt Ideal)) (x8 : (⟨S32000x4, .i32⟩ : BufTy).Contents (Elt Ideal))
  (x9 : (⟨S32000x4, .f32⟩ : BufTy).Contents (Elt Ideal))

/-! ## The two gathers -/

/-- The row of the flattened token array that token `(b, l)` occupies. -/
def tok (b : Fin 2) (l : Fin 2048) : Fin 4096 := ⟨b.val * 2048 + l.val, by have := b.isLt; have := l.isLt; omega⟩

/-- The printed gather record is the row gather's. -/
theorem gather_eq : gather_S32000x4_S2x2048x1_S2x2048x4_2_0_n_n_0_2_14
    = rowDims 32000 4 2 2048 Facts₀.gather_S32000x4_S2x2048x1_S2x2048x4_2_0_n_n_0_2_14_wf := rfl

/-- The start index of the synonym-id gather at token `(b, l)`: the token id, normalised. -/
theorem v59_at (b : Fin 2) (l : Fin 2048) :
    val_main_v59 (F := Ideal) x0 (ix3 b l (⟨0, Nat.one_pos⟩ : Fin 1))
      = Cert.Spec.wrapIdx (BitVec.ofNat 32 32000) (x0 (ix2 b l)) := by
  rw [val_main_v59_apply]
  have e : idx_main_v59 (ix3 b l (⟨0, Nat.one_pos⟩ : Fin 1)) = ix2 b l := by
    funext a; match a with | ⟨0, _⟩ => rfl | ⟨1, _⟩ => rfl
  rw [e, val_main_v58_apply, val_main_v55_apply, val_main_v57_apply, val_main_v54_apply, val_main_c_14_apply,
    val_main_v56_apply, val_main_c_15_apply]
  rfl

/-- The start index of the mask gather at token `(b, l)`: the token id, normalised. -/
theorem v67_at (b : Fin 2) (l : Fin 2048) :
    val_main_v67 (F := Ideal) x0 (ix3 b l (⟨0, Nat.one_pos⟩ : Fin 1))
      = Cert.Spec.wrapIdx (BitVec.ofNat 32 32000) (x0 (ix2 b l)) := by
  rw [val_main_v67_apply]
  have e : idx_main_v67 (ix3 b l (⟨0, Nat.one_pos⟩ : Fin 1)) = ix2 b l := by
    funext a; match a with | ⟨0, _⟩ => rfl | ⟨1, _⟩ => rfl
  rw [e, val_main_v66_apply, val_main_v63_apply, val_main_v65_apply, val_main_v62_apply, val_main_c_16_apply,
    val_main_v64_apply, val_main_c_17_apply]
  rfl

/-- The gathered synonym ids of token `(b, l)`: the synonym table's row the token id selects. -/
theorem v60_at (b : Fin 2) (l : Fin 2048) (k : Fin 4) :
    val_main_v60 (F := Ideal) x0 x8 (ix3 b l k)
      = x8 (ix2 (Cert.Spec.row 32000 (by decide) (x0 (ix2 b l))) k) := by
  unfold val_main_v60
  rw [gather_eq, gather_rows_apply (by decide : 0 < 32000), v59_at]
  rfl

/-- The gathered mask values of token `(b, l)`: the mask table's row the token id selects. -/
theorem v68_at (b : Fin 2) (l : Fin 2048) (k : Fin 4) :
    val_main_v68 (F := Ideal) x0 x9 (ix3 b l k)
      = x9 (ix2 (Cert.Spec.row 32000 (by decide) (x0 (ix2 b l))) k) := by
  unfold val_main_v68
  rw [gather_eq, gather_rows_apply (by decide : 0 < 32000), v67_at]
  rfl

/-- The flattened token array's row `tok b l` is token `(b, l)`. -/
theorem idx61_tok (b : Fin 2) (l : Fin 2048) (k : Fin 4) : idx_main_v61 (ix2 (tok b l) k) = ix3 b l k := by
  have hb := b.isLt; have hl := l.isLt; have hk := k.isLt
  funext a; refine Fin.ext ?_
  match a with
  | ⟨0, _⟩ => show ((b.val * 2048 + l.val) * 4 + k.val) / 8192 = b.val; omega
  | ⟨1, _⟩ => show ((b.val * 2048 + l.val) * 4 + k.val) / 4 % 2048 = l.val; omega
  | ⟨2, _⟩ => show ((b.val * 2048 + l.val) * 4 + k.val) % 4 = k.val; omega

/-- The flattened synonym ids at row `tok b l`. -/
theorem v61_at (b : Fin 2) (l : Fin 2048) (k : Fin 4) :
    val_main_v61 (F := Ideal) x0 x8 (ix2 (tok b l) k)
      = x8 (ix2 (Cert.Spec.row 32000 (by decide) (x0 (ix2 b l))) k) := by
  rw [val_main_v61_apply, idx61_tok, v60_at]

/-- The flattened mask values (the scatter's updates) at row `tok b l`. -/
theorem v69_at (b : Fin 2) (l : Fin 2048) (k : Fin 4) :
    val_main_v69 (F := Ideal) x0 x9 (ix2 (tok b l) k)
      = x9 (ix2 (Cert.Spec.row 32000 (by decide) (x0 (ix2 b l))) k) := by
  rw [val_main_v69_apply, show idx_main_v69 (ix2 (tok b l) k) = ix3 b l k from idx61_tok b l k, v68_at]

/-! ## The scatter's index tensor -/

/-- The first component of the index vector at `(r, k)` is the row number `r`: the row iota, which the
    normalisation leaves alone because it is not negative. -/
theorem v86_row (r : Fin 4096) (k : Fin 4) :
    (val_main_v86 (F := Ideal) x0 x8 (ix3 r k (0 : Fin 2))).toInt = (r.val : Int) := by
  have hr := r.isLt
  unfold val_main_v86
  rw [concatenate_pair_apply_left (2 : Fin 3) (val_main_v84 (F := Ideal)) (val_main_v85 (F := Ideal) x0 x8)
    concatenates_S4096x4x1_S4096x4x1_S4096x4x2_d2 (ix3 r k (0 : Fin 2)) rfl (ix3 r k (⟨0, Nat.one_pos⟩ : Fin 1))
    (fun a => match a with | ⟨0, _⟩ => rfl | ⟨1, _⟩ => rfl | ⟨2, _⟩ => rfl)]
  rw [val_main_v84_apply]
  have e84 : idx_main_v84 (ix3 r k (⟨0, Nat.one_pos⟩ : Fin 1)) = ix2 r k := by
    funext a; match a with | ⟨0, _⟩ => rfl | ⟨1, _⟩ => rfl
  rw [e84, val_main_v83_apply]
  have e83 : idx_main_v83 (ix2 r k) = ix2 r (⟨0, Nat.one_pos⟩ : Fin 1) := by
    funext a; match a with | ⟨0, _⟩ => rfl | ⟨1, _⟩ => rfl
  rw [e83, val_main_v77_apply, val_main_v74_apply, val_main_v76_apply, val_main_v73_apply, val_main_c_19_apply,
    val_main_v75_apply, val_main_c_20_apply, val_main_v71_apply]
  have e71 : idx_main_v71 (ix2 r (⟨0, Nat.one_pos⟩ : Fin 1)) = ix1 r := by
    funext a; match a with | ⟨0, _⟩ => rfl
  rw [e71, val_main_v70_apply]
  show (Scalar.select (IntOp.cmpi .slt (BitVec.ofNat 32 r.val) 0#32) (IntOp.addi (BitVec.ofNat 32 r.val) 4096#32)
    (BitVec.ofNat 32 r.val)).toInt = (r.val : Int)
  have h := toInt_ofNat_small r.val (by omega)
  rw [wrap_of_nonneg _ _ (by omega), h]

/-- The second component of the index vector at `(tok b l, k)` is the `k`-th synonym id of token `(b, l)`: no
    synonym id is negative, so the normalisation leaves it alone. -/
theorem v86_col (hnn : ∀ i : S32000x4.Idx, 0 ≤ (x8 i).toInt) (b : Fin 2) (l : Fin 2048) (k : Fin 4) :
    val_main_v86 (F := Ideal) x0 x8 (ix3 (tok b l) k (1 : Fin 2))
      = x8 (ix2 (Cert.Spec.row 32000 (by decide) (x0 (ix2 b l))) k) := by
  unfold val_main_v86
  rw [concatenate_pair_apply_right (2 : Fin 3) (val_main_v84 (F := Ideal)) (val_main_v85 (F := Ideal) x0 x8)
    concatenates_S4096x4x1_S4096x4x1_S4096x4x2_d2 (ix3 (tok b l) k (1 : Fin 2)) rfl rfl
    (ix3 (tok b l) k (⟨0, Nat.one_pos⟩ : Fin 1))
    (fun a => match a with
      | ⟨0, _⟩ => fun _ => rfl
      | ⟨1, _⟩ => fun _ => rfl
      | ⟨2, _⟩ => fun h => absurd rfl h)
    rfl]
  rw [val_main_v85_apply]
  have e85 : idx_main_v85 (ix3 (tok b l) k (⟨0, Nat.one_pos⟩ : Fin 1)) = ix2 (tok b l) k := by
    funext a; match a with | ⟨0, _⟩ => rfl | ⟨1, _⟩ => rfl
  rw [e85, val_main_v82_apply, val_main_v79_apply, val_main_v81_apply, val_main_v78_apply, val_main_c_21_apply,
    val_main_v80_apply, val_main_c_22_apply, v61_at]
  exact wrap_of_nonneg _ _ (hnn _)

/-! ## The scatter-add and the result -/

/-- The printed scatter record is the element scatter's. -/
theorem scatter_eq : scatter_S4096x8192_S4096x4x2_S4096x4_n_01_01_2
    = pointDims 4096 8192 4096 4 Facts₀.scatter_S4096x8192_S4096x4x2_S4096x4_n_01_01_2_wf := rfl

/-- The zero array the scatter adds into. -/
theorem v72_at (i : S4096x8192.Idx) : val_main_v72 (F := Ideal) i = 0 := by
  rw [val_main_v72_apply, val_main_cst_18_apply]
  exact Ideal.ofBits_zero_f32

/-- The scatter-add read at `(n, m)`: the sum of the updates whose index vector, read signed, is `(n, m)`. -/
theorem v87_at (n : Fin 4096) (m : Fin 8192) :
    val_main_v87 (F := Ideal) x0 x8 x9 (ix2 n m)
      = ∑ r : Fin 4096, ∑ k : Fin 4,
          if (val_main_v86 (F := Ideal) x0 x8 (ix3 r k (0 : Fin 2))).toInt = (n.val : Int)
              ∧ (val_main_v86 (F := Ideal) x0 x8 (ix3 r k (1 : Fin 2))).toInt = (m.val : Int)
          then val_main_v69 (F := Ideal) x0 x9 (ix2 r k) else 0 := by
  unfold val_main_v87
  generalize val_main_v86 (F := Ideal) x0 x8 = idx
  generalize val_main_v69 (F := Ideal) x0 x9 = upd
  rw [scatter_eq]
  show Ideal.hostScatterAdd _ (val_main_v72 (F := Ideal)) idx upd (ix2 n m) = _
  unfold Ideal.hostScatterAdd
  rw [v72_at, zero_add, Finset.sum_filter, sum_idx2]
  refine Finset.sum_congr rfl fun r _ => Finset.sum_congr rfl fun k _ => ?_
  exact if_congr (resultIdx?_eq_some_iff _ idx r k n m) rfl rfl

/-- The reshape's row of token `(b, l)`. -/
theorem idx88_tok (b : Fin 2) (l : Fin 2048) (s : Fin 8192) : idx_main_v88 (ix3 b l s) = ix2 (tok b l) s := by
  have hb := b.isLt; have hl := l.isLt; have hs := s.isLt
  funext a; refine Fin.ext ?_
  match a with
  | ⟨0, _⟩ => show ((b.val * 2048 + l.val) * 8192 + s.val) / 8192 = b.val * 2048 + l.val; omega
  | ⟨1, _⟩ => show ((b.val * 2048 + l.val) * 8192 + s.val) % 8192 = s.val; omega

/-- The histogram result at token `(b, l)`, column `s`, for a synonym table with no negative entry. -/
theorem ref_expected (hnn : ∀ i : S32000x4.Idx, 0 ≤ (x8 i).toInt) (b : Fin 2) (l : Fin 2048) (s : Fin 8192) :
    val_main_v88 (F := Ideal) x0 x8 x9 (ix3 b l s)
      = Cert.Spec.expectT (fun k => x8 (ix2 (Cert.Spec.row 32000 (by decide) (x0 (ix2 b l))) k))
          (fun k => x9 (ix2 (Cert.Spec.row 32000 (by decide) (x0 (ix2 b l))) k)) s := by
  rw [val_main_v88_apply, idx88_tok, v87_at]
  -- only the row of token `(b, l)` carries an index vector whose first component is that row
  rw [Finset.sum_eq_single (tok b l)]
  · unfold Cert.Spec.expectT
    refine Finset.sum_congr rfl fun k _ => ?_
    rw [v86_row, v86_col x0 x8 hnn, v69_at]
    have hs := s.isLt
    exact if_congr ((and_iff_right rfl).trans (toInt_eq_iff _ s.val (by omega))) rfl rfl
  · intro r _ hr
    refine Finset.sum_eq_zero fun k _ => ?_
    rw [v86_row, if_neg]
    rintro ⟨h, _⟩
    apply hr
    apply Fin.ext
    show r.val = b.val * 2048 + l.val
    have : ((tok b l).val : Int) = ((b.val * 2048 + l.val : Nat) : Int) := rfl
    omega
  · intro h
    exact absurd (Finset.mem_univ _) h

end Cert.ReferenceIdeal.RefExpected

end
-- ==== Proof.PreRange.lean ====
/-
  What the precondition says of the synonym table: its last conjunct, `all((t ≥ 0) ∧ (t < 8192))`, holds of every entry,
  so no entry is negative when read as a signed integer.
-/
import proofs.«422631_j22874995818884_3_alg».proof.Pre_finite_inputs
import Idealize.ShloMosaic.Lib.ReduceAll
import Idealize.ShloMosaic.Lib.ValueIdx
import Idealize.ShloMosaic.Lib.StableHlo.Predicate

noncomputable section

namespace Cert.Pre_finite_inputs.Range

open Idealize.ShloMosaic Cert.Pre_finite_inputs

variable [Facts]

instance : Subsingleton S_.Idx := ⟨fun a b => funext fun d => d.elim0⟩

/-- Under the precondition every synonym-table entry is non-negative. -/
theorem nonneg_of_pre {F : FTy → Type} [FloatOps F] (a0 : IVec S2x2048 32) (a1 : FVec F S40192x768 .f32)
    (a2 : FVec F S32000x768 .f32) (a3 : FVec F S768x768 .f32) (a4 : FVec F S768 .f32) (a5 : FVec F S768x8192 .f32)
    (a6 : FVec F S8192 .f32) (a7 : FVec F S784x32000 .f32) (a8 : IVec S32000x4 32) (a9 : FVec F S32000x4 .f32)
    (h : fn (F := F) a0 a1 a2 a3 a4 a5 a6 a7 a8 a9 = fun _ => 1#1) (i : S32000x4.Idx) : 0 ≤ (a8 i).toInt := by
  have h0 := congrFun h ValueIdx.ix0
  dsimp only [fn, fn_part1, fn_part2] at h0
  obtain ⟨-, h44⟩ := IntOp.andi_eq_one.1 h0
  have h43 := Host.reduce_andi_all _ _ _ _ _ h44 i
  obtain ⟨hge, -⟩ := IntOp.andi_eq_one.1 h43
  have h1 : BitVec.ofBool ((0#32 : BitVec 32).sle (a8 i)) = 1#1 := hge
  have h2 : (0#32 : BitVec 32).sle (a8 i) = true := (StableHlo.Predicate.ofBool_eq_one_iff _).1 h1
  have h3 : (0#32 : BitVec 32).toInt ≤ (a8 i).toInt := of_decide_eq_true h2
  simpa using h3

end Cert.Pre_finite_inputs.Range

end
-- ==== Proof.lean ====
/-
  The kernel — two pallas_calls around plain gathers — against its jnp reference, over the extended reals.

  Per token `(b, l)` both programs select one row of each table by the token's id (a negative id wrapped by the
  table's length, then clamped) and compute from those rows: the synonym activations `σ(3(w − 4)) − σ(3(−w − 4))`; the
  symbol vector (first-table row plus a linear image of the activations plus a bias); the embedding row (symbol vector,
  48 constants 0.1, activations); the synonym sums (a second linear image plus bias); the reverse-embedding logits; and
  the expected-synonym histogram.  The two programs differ in arrangement only:
  * the reference divides the table entry by 8 and multiplies by 8 again before squashing, which returns every
    extended real; its logistic is spelt `1 / (1 + e^(−x))`, which is the kernel's logistic;
  * the reference contracts the symbol vector PADDED with sixteen constants 0.1 against all 784 rows of the matrix, the
    kernel contracts the 768 symbol entries against the first 768 rows and adds `0.1 · Σₐ W[768 + a, v]`: equal because
    a sum splits at any point and multiplication by a non-negative finite constant distributes over a sum;
  * the reference scatter-adds each of a token's four mask values at the column its synonym id names, after Python-style
    normalisation of a negative id; the kernel adds `mask · [column = id]` for the raw id.  These agree when no synonym
    id is negative, which is what the precondition's range conjunct on the synonym table provides (it is the one place
    the precondition is used; finiteness of the float inputs is not needed).
  Every result is paired index by index through the per-token functions of `Cert.Spec`.
-/
import proofs.«422631_j22874995818884_3_alg».proof.Defs
import proofs.«422631_j22874995818884_3_alg».proof.Proof.Gen.Kernel
import proofs.«422631_j22874995818884_3_alg».proof.Proof.Gen.Kernel.Skeleton
import proofs.«422631_j22874995818884_3_alg».proof.Proof.Gen.Kernel.Launch
import proofs.«422631_j22874995818884_3_alg».proof.Proof.Gen.Kernel.Points
import proofs.«422631_j22874995818884_3_alg».proof.Proof.Gen.Kernel.Frame
import proofs.«422631_j22874995818884_3_alg».proof.Proof.Gen.KernelIdeal
import proofs.«422631_j22874995818884_3_alg».proof.Proof.Gen.KernelIdeal.Skeleton
import proofs.«422631_j22874995818884_3_alg».proof.Proof.Gen.KernelIdeal.Launch
import proofs.«422631_j22874995818884_3_alg».proof.Proof.Gen.KernelIdeal.Points
import proofs.«422631_j22874995818884_3_alg».proof.Proof.Gen.KernelIdeal.Frame
import proofs.«422631_j22874995818884_3_alg».proof.Proof.Gen.ReferenceIdeal
import proofs.«422631_j22874995818884_3_alg».proof.Proof.Gen.ReferenceIdeal.Run
import proofs.«422631_j22874995818884_3_alg».proof.Proof.Gen.ReferenceIdeal.Read
import proofs.«422631_j22874995818884_3_alg».proof.Proof.Gen.Pre_finite_inputs
import proofs.«422631_j22874995818884_3_alg».proof.Proof.KernelRun
import proofs.«422631_j22874995818884_3_alg».proof.Proof.KernelValue
import proofs.«422631_j22874995818884_3_alg».proof.Proof.RefDense
import proofs.«422631_j22874995818884_3_alg».proof.Proof.RefExpected
import proofs.«422631_j22874995818884_3_alg».proof.Proof.PreRange
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results forgotten. -/
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both programs run; the kernel's four result arrays (named by its run) are, index by index, the reference's. -/
theorem algebraic : Cert.algebraic_KernelIdeal_ReferenceIdeal := by
  intro m ρ m' ρ' hpre hagree
  refine ⟨fun c => Cert.KernelIdeal.Gen.W5 m ρ c (Proc.devRef .tc Cert.KernelIdeal.main_v42),
    fun c => Cert.KernelIdeal.Gen.W5 m ρ c (Proc.devRef .tc Cert.KernelIdeal.main_v43),
    fun c => Cert.KernelIdeal.Gen.W5 m ρ c (Proc.devRef .tc Cert.KernelIdeal.main_v44),
    fun c => Cert.KernelIdeal.Gen.W5 m ρ c (Proc.devRef .tc Cert.KernelIdeal.main_v45),
    Cert.KernelIdeal.Gen.run_named m ρ, ?_⟩
  refine (θ_run Cert.ReferenceIdeal.defs _ _).mono (fun r h c => ?_) (Cert.ReferenceIdeal.Value.run (F := Ideal) m' ρ')
  obtain ⟨h48, h53, h52, h88, hargs⟩ := h c
  obtain ⟨e0, e1, e2, e3, e4, e5, e6, e7, e8, e9⟩ := hagree c
  refine ⟨h48.trans ?_, h53.trans ?_, h52.trans ?_, h88.trans ?_, hargs⟩
  · rw [Cert.ReferenceIdeal.Read.val_main_v48_eq]
    funext i
    obtain ⟨b, l, j, rfl⟩ : ∃ (b : Fin 2) (l : Fin 2048) (j : Fin 1584), i = ix3 b l j := ⟨i 0, i 1, i 2, eq_ix3 i⟩
    rw [Cert.ReferenceIdeal.RefDense.ref_emb, e0, e1, e2, e3, e4]
    exact (Cert.KernelIdeal.Results.emb_value m ρ c b l j).symm
  · refine (Cert.ReferenceIdeal.Read.val_main_v53_eq _ _ _ _ _ _).trans ?_
    funext i
    obtain ⟨b, l, v, rfl⟩ : ∃ (b : Fin 2) (l : Fin 2048) (v : Fin 32000), i = ix3 b l v := ⟨i 0, i 1, i 2, eq_ix3 i⟩
    rw [Cert.ReferenceIdeal.RefDense.ref_logits, e0, e1, e2, e3, e4, e7]
    exact (Cert.KernelIdeal.Results.logits_value m ρ c b l v).symm
  · refine (Cert.ReferenceIdeal.Read.val_main_v52_eq _ _ _ _).trans ?_
    funext i
    obtain ⟨b, l, s, rfl⟩ : ∃ (b : Fin 2) (l : Fin 2048) (s : Fin 8192), i = ix3 b l s := ⟨i 0, i 1, i 2, eq_ix3 i⟩
    rw [Cert.ReferenceIdeal.RefDense.ref_synsum, e0, e2, e5, e6]
    exact (Cert.KernelIdeal.Results.synsum_value m ρ c b l s).symm
  · refine (Cert.ReferenceIdeal.Read.val_main_v88_eq _ _ _).trans ?_
    funext i
    obtain ⟨b, l, s, rfl⟩ : ∃ (b : Fin 2) (l : Fin 2048) (s : Fin 8192), i = ix3 b l s := ⟨i 0, i 1, i 2, eq_ix3 i⟩
    have hnn : ∀ i : Cert.ReferenceIdeal.S32000x4.Idx,
        0 ≤ ((m' ((c.tc : Thread Cert.ReferenceIdeal.nD Cert.ReferenceIdeal.τ).loc Cert.ReferenceIdeal.main_arg8)
          : Cert.ReferenceIdeal.S32000x4.Idx → BitVec 32) i).toInt := by
      rw [e8]
      exact Cert.Pre_finite_inputs.Range.nonneg_of_pre _ _ _ _ _ _ _ _ _ _ (hpre c)
    rw [Cert.ReferenceIdeal.RefExpected.ref_expected _ _ _ hnn, e0, e8, e9]
    exact (Cert.KernelIdeal.Results.expected_value m ρ c b l s).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
